-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x128 : Shape := ⟨2, ![128, 128]⟩
abbrev S128 : Shape := ⟨1, ![128]⟩
abbrev S2x262144 : Shape := ⟨2, ![2, 262144]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x262144 : S_.BroadcastsInDim S2x262144 (![] : Fin 0 → Fin S2x262144.rank)
  reducesTo_S2x262144_S_d0_1 : S2x262144.ReducesTo [0, 1] S_

variable [Facts]

def fn_part1 {F : FTy → Type} [FloatOps F] (main_arg3 : IVec S2x262144 32) (main_v13 : IVec S_ 1) (main_v15 : IVec S2x262144 1) (main_c_5 : IVec S_ 32) : IVec S_ 1 :=
  let main_v16 : IVec S2x262144 32 := broadcastInDim S2x262144 ![] bcast_S_S2x262144 main_c_5
  let main_v17 : IVec S2x262144 1 := cmpi .slt main_arg3 main_v16
  let main_v18 : IVec S2x262144 1 := andi main_v15 main_v17
  let main_c_6 : IVec S_ 1 := constantI S_ 1 1#1
  let main_v19 : IVec S_ 1 := (fun x v => Host.reduce IntOp.andi x v reducesTo_S2x262144_S_d0_1 h_S_) main_v18 main_c_6
  let main_v20 : IVec S_ 1 := andi main_v13 main_v19
  main_v20

def fn {F : FTy → Type} [FloatOps F] (main_arg0 : FVec F S8192x128 .f32) (main_arg1 : FVec F S128x128 .f32) (main_arg2 : FVec F S128 .f32) (main_arg3 : IVec S2x262144 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2x262144 32 := broadcastInDim S2x262144 ![] bcast_S_S2x262144 main_c_4
  let main_v15 : IVec S2x262144 1 := cmpi .sge main_arg3 main_v14
  let main_c_5 : IVec S_ 32 := constantI S_ 32 8192#32
  fn_part1 (F := F) main_arg3 main_v13 main_v15 main_c_5
-- ==== Kernel.lean ====
abbrev S8192x128 : Shape := ⟨2, ![8192, 128]⟩
abbrev S128x128 : Shape := ⟨2, ![128, 128]⟩
abbrev S128 : Shape := ⟨1, ![128]⟩
abbrev S2x262144 : Shape := ⟨2, ![2, 262144]⟩
abbrev S1x262144 : Shape := ⟨2, ![1, 262144]⟩
abbrev S262144 : Shape := ⟨1, ![262144]⟩
abbrev S8192 : Shape := ⟨1, ![8192]⟩
abbrev S270336 : Shape := ⟨1, ![270336]⟩
abbrev S_ : Shape := ⟨0, ![]⟩
abbrev S8192x8192 : Shape := ⟨2, ![8192, 8192]⟩
abbrev S270336x1 : Shape := ⟨2, ![270336, 1]⟩
abbrev S270336x2 : Shape := ⟨2, ![270336, 2]⟩
abbrev S1 : Shape := ⟨1, ![1]⟩
abbrev S270335 : Shape := ⟨1, ![270335]⟩
abbrev S8192x1 : Shape := ⟨2, ![8192, 1]⟩
abbrev S1024x128 : Shape := ⟨2, ![1024, 128]⟩
abbrev S1024x1 : Shape := ⟨2, ![1024, 1]⟩
abbrev S1x128 : Shape := ⟨2, ![1, 128]⟩
abbrev S1024x4096 : Shape := ⟨2, ![1024, 4096]⟩
abbrev S4096x128 : Shape := ⟨2, ![4096, 128]⟩

abbrev nBuf : Space → Nat
  | .hbm => 86
  | .vmem => 17
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128, .f32⟩
  | .hbm, ⟨3, _⟩ => ⟨S2x262144, .i32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S8192, .i32⟩
  | .hbm, ⟨9, _⟩ => ⟨S270336, .i32⟩
  | .hbm, ⟨10, _⟩ => ⟨S270336, .i32⟩
  | .hbm, ⟨11, _⟩ => ⟨S_, .bf16⟩
  | .hbm, ⟨12, _⟩ => ⟨S8192x8192, .bf16⟩
  | .hbm, ⟨13, _⟩ => ⟨S_, .i32⟩
  | .hbm, ⟨14, _⟩ => ⟨S270336, .i32⟩
  | .hbm, ⟨15, _⟩ => ⟨S270336, .i1⟩
  | .hbm, ⟨16, _⟩ => ⟨S_, .i32⟩
  | .hbm, ⟨17, _⟩ => ⟨S270336, .i32⟩
  | .hbm, ⟨18, _⟩ => ⟨S270336, .i32⟩
  | .hbm, ⟨19, _⟩ => ⟨S270336, .i32⟩
  | .hbm, ⟨20, _⟩ => ⟨S_, .i32⟩
  | .hbm, ⟨21, _⟩ => ⟨S270336, .i32⟩
  | .hbm, ⟨22, _⟩ => ⟨S270336, .i1⟩
  | .hbm, ⟨23, _⟩ => ⟨S_, .i32⟩
  | .hbm, ⟨24, _⟩ => ⟨S270336, .i32⟩
  | .hbm, ⟨25, _⟩ => ⟨S270336, .i32⟩
  | .hbm, ⟨26, _⟩ => ⟨S270336, .i32⟩
  | .hbm, ⟨27, _⟩ => ⟨S270336x1, .i32⟩
  | .hbm, ⟨28, _⟩ => ⟨S270336x1, .i32⟩
  | .hbm, ⟨29, _⟩ => ⟨S270336x2, .i32⟩
  | .hbm, ⟨30, _⟩ => ⟨S_, .bf16⟩
  | .hbm, ⟨31, _⟩ => ⟨S270336, .bf16⟩
  | .hbm, ⟨32, _⟩ => ⟨S8192x8192, .bf16⟩
  | .hbm, ⟨33, _⟩ => ⟨S_, .i32⟩
  | .hbm, ⟨34, _⟩ => ⟨S270336, .i32⟩
  | .hbm, ⟨35, _⟩ => ⟨S270336, .i32⟩
  | .hbm, ⟨36, _⟩ => ⟨S270336, .i32⟩
  | .hbm, ⟨37, _⟩ => ⟨S270336, .i32⟩
  | .hbm, ⟨38, _⟩ => ⟨S_, .i1⟩
  | .hbm, ⟨39, _⟩ => ⟨S1, .i1⟩
  | .hbm, ⟨40, _⟩ => ⟨S270335, .i32⟩
  | .hbm, ⟨41, _⟩ => ⟨S270335, .i32⟩
  | .hbm, ⟨42, _⟩ => ⟨S270335, .i1⟩
  | .hbm, ⟨43, _⟩ => ⟨S270336, .i1⟩
  | .hbm, ⟨44, _⟩ => ⟨S_, .i32⟩
  | .hbm, ⟨45, _⟩ => ⟨S_, .i32⟩
  | .hbm, ⟨46, _⟩ => ⟨S270336, .i32⟩
  | .hbm, ⟨47, _⟩ => ⟨S270336, .i32⟩
  | .hbm, ⟨48, _⟩ => ⟨S270336, .i32⟩
  | .hbm, ⟨49, _⟩ => ⟨S_, .i32⟩
  | .hbm, ⟨50, _⟩ => ⟨S270336, .i32⟩
  | .hbm, ⟨51, _⟩ => ⟨S270336, .i1⟩
  | .hbm, ⟨52, _⟩ => ⟨S270336, .i32⟩
  | .hbm, ⟨53, _⟩ => ⟨S270336, .i32⟩
  | .hbm, ⟨54, _⟩ => ⟨S_, .i32⟩
  | .hbm, ⟨55, _⟩ => ⟨S270336, .i32⟩
  | .hbm, ⟨56, _⟩ => ⟨S270336, .i1⟩
  | .hbm, ⟨57, _⟩ => ⟨S270336, .i1⟩
  | .hbm, ⟨58, _⟩ => ⟨S_, .i32⟩
  | .hbm, ⟨59, _⟩ => ⟨S270336, .i32⟩
  | .hbm, ⟨60, _⟩ => ⟨S270336, .i32⟩
  | .hbm, ⟨61, _⟩ => ⟨S270336, .i32⟩
  | .hbm, ⟨62, _⟩ => ⟨S270336, .f32⟩
  | .hbm, ⟨63, _⟩ => ⟨S_, .f32⟩
  | .hbm, ⟨64, _⟩ => ⟨S8192, .f32⟩
  | .hbm, ⟨65, _⟩ => ⟨S270336x1, .i32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .i1⟩
  | .hbm, ⟨70, _⟩ => ⟨S_, .f32⟩
  | .hbm, ⟨71, _⟩ => ⟨S8192, .f32⟩
  | .hbm, ⟨72, _⟩ => ⟨S8192, .i1⟩
  | .hbm, ⟨73, _⟩ => ⟨S_, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192x1, .f32⟩
  | .hbm, ⟨83, _⟩ => ⟨S8192x128, .bf16⟩
  | .hbm, ⟨84, _⟩ => ⟨S1x128, .f32⟩
  | .hbm, ⟨85, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x1, .f32⟩
  | .local _ .vmem, ⟨4, _⟩ => ⟨S1024x1, .f32⟩
  | .local _ .vmem, ⟨5, _⟩ => ⟨S1024x128, .bf16⟩
  | .local _ .vmem, ⟨6, _⟩ => ⟨S1024x128, .bf16⟩
  | .local _ .vmem, ⟨7, _⟩ => ⟨S1024x4096, .bf16⟩
  | .local _ .vmem, ⟨8, _⟩ => ⟨S1024x4096, .bf16⟩
  | .local _ .vmem, ⟨9, _⟩ => ⟨S4096x128, .bf16⟩
  | .local _ .vmem, ⟨10, _⟩ => ⟨S4096x128, .bf16⟩
  | .local _ .vmem, ⟨11, _⟩ => ⟨S1024x1, .f32⟩
  | .local _ .vmem, ⟨12, _⟩ => ⟨S1024x1, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_v38 : Ref sig .tc := ⟨.hbm, 69, rfl⟩
abbrev main_cst_9 : Ref sig .tc := ⟨.hbm, 70, rfl⟩
abbrev main_v39 : Ref sig .tc := ⟨.hbm, 71, rfl⟩
abbrev main_v40 : Ref sig .tc := ⟨.hbm, 72, rfl⟩
abbrev main_cst_10 : Ref sig .tc := ⟨.hbm, 73, rfl⟩
abbrev main_call2_v0 : Ref sig .tc := ⟨.hbm, 74, rfl⟩
abbrev main_call2_v1 : Ref sig .tc := ⟨.hbm, 75, rfl⟩
abbrev main_v41 : Ref sig .tc := ⟨.hbm, 76, rfl⟩
abbrev main_v42 : Ref sig .tc := ⟨.hbm, 77, rfl⟩
abbrev main_cst_11 : Ref sig .tc := ⟨.hbm, 78, rfl⟩
abbrev main_call3_v0 : Ref sig .tc := ⟨.hbm, 79, rfl⟩
abbrev main_call3_v1 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S8192x8192 : S_.BroadcastsInDim S8192x8192 (![] : Fin 0 → Fin S8192x8192.rank)
  bcast_S_S270336 : S_.BroadcastsInDim S270336 (![] : Fin 0 → Fin S270336.rank)
  bcast_S270336_S270336x1_0 : S270336.BroadcastsInDim S270336x1 (![0] : Fin 1 → Fin S270336x1.rank)
  concatenates_S270336x1_S270336x1_S270336x2_d1 : Shape.Concatenates [S270336x1, S270336x1] S270336x2 1
  bcast_S_S1 : S_.BroadcastsInDim S1 (![] : Fin 0 → Fin S1.rank)
  slices_S270336_S270335_1 : S270336.Slices ![1] S270335
  slices_S270336_S270335_0 : S270336.Slices ![0] S270335
  concatenates_S1_S270335_S270336_d0 : Shape.Concatenates [S1, S270335] S270336 0
  bcast_S_S8192 : S_.BroadcastsInDim S8192 (![] : Fin 0 → Fin S8192.rank)
  shapeCasts_S8192_S8192x1 : S8192.ShapeCasts S8192x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  packedbf16_S1024x128_S1024x128_0_0 : (Rect.unit (s := S1024x128) ![0, 0] S1024x128.size inb_S1024x128_S1024x128_0_0).PackedRows (EltTy.packing .bf16)
  shapeCasts_S128_S1x128 : S128.ShapeCasts S1x128
  shapeCasts_S1024x128_S1024x128 : S1024x128.ShapeCasts S1024x128
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  scatter_S8192x8192_S270336x2_S270336_n_01_01_1_wf : ScatterDims.WF S8192x8192 S270336x2 S270336 [] [0, 1] [0, 1] 1
  scatter_S8192_S270336x1_S270336_n_0_0_1_wf : ScatterDims.WF S8192 S270336x1 S270336 [] [0] [0] 1
  dot_S1024x128_S128x128_S1024x128_1_0_0_1_n_n_wf : DotDims.WF S1024x128 S128x128 S1024x128 [1] [0] [0] [1] [] []
  dot_S1024x4096_S4096x128_S1024x128_1_0_0_1_n_n_wf : DotDims.WF S1024x4096 S4096x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x8192.size a
  hwx1_0 : ∀ i : grid1.Coords, EltTy.bits .bf16 = 32 ∨ (Rect.block (s := S8192x8192) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S8192x128.size a
  hwx1_1 : ∀ i : grid1.Coords, EltTy.bits .bf16 = 32 ∨ (Rect.block (s := S8192x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def scatter_S8192x8192_S270336x2_S270336_n_01_01_1 : ScatterDims S8192x8192 S270336x2 S270336 where
  updateWindowDims := []
  insertedWindowDims := [0, 1]
  scatterDimsToOperandDims := [0, 1]
  indexVectorDim := 1
  wf := scatter_S8192x8192_S270336x2_S270336_n_01_01_1_wf
def comparator_i32_d0 : BitVec 32 → BitVec 32 → BitVec 1 :=
  fun l r =>
    let v1 := IntOp.cmpi .slt l r
    v1
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S128x128 : Shape := ⟨2, ![128, 128]⟩
abbrev S128 : Shape := ⟨1, ![128]⟩
abbrev S2x262144 : Shape := ⟨2, ![2, 262144]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S8192x2 : Shape := ⟨2, ![8192, 2]⟩
abbrev S1x8192 : Shape := ⟨2, ![1, 8192]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128, .f32⟩
  | .hbm, ⟨3, _⟩ => ⟨S2x262144, .i32⟩
  | .hbm, ⟨4, _⟩ => ⟨S_, .f32⟩
  | .hbm, ⟨5, _⟩ => ⟨S8192x8192, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x1, .i32⟩
  | .hbm, ⟨47, _⟩ => ⟨S8192x2, .i32⟩
  | .hbm, ⟨48, _⟩ => ⟨S_, .f32⟩
  | .hbm, ⟨49, _⟩ => ⟨S8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .i1⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S8192x1, .f32⟩
  | .hbm, ⟨64, _⟩ => ⟨S8192x8192, .f32⟩
  | .hbm, ⟨65, _⟩ => ⟨S8192x8192, .f32⟩
  | .hbm, ⟨66, _⟩ => ⟨S1x8192, .f32⟩
  | .hbm, ⟨67, _⟩ => ⟨S8192x8192, .f32⟩
  | .hbm, ⟨68, _⟩ => ⟨S8192x8192, .f32⟩
  | .hbm, ⟨69, _⟩ => ⟨S8192x128, .f32⟩
  | .hbm, ⟨70, _⟩ => ⟨S8192x128, .f32⟩
  | .hbm, ⟨71, _⟩ => ⟨S1x128, .f32⟩
  | .hbm, ⟨72, _⟩ => ⟨S8192x128, .f32⟩
  | .hbm, ⟨73, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_call0_v0 : Ref sig .tc := ⟨.hbm, 60, rfl⟩
abbrev main_call0_v1 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  scatter_S8192x8192_S262144x2_S262144_n_01_01_1_wf : ScatterDims.WF S8192x8192 S262144x2 S262144 [] [0, 1] [0, 1] 1
  scatter_S8192x8192_S8192x2_S8192_n_01_01_1_wf : ScatterDims.WF S8192x8192 S8192x2 S8192 [] [0, 1] [0, 1] 1
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Spec.lean ====
/-
  The mathematics of one dense graph-convolution layer over 8192 nodes, stated with no program in sight.

  From an edge list e : [2 × 262144] (row 0 the sources, row 1 the targets, every word a node number) the layer
  forms the 0/1 adjacency matrix A with a one at every listed pair and on the diagonal, the degrees
  deg r = number of ones in row r (at least one, the diagonal), the scaling D^{-1/2}, and returns
      D^{-1/2} A D^{-1/2} (x w) + b.
  Two arrangements of that sum are stated here: the one that scales A first and contracts once over all the
  nodes (`refOut`), and the one that scales the rows of x w first, contracts the two halves of the node range one
  after the other and scales the result rows last (`kerForm` over `supForm`).
-/
import Idealize.ShloMosaic.PureOps.Ideal
import Idealize.ShloMosaic.Lib.ValueIdx
import Mathlib.Analysis.SpecialFunctions.Pow.Real
import Mathlib.Analysis.SpecialFunctions.Sqrt

noncomputable section

namespace Cert.DenseGcn

open Idealize.ShloMosaic Idealize.ShloMosaic.ValueIdx

abbrev SX : Shape := ⟨2, ![8192, 128]⟩
abbrev SW : Shape := ⟨2, ![128, 128]⟩
abbrev SB : Shape := ⟨1, ![128]⟩
abbrev SE : Shape := ⟨2, ![2, 262144]⟩
abbrev SA : Shape := ⟨2, ![8192, 8192]⟩
abbrev SD1 : Shape := ⟨2, ![8192, 1]⟩
abbrev SB2 : Shape := ⟨2, ![1, 128]⟩

/-- Node k is a neighbour of node r: k is r itself, or some listed edge goes from r to k (the words read as
    natural numbers). -/
def Edge (e : SE.Idx → BitVec 32) (r k : Fin 8192) : Prop :=
  r = k ∨ ∃ p : Fin 262144, (e (ix2 (0 : Fin 2) p)).toNat = r.val ∧ (e (ix2 (1 : Fin 2) p)).toNat = k.val

/-- The 0/1 adjacency matrix with the diagonal set. -/
def adj (e : SE.Idx → BitVec 32) (r k : Fin 8192) : EReal := by
  classical exact if Edge e r k then 1 else 0

/-- The degree of node r: how many neighbours it has, itself included. -/
def deg (e : SE.Idx → BitVec 32) (r : Fin 8192) : ℕ := by
  classical exact (Finset.univ.filter fun k : Fin 8192 => Edge e r k).card

/-- Every node is its own neighbour, so no degree is zero. -/
theorem deg_pos (e : SE.Idx → BitVec 32) (r : Fin 8192) : 0 < deg e r := by
  classical
  unfold deg
  exact Finset.card_pos.mpr ⟨r, Finset.mem_filter.mpr ⟨Finset.mem_univ _, Or.inl rfl⟩⟩

/-- The symmetric normalisation's factor, deg^{-1/2}. -/
def dinv (e : SE.Idx → BitVec 32) (r : Fin 8192) : ℝ := (Real.sqrt (deg e r))⁻¹

/-- Row k of x w at column j. -/
def sup (x : SX.Idx → EReal) (w : SW.Idx → EReal) (k : Fin 8192) (j : Fin 128) : EReal :=
  ∑ d : Fin 128, x (ix2 k d) * w (ix2 d j)

/-- Scale the adjacency on both sides, contract once over all nodes, add the bias. -/
def refOut (e : SE.Idx → BitVec 32) (x : SX.Idx → EReal) (w : SW.Idx → EReal) (b : SB.Idx → EReal)
    (r : Fin 8192) (j : Fin 128) : EReal :=
  (∑ k : Fin 8192, (((dinv e r : ℝ) : EReal) * adj e r k * ((dinv e k : ℝ) : EReal)) * sup x w k j) + b (ix1 j)

/-- The first and the second half of the node range. -/
def lo (k : Fin 4096) : Fin 8192 := ⟨k.val, by omega⟩
def hi (k : Fin 4096) : Fin 8192 := ⟨4096 + k.val, by omega⟩

/-- Rows of x w scaled by a column dv. -/
def supForm (x : SX.Idx → EReal) (w : SW.Idx → EReal) (dv : SD1.Idx → EReal) (r : Fin 8192) (j : Fin 128) : EReal :=
  dv (ix2 r (0 : Fin 1)) * ∑ d : Fin 128, x (ix2 r d) * w (ix2 d j)

/-- A matrix A against scaled rows S, the node range contracted half by half, the result row scaled by dv and a
    bias row added. -/
def kerForm (A : SA.Idx → EReal) (S : SX.Idx → EReal) (dv : SD1.Idx → EReal) (b2 : SB2.Idx → EReal)
    (r : Fin 8192) (j : Fin 128) : EReal :=
  ((∑ k : Fin 4096, A (ix2 r (lo k)) * S (ix2 (lo k) j)) + ∑ k : Fin 4096, A (ix2 r (hi k)) * S (ix2 (hi k) j))
    * dv (ix2 r (0 : Fin 1)) + b2 (ix2 (0 : Fin 1) j)

/-! ## The edge list with the diagonal appended, as natural numbers -/

/-- Every word of the edge list is a node number. -/
def EdgeRange (e : SE.Idx → BitVec 32) : Prop := ∀ (a : Fin 2) (p : Fin 262144), (e (ix2 a p)).toNat < 8192

/-- The source of pair p of the extended list: the listed edge's for p < 262144, node p - 262144 after that. -/
def rowN (e : SE.Idx → BitVec 32) (p : Fin 270336) : ℕ :=
  if h : p.val < 262144 then (e (ix2 (0 : Fin 2) ⟨p.val, h⟩)).toNat else p.val - 262144

/-- The target of pair p of the extended list. -/
def colN (e : SE.Idx → BitVec 32) (p : Fin 270336) : ℕ :=
  if h : p.val < 262144 then (e (ix2 (1 : Fin 2) ⟨p.val, h⟩)).toNat else p.val - 262144

/-- The pair as one number: source · 8192 + target. -/
def keyN (e : SE.Idx → BitVec 32) (p : Fin 270336) : ℕ := rowN e p * 8192 + colN e p

/-- Position p of a sequence opens a run: it is the first position, or its entry differs from the one before. -/
def opener (s : Fin 270336 → ℕ) (p : Fin 270336) : Prop :=
  p.val = 0 ∨ ∃ h : 0 < p.val, s p ≠ s ⟨p.val - 1, by omega⟩

/-- A nondecreasing rearrangement of the pair numbers. -/
structure SortedKeys (e : SE.Idx → BitVec 32) where
  s : Fin 270336 → ℕ
  σ : Fin 270336 → Fin 270336
  bij : Function.Bijective σ
  eq : ∀ k, s k = keyN e (σ k)
  mono : ∀ i j : Fin 270336, i ≤ j → s i ≤ s j

end Cert.DenseGcn

end
-- ==== Proof.Algebra.lean ====
/-
  The two arrangements of D^{-1/2} A D^{-1/2} (x w) + b agree when x and w are finite.

  With x and w real, every factor of both sums is a real number: the adjacency entries are 0 or 1, the scaling
  factors are reals by definition, and a row of x w is a finite sum of products of reals.  Both sides are then the
  image of one real expression, and the identity is distributivity of the row scaling over the sum, once the
  sum over all the nodes has been split into its two halves.  The bias may be any extended real: it is added last on
  both sides.
-/
import proofs.«409937_j69372311765406_2_alg».proof.Proof.Spec
import Mathlib.Algebra.BigOperators.Fin
import Mathlib.Algebra.BigOperators.Ring.Finset
import Mathlib.Data.EReal.Basic
import Mathlib.Tactic.Ring

noncomputable section

namespace Cert.DenseGcn

open Idealize.ShloMosaic Idealize.ShloMosaic.ValueIdx

/-- The embedding of the reals in the extended reals carries a finite sum to the sum of the images. -/
theorem ereal_coe_sum {ι : Type} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A sum over all 8192 nodes is the sum over the first half plus the sum over the second half. -/
theorem sum_nodes_eq_lo_add_hi {M : Type} [AddCommMonoid M] (f : Fin 8192 → M) :
    ∑ k : Fin 8192, f k = (∑ k : Fin 4096, f (lo k)) + ∑ k : Fin 4096, f (hi k) :=
  Fin.sum_univ_add (a := 4096) (b := 4096) f

/-- The adjacency entry as a real number. -/
def adjReal (e : SE.Idx → BitVec 32) (r k : Fin 8192) : ℝ := by
  classical exact if Edge e r k then 1 else 0

/-- The adjacency entry is the image of a real, 0 or 1. -/
theorem adj_eq_coe_adjReal (e : SE.Idx → BitVec 32) (r k : Fin 8192) :
    adj e r k = ((adjReal e r k : ℝ) : EReal) := by
  classical
  unfold adj adjReal
  by_cases h : Edge e r k
  · rw [if_pos h, if_pos h, EReal.coe_one]
  · rw [if_neg h, if_neg h, EReal.coe_zero]

/-- A row of x w is the image of a real when x and w are given by real entries. -/
theorem sup_eq_coe (x : SX.Idx → EReal) (w : SW.Idx → EReal) (xr : SX.Idx → ℝ) (wr : SW.Idx → ℝ)
    (hx : ∀ i, x i = ((xr i : ℝ) : EReal)) (hw : ∀ i, w i = ((wr i : ℝ) : EReal)) (k : Fin 8192) (j : Fin 128) :
    sup x w k j = ((∑ d : Fin 128, xr (ix2 k d) * wr (ix2 d j) : ℝ) : EReal) := by
  unfold sup
  rw [ereal_coe_sum]
  refine Finset.sum_congr rfl fun d _ => ?_
  rw [hx, hw, EReal.coe_mul]

/-- Scaling the rows of x w first, contracting the node range half by half against the 0/1 matrix and scaling the
    result rows last gives the same as scaling the matrix on both sides and contracting once. -/
theorem kerForm_eq_refOut (e : SE.Idx → BitVec 32) (x : SX.Idx → EReal) (w : SW.Idx → EReal) (b : SB.Idx → EReal)
    (hx : ∀ i, ∃ t : ℝ, x i = (t : EReal)) (hw : ∀ i, ∃ t : ℝ, w i = (t : EReal))
    (A : SA.Idx → EReal) (S : SX.Idx → EReal) (dv : SD1.Idx → EReal) (b2 : SB2.Idx → EReal)
    (hA : ∀ r k : Fin 8192, A (ix2 r k) = adj e r k)
    (hdv : ∀ r : Fin 8192, dv (ix2 r (0 : Fin 1)) = ((dinv e r : ℝ) : EReal))
    (hS : ∀ (r : Fin 8192) (j : Fin 128), S (ix2 r j) = supForm x w dv r j)
    (hb2 : ∀ j : Fin 128, b2 (ix2 (0 : Fin 1) j) = b (ix1 j))
    (r : Fin 8192) (j : Fin 128) : kerForm A S dv b2 r j = refOut e x w b r j := by
  classical
  choose xr hxr using hx
  choose wr hwr using hw
  -- row k of x w at column j, as a real
  have hsup : ∀ k : Fin 8192, sup x w k j = ((∑ d : Fin 128, xr (ix2 k d) * wr (ix2 d j) : ℝ) : EReal) :=
    fun k => sup_eq_coe x w xr wr hxr hwr k j
  generalize hsr : (fun k : Fin 8192 => ∑ d : Fin 128, xr (ix2 k d) * wr (ix2 d j)) = sr at hsup
  have hsup' : ∀ k : Fin 8192, sup x w k j = ((sr k : ℝ) : EReal) := fun k => by rw [hsup k, ← hsr]
  -- one term of the kernel's contraction, as a real
  have hterm : ∀ k : Fin 8192,
      A (ix2 r k) * S (ix2 k j) = ((adjReal e r k * (dinv e k * sr k) : ℝ) : EReal) := by
    intro k
    rw [hA, hS, adj_eq_coe_adjReal, EReal.coe_mul, EReal.coe_mul]
    unfold supForm
    rw [hdv, ← hsup' k]
    rfl
  -- one term of the reference's contraction, as a real
  have hrefterm : ∀ k : Fin 8192,
      (((dinv e r : ℝ) : EReal) * adj e r k * ((dinv e k : ℝ) : EReal)) * sup x w k j
        = ((adjReal e r k * (dinv e k * sr k) * dinv e r : ℝ) : EReal) := by
    intro k
    rw [adj_eq_coe_adjReal, hsup' k, ← EReal.coe_mul, ← EReal.coe_mul, ← EReal.coe_mul]
    exact congrArg _ (by ring)
  -- the two half contractions together are the contraction over all the nodes
  have hsum : (∑ k : Fin 4096, A (ix2 r (lo k)) * S (ix2 (lo k) j))
        + ∑ k : Fin 4096, A (ix2 r (hi k)) * S (ix2 (hi k) j)
      = ((∑ k : Fin 8192, adjReal e r k * (dinv e k * sr k) : ℝ) : EReal) := by
    rw [sum_nodes_eq_lo_add_hi (fun k : Fin 8192 => adjReal e r k * (dinv e k * sr k)), EReal.coe_add,
      ereal_coe_sum, ereal_coe_sum]
    exact congrArg₂ (· + ·) (Finset.sum_congr rfl fun k _ => hterm (lo k))
      (Finset.sum_congr rfl fun k _ => hterm (hi k))
  unfold kerForm refOut
  rw [hsum, hdv, hb2, Finset.sum_congr rfl (fun k _ => hrefterm k), ← ereal_coe_sum, ← EReal.coe_mul,
    Finset.sum_mul]

end Cert.DenseGcn

end
-- ==== Proof.PreDecode.lean ====
/-
  The printed precondition, read back.

  The precondition is one `and` of four `all`s: the absolute value of every entry of x, of w and of b tests below the
  pattern of +∞, and every word of the edge list tests at least 0 and below 8192 as a signed word.  If the whole is one,
  each `all` is one, so each element test is one: an extended real whose absolute value is below +∞ is a real
  number, and a signed word in [0, 8192) is below 8192 read as a natural number.
-/
import proofs.«409937_j69372311765406_2_alg».proof.Pre_finite_inputs
import proofs.«409937_j69372311765406_2_alg».proof.Proof.Gen.Pre_finite_inputs
import proofs.«409937_j69372311765406_2_alg».proof.Proof.Spec
import Idealize.ShloMosaic.Lib.ReduceAll

noncomputable section

namespace Cert.DenseGcn

open Idealize.ShloMosaic Idealize.ShloMosaic.ValueIdx

/-- The scalar shape has one index. -/
instance subsingleton_scalar_idx : Subsingleton Cert.Pre_finite_inputs.S_.Idx := ⟨fun a b => funext fun d => d.elim0⟩

/-- An extended real whose absolute value tests below the pattern of +∞ is a real number. -/
theorem real_of_abs_lt_inf (v : EReal)
    (h : Ideal.cmp .olt (max v (-v)) (Ideal.ofBits .f32 0x7F800000#32) = 1#1) : ∃ t : ℝ, v = (t : EReal) := by
  have htop : Ideal.ofBits .f32 0x7F800000#32 = (⊤ : EReal) := by simp [Ideal.ofBits, Ideal.ieee]
  rw [htop] at h
  induction v using EReal.rec with
  | bot => simp [Ideal.cmp] at h
  | coe t => exact ⟨t, rfl⟩
  | top => simp [Ideal.cmp] at h

/-- A 32-bit word that tests at least 0 and below 8192, both signed, is below 8192 read as a natural number. -/
theorem toNat_lt_of_signed_range (v : BitVec 32) (h0 : IntOp.cmpi .sge v 0#32 = 1#1)
    (h1 : IntOp.cmpi .slt v 8192#32 = 1#1) : v.toNat < 8192 := by
  rw [IntOp.cmpi_sge] at h0
  rw [IntOp.cmpi_slt] at h1
  have e0 : (0#32 : BitVec 32).toInt = 0 := by decide
  have e1 : (8192#32 : BitVec 32).toInt = 8192 := by decide
  rw [e0] at h0
  rw [e1] at h1
  rw [BitVec.toInt_eq_toNat_cond] at h0 h1
  split at h0 <;> omega

/-- The printed precondition is all ones only if every float input is a real number and every word of the edge
    list is a node number. -/
theorem pre_decode [Cert.Pre_finite_inputs.Facts] (x : FVec Ideal Cert.Pre_finite_inputs.S8192x128 .f32)
    (w : FVec Ideal Cert.Pre_finite_inputs.S128x128 .f32) (b : FVec Ideal Cert.Pre_finite_inputs.S128 .f32)
    (e : IVec Cert.Pre_finite_inputs.S2x262144 32)
    (h : Cert.Pre_finite_inputs.fn (F := Ideal) x w b e = fun _ => 1#1) :
    (∀ i, ∃ t : ℝ, x i = (t : EReal)) ∧ (∀ i, ∃ t : ℝ, w i = (t : EReal)) ∧ (∀ i, ∃ t : ℝ, b i = (t : EReal))
      ∧ EdgeRange e := by
  have h0 := congrFun h ValueIdx.ix0
  dsimp only [Cert.Pre_finite_inputs.fn, Cert.Pre_finite_inputs.fn_part1] at h0
  obtain ⟨hxwb, he⟩ := IntOp.andi_eq_one.1 h0
  obtain ⟨hxw, hb⟩ := IntOp.andi_eq_one.1 hxwb
  obtain ⟨hx, hw⟩ := IntOp.andi_eq_one.1 hxw
  refine ⟨fun i => ?_, fun i => ?_, fun i => ?_, fun a p => ?_⟩
  · exact real_of_abs_lt_inf (x i) (Host.reduce_andi_all _ _ _ _ _ hx i)
  · exact real_of_abs_lt_inf (w i) (Host.reduce_andi_all _ _ _ _ _ hw i)
  · exact real_of_abs_lt_inf (b i) (Host.reduce_andi_all _ _ _ _ _ hb i)
  · obtain ⟨hge, hlt⟩ := IntOp.andi_eq_one.1 (Host.reduce_andi_all _ _ _ _ _ he (ix2 a p))
    exact toNat_lt_of_signed_range (e (ix2 a p)) hge hlt

end Cert.DenseGcn

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibScatterSet.lean ====
/-
  The overwriting scatter of a constant, read at one element, and the index map of the pair scatter.

  A scatter whose body returns the update (an assignment, not an accumulation) and whose updates are all one
  constant v leaves at an element the constant when some update lands on that element, and the operand's
  element when none does: the order in which the updates are taken cannot matter, since every update that
  lands on an element writes the same value there.  The scatter is a left fold over the update positions;
  the statement is proved for a fold over any list of positions with the operand generalised, and the list of
  all positions is then exchanged for the update index set through the row-major numbering, a bijection.

  The pair scatter has a rank-2 operand [n × m], scatter indices [e × 2] with the index vector on axis 1, its
  two components sent to operand axes 0 and 1, both axes inserted window axes, and rank-1 updates [e]: update
  p lands on element (r, c) exactly when the index words at (p, 0) and (p, 1), read as signed integers and
  NOT clamped, are r and c.

  Each statement takes the dimension numbers' fields as hypotheses, so it applies to any record with those
  fields.
-/
import Idealize.ShloMosaic.PureOps.Ideal
import Idealize.ShloMosaic.Lib.ValueIdx
import proofs.«409937_j69372311765406_2_alg».proof.Proof.LibIndexMaps

noncomputable section

namespace Cert.LibScatterSet

open Idealize.ShloMosaic Idealize.ShloMosaic.ValueIdx Cert.Gcn.IndexMaps

/-! ## The overwriting scatter of a constant -/

/-- Some update lands on element i exactly when some update position of the full list does: the row-major
    numbering of the update index set is a bijection. -/
theorem exists_update_iff_exists_position {s si u : Shape} {w : ℕ} (d : ScatterDims s si u) (idx : IVec si w)
    (i : s.Idx) :
    (∃ j : u.Idx, d.resultIdx? j idx = some i)
      ↔ ∃ n ∈ List.finRange u.numel, d.resultIdx? (u.rowMajor.symm n) idx = some i := by
  constructor
  · rintro ⟨j, hj⟩
    refine ⟨u.rowMajor j, List.mem_finRange _, ?_⟩
    rw [Equiv.symm_apply_apply]
    exact hj
  · rintro ⟨n, _, hn⟩
    exact ⟨_, hn⟩

/-- A fold whose step overwrites with one constant v the elements a position's test P picks, read at element
    i: the constant if a position of the list picks i, else what the fold started from. -/
theorem foldl_overwrite_apply {α ι κ : Type} (g : (ι → α) → κ → ι → α) (P : κ → ι → Prop) (v : α)
    (hg : ∀ (r : ι → α) (n : κ) (i : ι), g r n i = (by classical exact if P n i then v else r i))
    (l : List κ) (x : ι → α) (i : ι) :
    l.foldl g x i = (by classical exact if ∃ n ∈ l, P n i then v else x i) := by
  classical
  induction l generalizing x with
  | nil => simp
  | cons a l ih =>
    rw [List.foldl_cons, ih, hg]
    by_cases hl : ∃ n ∈ l, P n i
    · have hal : ∃ n ∈ a :: l, P n i := by
        obtain ⟨n, hn, hn'⟩ := hl
        exact ⟨n, List.mem_cons_of_mem _ hn, hn'⟩
      rw [if_pos hl, if_pos hal]
    · rw [if_neg hl]
      by_cases ha : P a i
      · rw [if_pos ha, if_pos ⟨a, List.mem_cons_self, ha⟩]
      · have hal : ¬ ∃ n ∈ a :: l, P n i := by
          rintro ⟨n, hn, hn'⟩
          rcases List.mem_cons.mp hn with rfl | hn
          · exact ha hn'
          · exact hl ⟨n, hn, hn'⟩
        rw [if_neg ha, if_neg hal]

/-- The scatter that assigns one constant v, read at element i: v if some update lands on i, else the
    operand's element. -/
theorem scatter_const_apply {α : Type} {s si u : Shape} {w : ℕ} (d : ScatterDims s si u) (x : s.Idx → α) (idx : IVec si w) (v : α) (i : s.Idx) :
    Host.scatter d (fun _ b => b) x idx (fun _ => v) i = (by classical exact if ∃ j : u.Idx, d.resultIdx? j idx = some i then v else x i) := by
  classical
  unfold Host.scatter
  refine (foldl_overwrite_apply _ (fun n j => d.resultIdx? (u.rowMajor.symm n) idx = some j) v ?_
    (List.finRange u.numel) x i).trans ?_
  · intro r n j
    rcases h : d.resultIdx? (u.rowMajor.symm n) idx with _ | i0
    · have hne : ¬ ((none : Option s.Idx) = some j) := fun h' => by cases h'
      rw [if_neg hne]
    · show (if j = i0 then v else r j) = _
      by_cases hj : j = i0
      · rw [if_pos hj, if_pos (by rw [hj])]
      · rw [if_neg hj, if_neg (fun h' => hj (Option.some.inj h').symm)]
  · by_cases h : ∃ j : u.Idx, d.resultIdx? j idx = some i
    · rw [if_pos h, if_pos ((exists_update_iff_exists_position d idx i).mp h)]
    · rw [if_neg h, if_neg (fun h' => h ((exists_update_iff_exists_position d idx i).mpr h'))]

/-! ## The pair scatter's index map -/

/-- With rank-1 updates and the index vector on axis 1 of an [e × 2] array of scatter indices, update p reads
    component k of its start index at (p, k). -/
theorem scatterPair_siIdx {s : Shape} {e : ℕ} (d : ScatterDims s ⟨2, ![e, 2]⟩ ⟨1, ![e]⟩)
    (hivd : d.indexVectorDim = 1) (j : (⟨1, ![e]⟩ : Shape).Idx) (kv : ℕ)
    (hkv : kv < d.scatterDimsToOperandDims.length) (v : Fin 2) (hv : kv = v.val) :
    d.siIdx j ⟨kv, hkv⟩ = ix2 (n0 := e) (n1 := 2) (j 0) v := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold ScatterDims.siIdx
    rw [dif_pos (by rw [hivd])]
    apply Fin.ext
    exact hv

/-- [n × m] operand, [e × 2] scatter indices, rank-1 updates, both operand axes scattered and inserted:
    update j lands on element i exactly when the index words at (j, 0) and (j, 1), read signed, are i's two
    coordinates. -/
theorem scatterPair_resultIdx_iff {n m e w : ℕ} (d : ScatterDims ⟨2, ![n, m]⟩ ⟨2, ![e, 2]⟩ ⟨1, ![e]⟩)
    (hiw : d.insertedWindowDims = [0, 1]) (hsd : d.scatterDimsToOperandDims = [0, 1])
    (hivd : d.indexVectorDim = 1)
    (idx : IVec ⟨2, ![e, 2]⟩ w) (j : (⟨1, ![e]⟩ : Shape).Idx) (i : (⟨2, ![n, m]⟩ : Shape).Idx) :
    d.resultIdx? j idx = some i ↔
      (idx (ix2 (j 0) (0 : Fin 2))).toInt = (((i 0).val : ℕ) : ℤ)
        ∧ (idx (ix2 (j 0) (1 : Fin 2))).toInt = (((i 1).val : ℕ) : ℤ) := by
  have hm : ∀ a : Fin 2, a ∈ d.scatterDimsToOperandDims := by
    intro a; rw [hsd]; rcases fin2_cases a with rfl | rfl <;> simp
  have hk : ∀ a : Fin 2, a ∉ d.sKept := by
    intro a; rw [ScatterDims.sKept, mem_kept, hiw]; rcases fin2_cases a with rfl | rfl <;> simp
  have hi0 : List.idxOf (0 : Fin 2) d.scatterDimsToOperandDims = (0 : Fin 2).val := by rw [hsd]; simp
  have hi1 : List.idxOf (1 : Fin 2) d.scatterDimsToOperandDims = (1 : Fin 2).val := by
    rw [hsd]; simp [List.idxOf_cons]
  have hs0 : d.start j idx 0 = (idx (ix2 (j 0) (0 : Fin 2))).toInt := by
    unfold ScatterDims.start
    rw [dif_pos (hm 0), scatterPair_siIdx d hivd j _ _ (0 : Fin 2) hi0]
  have hs1 : d.start j idx 1 = (idx (ix2 (j 0) (1 : Fin 2))).toInt := by
    unfold ScatterDims.start
    rw [dif_pos (hm 1), scatterPair_siIdx d hivd j _ _ (1 : Fin 2) hi1]
  have hw : ∀ a : Fin 2, d.window j a = 0 := by
    intro a
    unfold ScatterDims.window
    rw [dif_neg (hk a)]
  have hlt0 : (i 0).val < n := (i 0).isLt
  have hlt1 : (i 1).val < m := (i 1).isLt
  unfold ScatterDims.resultIdx?
  split_ifs with h
  · rw [Option.some.injEq]
    have h0 := h 0
    have h1 := h 1
    rw [hs0, hw] at h0
    rw [hs1, hw] at h1
    constructor
    · intro hf
      have hv0 := congrArg Fin.val (congrFun hf 0)
      have hv1 := congrArg Fin.val (congrFun hf 1)
      simp only [hs0, hw] at hv0
      simp only [hs1, hw] at hv1
      constructor <;> omega
    · rintro ⟨he0, he1⟩
      funext a
      rcases fin2_cases a with rfl | rfl
      · apply Fin.ext
        simp only [hs0, hw]
        omega
      · apply Fin.ext
        simp only [hs1, hw]
        omega
  · constructor
    · intro hh; cases hh
    · rintro ⟨he0, he1⟩
      exfalso
      apply h
      intro a
      rcases fin2_cases a with rfl | rfl
      · rw [hs0, hw, he0]
        show (0 : ℤ) ≤ ((i 0).val : ℕ) + ((0 : ℕ) : ℤ) ∧ (((i 0).val : ℕ) : ℤ) + ((0 : ℕ) : ℤ) < (n : ℕ)
        omega
      · rw [hs1, hw, he1]
        show (0 : ℤ) ≤ ((i 1).val : ℕ) + ((0 : ℕ) : ℤ) ∧ (((i 1).val : ℕ) : ℤ) + ((0 : ℕ) : ℤ) < (m : ℕ)
        omega

/-- The pair scatter's index map, by coordinates: update p lands on element (r, c) exactly when the index
    words at (p, 0) and (p, 1), read signed, are r and c. -/
theorem scatterPair_resultIdx_ix_iff {n m e w : ℕ} (d : ScatterDims ⟨2, ![n, m]⟩ ⟨2, ![e, 2]⟩ ⟨1, ![e]⟩) (huw : d.updateWindowDims = []) (hiw : d.insertedWindowDims = [0, 1]) (hsd : d.scatterDimsToOperandDims = [0, 1]) (hivd : d.indexVectorDim = 1)
    (idx : IVec ⟨2, ![e, 2]⟩ w) (p : Fin e) (r : Fin n) (c : Fin m) :
    d.resultIdx? (ValueIdx.ix1 p) idx = some (ValueIdx.ix2 r c) ↔ (idx (ValueIdx.ix2 p (0 : Fin 2))).toInt = (r.val : ℤ) ∧ (idx (ValueIdx.ix2 p (1 : Fin 2))).toInt = (c.val : ℤ) :=
  scatterPair_resultIdx_iff d hiw hsd hivd idx (ix1 p) (ix2 r c)

end Cert.LibScatterSet

end
-- ==== Proof.RefVal.lean ====
/-
  What the reference program returns, index by index: D^{-1/2} A D^{-1/2} (x w) + b in the arrangement that
  scales the adjacency on both sides and contracts once over all the nodes.

  The program builds the adjacency by two overwriting scatters of the constant one into zeros (the listed pairs, then
  the diagonal), sums its rows into the degrees, raises them to the power minus one half, scales the adjacency by
  that factor on the left and on the right, and contracts it with x w. Each stage is read here at an index, over
  the edge list as a variable; the last theorem chains them.
-/
import proofs.«409937_j69372311765406_2_alg».proof.Proof.RefRead
import proofs.«409937_j69372311765406_2_alg».proof.Proof.Spec
import proofs.«409937_j69372311765406_2_alg».proof.Proof.LibScatterSet
import Idealize.ShloMosaic.Lib.IdealHost
import Idealize.ShloMosaic.Lib.Pipeline.Value
import Idealize.ShloMosaic.PureOps.Ideal.Laws
import Mathlib.Analysis.SpecialFunctions.Pow.Real
import Mathlib.Analysis.SpecialFunctions.Sqrt

noncomputable section

namespace Cert.ReferenceIdeal.RefValue

open Idealize.ShloMosaic Idealize.ShloMosaic.ValueIdx
open Cert.ReferenceIdeal Cert.ReferenceIdeal.Gen Cert.ReferenceIdeal.Read Cert.DenseGcn
open scoped BigOperators

/-! ## Words -/

/-- A 32-bit word below 8192 read as a signed integer is the natural number it spells. -/
theorem toInt_of_lt_8192 (x : BitVec 32) (h : x.toNat < 8192) : x.toInt = (x.toNat : ℤ) := by
  rw [BitVec.toInt_eq_toNat_cond, if_pos (by omega)]

/-- A 32-bit word below 8192 is not negative. -/
theorem slt_zero_of_lt_8192 (x : BitVec 32) (h : x.toNat < 8192) : IntOp.cmpi .slt x 0#32 = 0#1 := by
  have hx : ¬ x.toInt < (0#32 : BitVec 32).toInt := by
    rw [toInt_of_lt_8192 x h]; simp
  unfold IntOp.cmpi
  simp only [BitVec.slt, decide_eq_false hx]
  rfl

/-- So the wrap "add 8192 to a negative word" leaves it as it is. -/
theorem wrap_of_lt_8192 (x : BitVec 32) (h : x.toNat < 8192) :
    Scalar.select (IntOp.cmpi .slt x 0#32) (IntOp.addi x 8192#32) x = x := by
  rw [slt_zero_of_lt_8192 x h, select_zero]

/-- The word of a number below 8192 spells that number. -/
theorem toNat_ofNat_of_lt_8192 (n : ℕ) (h : n < 8192) : (BitVec.ofNat 32 n).toNat = n := by
  rw [BitVec.toNat_ofNat]; exact Nat.mod_eq_of_lt (by omega)

/-- Read as a signed integer too. -/
theorem toInt_ofNat_of_lt_8192 (n : ℕ) (h : n < 8192) : (BitVec.ofNat 32 n).toInt = (n : ℤ) := by
  rw [toInt_of_lt_8192 _ (by rw [toNat_ofNat_of_lt_8192 n h]; exact h), toNat_ofNat_of_lt_8192 n h]

/-! ## Extended reals -/

/-- A finite sum of reals, taken in the extended reals, is the real sum. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The f32 pattern `0xBF000000` is the real minus one half. -/
theorem ofBits_neg_half_f32 : Ideal.ofBits .f32 0xBF000000#32 = ((-(1 / 2 : ℝ) : ℝ) : EReal) := by
  simp [Ideal.ofBits, Ideal.ieee, -EReal.coe_mul, -EReal.coe_neg]; norm_num

/-- A count to the power minus one half is the inverse of its square root. -/
theorem pow_neg_half_natCast (n : ℕ) :
    Ideal.pow (((n : ℝ) : ℝ) : EReal) ((-(1 / 2 : ℝ) : ℝ) : EReal) = (((Real.sqrt (n : ℝ))⁻¹ : ℝ) : EReal) := by
  rw [Ideal.pow_coe_coe]
  refine congrArg _ ?_
  show (n : ℝ) ^ (-(1 / 2 : ℝ)) = _
  rw [Real.rpow_neg (Nat.cast_nonneg n), Real.sqrt_eq_rpow]

/-- A positive count compares greater than zero. -/
theorem cmp_ogt_natCast_zero (n : ℕ) (h : 0 < n) : Ideal.cmp .ogt (((n : ℝ) : ℝ) : EReal) (0 : EReal) = 1#1 := by
  have : (0 : EReal) < (((n : ℝ) : ℝ) : EReal) := by
    exact_mod_cast (Nat.cast_pos.mpr h : (0 : ℝ) < (n : ℝ))
  unfold Ideal.cmp
  simp only [decide_eq_true this]
  rfl

/-! ## The degree and the scaling factor -/

/-- A row of the adjacency sums to the row's degree. -/
theorem sum_adj (e : SE.Idx → BitVec 32) (r : Fin 8192) :
    ∑ k : Fin 8192, adj e r k = (((deg e r : ℕ) : ℝ) : EReal) := by
  classical
  have h : ∀ k : Fin 8192, adj e r k = (((if Edge e r k then (1 : ℝ) else 0 : ℝ)) : EReal) := by
    intro k; unfold adj; split_ifs <;> simp
  rw [Finset.sum_congr rfl (fun k _ => h k), coe_finset_sum, Finset.sum_boole]
  unfold deg
  rfl

/-- The degree to the power minus one half is the scaling factor. -/
theorem pow_deg (e : SE.Idx → BitVec 32) (r : Fin 8192) :
    Ideal.pow ((((deg e r : ℕ) : ℝ) : ℝ) : EReal) ((-(1 / 2 : ℝ) : ℝ) : EReal) = ((dinv e r : ℝ) : EReal) :=
  pow_neg_half_natCast (deg e r)

/-! ## A pair of columns laid side by side, read at either column -/

section Concat
variable {α : Type}

/-- Column 0 of two one-column arrays joined along the columns is the first array. -/
theorem concatenate_cols_apply_zero {n : ℕ} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (0 : Fin 2)) = a (ix2 p (0 : Fin 1)) :=
  concatenate_pair_apply_left (1 : Fin 2) a b h (ix2 p (0 : Fin 2)) rfl (ix2 p (0 : Fin 1))
    (fun c => by match c with | ⟨0, _⟩ => rfl | ⟨1, _⟩ => rfl)

/-- Column 1 is the second array. -/
theorem concatenate_cols_apply_one {n : ℕ} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (1 : Fin 2)) = b (ix2 p (0 : Fin 1)) :=
  concatenate_pair_apply_right (1 : Fin 2) a b h (ix2 p (1 : Fin 2)) rfl rfl (ix2 p (0 : Fin 1))
    (fun c hc => by
      match c with
      | ⟨0, _⟩ => rfl
      | ⟨1, _⟩ => exact absurd rfl hc)
    rfl

end Concat

/-! ## The overwriting scatter of a constant at a list of (row, column) pairs, read at an element -/

/-- The element at (r, c) is the constant when some pair of the list spells (r, c), and the operand's otherwise. -/
theorem scatter_pairs_const_apply {α : Type} {n m e w : ℕ} (d : ScatterDims ⟨2, ![n, m]⟩ ⟨2, ![e, 2]⟩ ⟨1, ![e]⟩)
    (huw : d.updateWindowDims = []) (hiw : d.insertedWindowDims = [0, 1]) (hsd : d.scatterDimsToOperandDims = [0, 1])
    (hivd : d.indexVectorDim = 1) (x : (⟨2, ![n, m]⟩ : Shape).Idx → α) (idx : IVec ⟨2, ![e, 2]⟩ w) (v : α)
    (r : Fin n) (c : Fin m) :
    Host.scatter d (fun _ b => b) x idx (fun _ => v) (ix2 r c)
      = (by classical exact if ∃ p : Fin e, (idx (ix2 p (0 : Fin 2))).toInt = (r.val : ℤ)
          ∧ (idx (ix2 p (1 : Fin 2))).toInt = (c.val : ℤ) then v else x (ix2 r c)) := by
  classical
  rw [Cert.LibScatterSet.scatter_const_apply]
  refine if_congr ?_ rfl rfl
  constructor
  · rintro ⟨j, hj⟩
    obtain ⟨p, rfl⟩ : ∃ p, j = ix1 p := ⟨j 0, eq_ix1 j⟩
    exact ⟨p, (Cert.LibScatterSet.scatterPair_resultIdx_ix_iff d huw hiw hsd hivd idx p r c).mp hj⟩
  · rintro ⟨p, hp⟩
    exact ⟨ix1 p, (Cert.LibScatterSet.scatterPair_resultIdx_ix_iff d huw hiw hsd hivd idx p r c).mpr hp⟩

/-! ## The reference's stages, read at an index -/

section Stages

variable (x3 : (⟨S2x262144, .i32⟩ : BufTy).Contents (Elt Ideal))

/-- The sources as one column of words. -/
theorem val_v2_ix (p : Fin 262144) : val_main_v2 (F := Ideal) x3 (ix1 p) = x3 (ix2 (0 : Fin 2) p) := by
  rw [val_main_v2_apply, val_main_v1_apply]
  refine congrArg x3 (funext fun a => Fin.ext ?_)
  match a with
  | ⟨0, _⟩ => rfl
  | ⟨1, _⟩ => exact Nat.mod_eq_of_lt p.isLt

/-- The targets as one column of words. -/
theorem val_v4_ix (p : Fin 262144) : val_main_v4 (F := Ideal) x3 (ix1 p) = x3 (ix2 (1 : Fin 2) p) := by
  rw [val_main_v4_apply, val_main_v3_apply]
  refine congrArg x3 (funext fun a => Fin.ext ?_)
  match a with
  | ⟨0, _⟩ => rfl
  | ⟨1, _⟩ => exact Nat.mod_eq_of_lt p.isLt

/-- No source is negative, so the wrap leaves the sources. -/
theorem val_v9_ix (hr : EdgeRange x3) (p : Fin 262144) :
    val_main_v9 (F := Ideal) x3 (ix1 p) = x3 (ix2 (0 : Fin 2) p) := by
  rw [val_main_v9_apply, val_main_v6_apply, val_main_v8_apply, val_main_v5_apply, val_main_c_apply,
    val_main_v7_apply, val_main_c_0_apply, val_v2_ix]
  exact wrap_of_lt_8192 _ (hr 0 p)

/-- Nor is a target. -/
theorem val_v14_ix (hr : EdgeRange x3) (p : Fin 262144) :
    val_main_v14 (F := Ideal) x3 (ix1 p) = x3 (ix2 (1 : Fin 2) p) := by
  rw [val_main_v14_apply, val_main_v11_apply, val_main_v13_apply, val_main_v10_apply, val_main_c_1_apply,
    val_main_v12_apply, val_main_c_2_apply, val_v4_ix]
  exact wrap_of_lt_8192 _ (hr 1 p)

/-- The pair list's column 0 holds the sources … -/
theorem val_v17_ix_zero (hr : EdgeRange x3) (p : Fin 262144) :
    val_main_v17 (F := Ideal) x3 (ix2 p (0 : Fin 2)) = x3 (ix2 (0 : Fin 2) p) := by
  have e : idx_main_v15 (ix2 p (0 : Fin 1)) = ix1 p := funext fun a => by match a with | ⟨0, _⟩ => rfl
  unfold val_main_v17
  refine (concatenate_cols_apply_zero _ _ _ p).trans ?_
  rw [val_main_v15_apply, e, val_v9_ix x3 hr]

/-- … and its column 1 the targets. -/
theorem val_v17_ix_one (hr : EdgeRange x3) (p : Fin 262144) :
    val_main_v17 (F := Ideal) x3 (ix2 p (1 : Fin 2)) = x3 (ix2 (1 : Fin 2) p) := by
  have e : idx_main_v16 (ix2 p (0 : Fin 1)) = ix1 p := funext fun a => by match a with | ⟨0, _⟩ => rfl
  unfold val_main_v17
  refine (concatenate_cols_apply_one _ _ _ p).trans ?_
  rw [val_main_v16_apply, e, val_v14_ix x3 hr]

/-- The matrix the first scatter starts from is zero everywhere. -/
theorem val_v0_ix (i : S8192x8192.Idx) : val_main_v0 (F := Ideal) i = 0 := by
  rw [val_main_v0_apply, val_main_cst_apply]
  exact Ideal.ofBits_zero_f32

/-- Every update of the first scatter is the constant one. -/
theorem val_v18_eq : val_main_v18 (F := Ideal) = fun _ => (1 : EReal) := by
  funext i
  rw [val_main_v18_apply, val_main_cst_3_apply]
  exact Ideal.ofBits_one_f32

/-- After the first scatter: a one where a listed pair lands, zero elsewhere. -/
theorem val_v19_ix (hr : EdgeRange x3) (r c : Fin 8192) :
    val_main_v19 (F := Ideal) x3 (ix2 r c)
      = (by classical exact if ∃ p : Fin 262144, (x3 (ix2 (0 : Fin 2) p)).toNat = r.val
          ∧ (x3 (ix2 (1 : Fin 2) p)).toNat = c.val then (1 : EReal) else 0) := by
  classical
  unfold val_main_v19
  rw [val_v18_eq, scatter_pairs_const_apply scatter_S8192x8192_S262144x2_S262144_n_01_01_1 rfl rfl rfl rfl, val_v0_ix]
  refine if_congr (exists_congr fun p => ?_) rfl rfl
  rw [val_v17_ix_zero x3 hr, val_v17_ix_one x3 hr, toInt_of_lt_8192 _ (hr 0 p), toInt_of_lt_8192 _ (hr 1 p)]
  exact and_congr Nat.cast_inj Nat.cast_inj

/-- The node numbers, wrapped: no node number is negative, so they are the node numbers. -/
theorem val_v25_ix (p : Fin 8192) : val_main_v25 (F := Ideal) (ix1 p) = BitVec.ofNat 32 p.val := by
  have h : (BitVec.ofNat 32 p.val).toNat < 8192 := by rw [toNat_ofNat_of_lt_8192 _ p.isLt]; exact p.isLt
  rw [val_main_v25_apply, val_main_v22_apply, val_main_v24_apply, val_main_v21_apply, val_main_c_4_apply,
    val_main_v23_apply, val_main_c_5_apply, val_main_v20_apply]
  exact wrap_of_lt_8192 (BitVec.ofNat 32 p.val) h

/-- The same for the second copy of them. -/
theorem val_v30_ix (p : Fin 8192) : val_main_v30 (F := Ideal) (ix1 p) = BitVec.ofNat 32 p.val := by
  have h : (BitVec.ofNat 32 p.val).toNat < 8192 := by rw [toNat_ofNat_of_lt_8192 _ p.isLt]; exact p.isLt
  rw [val_main_v30_apply, val_main_v27_apply, val_main_v29_apply, val_main_v26_apply, val_main_c_6_apply,
    val_main_v28_apply, val_main_c_7_apply, val_main_v20_apply]
  exact wrap_of_lt_8192 (BitVec.ofNat 32 p.val) h

/-- The diagonal's pair list holds node p twice at position p: in column 0 … -/
theorem val_v33_ix_zero (p : Fin 8192) :
    val_main_v33 (F := Ideal) (ix2 p (0 : Fin 2)) = BitVec.ofNat 32 p.val := by
  have e : idx_main_v31 (ix2 p (0 : Fin 1)) = ix1 p := funext fun a => by match a with | ⟨0, _⟩ => rfl
  unfold val_main_v33
  refine (concatenate_cols_apply_zero _ _ _ p).trans ?_
  rw [val_main_v31_apply, e, val_v25_ix]

/-- … and in column 1. -/
theorem val_v33_ix_one (p : Fin 8192) :
    val_main_v33 (F := Ideal) (ix2 p (1 : Fin 2)) = BitVec.ofNat 32 p.val := by
  have e : idx_main_v32 (ix2 p (0 : Fin 1)) = ix1 p := funext fun a => by match a with | ⟨0, _⟩ => rfl
  unfold val_main_v33
  refine (concatenate_cols_apply_one _ _ _ p).trans ?_
  rw [val_main_v32_apply, e, val_v30_ix]

/-- Every update of the second scatter is the constant one. -/
theorem val_v34_eq : val_main_v34 (F := Ideal) = fun _ => (1 : EReal) := by
  funext i
  rw [val_main_v34_apply, val_main_cst_8_apply]
  exact Ideal.ofBits_one_f32

/-- Some position of the diagonal's pair list spells (r, c) exactly when r = c. -/
theorem diagonal_pair_iff (r c : Fin 8192) :
    (∃ p : Fin 8192, (val_main_v33 (F := Ideal) (ix2 p (0 : Fin 2))).toInt = (r.val : ℤ)
      ∧ (val_main_v33 (F := Ideal) (ix2 p (1 : Fin 2))).toInt = (c.val : ℤ)) ↔ r = c := by
  constructor
  · rintro ⟨p, h0, h1⟩
    rw [val_v33_ix_zero, toInt_ofNat_of_lt_8192 _ p.isLt] at h0
    rw [val_v33_ix_one, toInt_ofNat_of_lt_8192 _ p.isLt] at h1
    exact Fin.ext (by omega)
  · rintro rfl
    exact ⟨r, by rw [val_v33_ix_zero, toInt_ofNat_of_lt_8192 _ r.isLt],
      by rw [val_v33_ix_one, toInt_ofNat_of_lt_8192 _ r.isLt]⟩

/-- After both scatters the matrix is the adjacency: a one on the diagonal and where a listed pair lands. -/
theorem val_v35_ix (hr : EdgeRange x3) (r c : Fin 8192) :
    val_main_v35 (F := Ideal) x3 (ix2 r c) = adj x3 r c := by
  classical
  unfold val_main_v35
  rw [val_v34_eq, scatter_pairs_const_apply scatter_S8192x8192_S8192x2_S8192_n_01_01_1 rfl rfl rfl rfl,
    val_v19_ix x3 hr]
  unfold adj Edge
  by_cases hrc : r = c
  · rw [if_pos ((diagonal_pair_iff r c).mpr hrc), if_pos (Or.inl hrc)]
  · rw [if_neg (mt (diagonal_pair_iff r c).mp hrc)]
    by_cases hE : ∃ p : Fin 262144, (x3 (ix2 (0 : Fin 2) p)).toNat = r.val ∧ (x3 (ix2 (1 : Fin 2) p)).toNat = c.val
    · rw [if_pos hE, if_pos (Or.inr hE)]
    · rw [if_neg hE, if_neg (not_or.mpr ⟨hrc, hE⟩)]

/-- The row sums are the degrees. -/
theorem val_v36_ix (hr : EdgeRange x3) (r : Fin 8192) :
    val_main_v36 (F := Ideal) x3 (ix1 r) = (((deg x3 r : ℕ) : ℝ) : EReal) := by
  have e : ∀ k : Fin 8192, idx_main_v36 (ix1 r) k = ix2 r k := fun k => funext fun a => by
    match a with
    | ⟨0, _⟩ => rfl
    | ⟨1, _⟩ => rfl
  have hs : ∑ k : Fin 8192, val_main_v35 (F := Ideal) x3 (idx_main_v36 (ix1 r) k) = ∑ k : Fin 8192, adj x3 r k :=
    Finset.sum_congr rfl fun k _ => by rw [e k, val_v35_ix x3 hr]
  rw [val_main_v36_apply, val_main_cst_9_apply, hs, sum_adj, Ideal.ofBits_def, Ideal.ofBits_zero_f32, zero_add]

/-- A degree is positive, so the select takes the power: the scaling factor. -/
theorem val_v41_ix (hr : EdgeRange x3) (r : Fin 8192) :
    val_main_v41 (F := Ideal) x3 (ix1 r) = ((dinv x3 r : ℝ) : EReal) := by
  rw [val_main_v41_apply, val_main_v38_apply, val_main_v40_apply, val_v36_ix x3 hr, val_main_v37_apply,
    val_main_cst_10_apply, val_main_v39_apply, val_main_cst_11_apply]
  show Scalar.select (Ideal.cmp .ogt _ (Ideal.ofBits .f32 0x00000000#32))
    (Ideal.pow _ (Ideal.ofBits .f32 0xBF000000#32)) _ = _
  rw [Ideal.ofBits_zero_f32, ofBits_neg_half_f32, cmp_ogt_natCast_zero _ (deg_pos x3 r), select_one, pow_deg]

/-- The adjacency scaled on the left by its row's factor and on the right by its column's. -/
theorem val_v47_ix (hr : EdgeRange x3) (r k : Fin 8192) :
    val_main_v47 (F := Ideal) x3 (ix2 r k)
      = ((dinv x3 r : ℝ) : EReal) * adj x3 r k * ((dinv x3 k : ℝ) : EReal) := by
  have e1 : idx_main_v42 (idx_main_v43 (ix2 r k)) = ix1 r := funext fun a => by match a with | ⟨0, _⟩ => rfl
  have e2 : idx_main_v45 (idx_main_v46 (ix2 r k)) = ix1 k := funext fun a => by match a with | ⟨0, _⟩ => rfl
  rw [val_main_v47_apply, val_main_v44_apply, val_main_v43_apply, val_main_v42_apply, e1, val_main_v46_apply,
    val_main_v45_apply, e2, val_v41_ix x3 hr r, val_v41_ix x3 hr k, val_v35_ix x3 hr]
  rfl

end Stages

/-- The first contraction is x w. -/
theorem val_v48_ix (x0 : (⟨S8192x128, .f32⟩ : BufTy).Contents (Elt Ideal))
    (x1 : (⟨S128x128, .f32⟩ : BufTy).Contents (Elt Ideal)) (k : Fin 8192) (j : Fin 128) :
    val_main_v48 (F := Ideal) x0 x1 (ix2 k j) = DenseGcn.sup x0 x1 k j := by
  rw [val_main_v48_apply]
  unfold DenseGcn.sup
  refine Finset.sum_congr rfl fun d _ => ?_
  have el : lidx_main_v48 (ix2 k j) d = ix2 k d := funext fun a => by
    match a with
    | ⟨0, _⟩ => rfl
    | ⟨1, _⟩ => rfl
  have er : ridx_main_v48 (ix2 k j) d = ix2 d j := funext fun a => by
    match a with
    | ⟨0, _⟩ => rfl
    | ⟨1, _⟩ => rfl
  rw [el, er]

/-- THE REFERENCE'S RESULT at (r, j): the scaled adjacency's row r contracted with column j of x w, plus the bias. -/
theorem result_eq (x0 : (⟨S8192x128, .f32⟩ : BufTy).Contents (Elt Ideal))
    (x1 : (⟨S128x128, .f32⟩ : BufTy).Contents (Elt Ideal)) (x2 : (⟨S128, .f32⟩ : BufTy).Contents (Elt Ideal))
    (x3 : (⟨S2x262144, .i32⟩ : BufTy).Contents (Elt Ideal)) (hr : Cert.DenseGcn.EdgeRange x3)
    (r : Fin 8192) (j : Fin 128) :
    Cert.ReferenceIdeal.Read.val_main_v52 (F := Ideal) x0 x1 x2 x3 (ix2 r j)
      = Cert.DenseGcn.refOut x3 x0 x1 x2 r j := by
  have eb : idx_main_v50 (idx_main_v51 (ix2 r j)) = ix1 j := funext fun a => by match a with | ⟨0, _⟩ => rfl
  rw [val_main_v52_apply, val_main_v49_apply, val_main_v51_apply, val_main_v50_apply, eb, Ideal.addf_def]
  unfold refOut
  refine congrArg (· + x2 (ix1 j)) (Finset.sum_congr rfl fun k _ => ?_)
  have el : lidx_main_v49 (ix2 r j) k = ix2 r k := funext fun a => by
    match a with
    | ⟨0, _⟩ => rfl
    | ⟨1, _⟩ => rfl
  have er : ridx_main_v49 (ix2 r j) k = ix2 k j := funext fun a => by
    match a with
    | ⟨0, _⟩ => rfl
    | ⟨1, _⟩ => rfl
  rw [el, er, val_v47_ix x3 hr, val_v48_ix]

end Cert.ReferenceIdeal.RefValue

end
-- ==== Proof.KernelIdeal.R0.lean ====
/-
  Region 0 of the dense graph-convolution layer's program: the kernel that takes a block of 1024 rows of x, rounds it
  and the weight to bf16, multiplies them, scales row r of the product by entry r of a column, and rounds the result
  to bf16. The pipeline walks the 8 row blocks in order; the weight is brought in once and stays.

  Here: what each window's staging buffer holds when the body is called and when it returns (the region's proof data,
  stated at the buffer contents V the region is entered with), the body's triple, and from the two the body's
  obligation at every grid point. The output block after the body is one covering store's payload, the function
  k0_pay1 of the three input blocks.
-/
import proofs.«409937_j69372311765406_2_alg».proof.Proof.Gen.KernelIdeal.Launch
import proofs.«409937_j69372311765406_2_alg».proof.Proof.Gen.KernelIdeal.Skeleton
import proofs.«409937_j69372311765406_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds block t of x at every point t: the block is brought in at every point, the
    body leaves it in place, and no part of it lies outside the array. Stated for any proof data whose array is V's
    and whose body leaves the block. -/
theorem before_xBlock0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the weight at every point: it is brought in at the first point only, and
    at a later point the block index has not moved, so the buffer still holds what the body left, which is the same
    block. -/
theorem before_weightBlock0_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The scaling column's window holds block t of the column at every point t, as the x window does. -/
theorem before_columnBlock0_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev wholeRows0 : Rect S1024x128 := Rect.unit (s := S1024x128) ![0, 0] S1024x128.size inb_S1024x128_S1024x128_0_0
abbrev wholeWeight0 : Rect S128x128 := Rect.unit (s := S128x128) ![0, 0] S128x128.size inb_S128x128_S128x128_0_0
abbrev wholeColumn0 : Rect S1024x1 := Rect.unit (s := S1024x1) ![0, 0] S1024x1.size inb_S1024x1_S1024x1_0_0

/-! ## What the body leaves in the output window's buffer -/

/-- The output buffer after the body, from the three input blocks: its one store, through the whole buffer, of the
    payload of the three whole-buffer loads. -/
def outBlock0 (x0 : Vec F S1024x128 .f32) (x1 : Vec F S128x128 .f32) (x2 : Vec F S1024x1 .f32) : Vec F S1024x128 .bf16 :=
  View.canon [⟨wholeRows0, k0_pay1 (View.ld x0 wholeRows0) (View.ld x1 wholeWeight0) (View.ld x2 wholeColumn0)⟩]

/-- The one store covers the buffer. -/
theorem outStore_covers0 (p0 : Vec F S1024x128 .bf16) (y : S1024x128.Idx) :
    ∃ pc ∈ ([⟨wholeRows0, p0⟩] : List (View.Piece (Elt F) S1024x128 .bf16)), y ∈ pc.1.set :=
  View.cover_of_tiled [⟨wholeRows0, p0⟩] S1024x128.size (by rfl) y

/-- The offsets of a whole-buffer access are all zero. -/
theorem wholeAccess_offsets0 : (![0, 0] : Fin 2 → Nat) = fun _ => 0 := funext fun a => by fin_cases a <;> rfl

/-- A whole-buffer load reads the contents and one whole-buffer store leaves its payload: the output buffer after the
    body is the payload of the three input blocks. -/
theorem outBlock0_eq (x0 : Vec F S1024x128 .f32) (x1 : Vec F S128x128 .f32) (x2 : Vec F S1024x1 .f32) :
    outBlock0 x0 x1 x2 = k0_pay1 x0 x1 x2 := by
  unfold outBlock0
  rw [View.canon_unit_zero wholeAccess_offsets0]
  rw [View.ld_unit_zero (S := S1024x128) wholeAccess_offsets0, View.ld_unit_zero (S := S128x128) wholeAccess_offsets0,
    View.ld_unit_zero (S := S1024x1) wholeAccess_offsets0]

/-! ## The body's triple -/

set_option maxHeartbeats 1000000 in
/-- The kernel on whole staging memrefs, the three inputs' at contents x0, x1, x2 and the output's at anything, runs
    to a continuation that holds the inputs' as they were and the output's at outBlock0 of them: three loads, a load
    of the output buffer whose value nothing reads, and one store. -/
theorem kernel_triple0 (c : Dev nD) (E : Set ℕ) (i : grid0.Coords)
    (arg1 : Memref sig .tc .vmem S1024x128 .f32) (harg1 : arg1.IsWhole) (arg2 : Memref sig .tc .vmem S128x128 .f32) (harg2 : arg2.IsWhole)
    (arg3 : Memref sig .tc .vmem S1024x1 .f32) (harg3 : arg3.IsWhole) (arg4 : Memref sig .tc .vmem S1024x128 .bf16) (harg4 : arg4.IsWhole)
    (x0 : Vec F S1024x128 .f32) (x1 : Vec F S128x128 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock0 x0 x1 x2)) -∗ K ⟨⟩))
      ⊢ wp frame (wpE (defs₀ (F := F)) Variants.none c none) E (cc0__support_kernel i arg1 harg1 arg2 harg2 arg3 harg3 arg4 harg4) K := by
  simp only [cc0__support_kernel_eq_skeleton]; unfold cc0__support_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outStore_covers0 _)

/-! ## The region's proof data -/

/-- The proof data of region 0's pipeline on core c: the arrays as the region finds them; after the body at point t
    each input's buffer at its block and the output's at outBlock0 of the three input blocks; the invariant that of
    a body which touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outBlock0 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_x (c : Dev nD) (t : Fin cfg0.N) : (dat0 V c).after 0 t = iblk0 V c 0 t := by dsimp only [dat0]
theorem after0_weight (c : Dev nD) (t : Fin cfg0.N) : (dat0 V c).after 1 t = iblk0 V c 1 t := by dsimp only [dat0]
theorem after0_column (c : Dev nD) (t : Fin cfg0.N) : (dat0 V c).after 2 t = iblk0 V c 2 t := by dsimp only [dat0]
theorem after0_out (c : Dev nD) (t : Fin cfg0.N) :
    (dat0 V c).after 3 t = outBlock0 (iblk0 V c 0 t) (iblk0 V c 1 t) (iblk0 V c 2 t) := by dsimp only [dat0]

/-- The output block the body leaves at point t, in closed form: the payload of the three input blocks. -/
theorem after0_3_eq (c : Dev nD) (t : Fin cfg0.N) :
    (dat0 V c).after 3 t = k0_pay1 (iblk0 V c 0 t) (iblk0 V c 1 t) (iblk0 V c 2 t) :=
  (after0_out V c t).trans (outBlock0_eq _ _ _)

/-- Each input's staging buffer holds its block when the body is called, brought in at that point or not. -/
theorem before0_x (c : Dev nD) (t : Fin cfg0.N) (d) : (dat0 V c).before 0 t d = iblk0 V c 0 t :=
  before_xBlock0_of V (dat0 V c) (A_eq0 V c 0) (after0_x V c) t d
theorem before0_weight (c : Dev nD) (t : Fin cfg0.N) (d) : (dat0 V c).before 1 t d = iblk0 V c 1 t :=
  before_weightBlock0_of V (dat0 V c) (A_eq0 V c 1) (after0_weight V c) t d
theorem before0_column (c : Dev nD) (t : Fin cfg0.N) (d) : (dat0 V c).before 2 t d = iblk0 V c 2 t :=
  before_columnBlock0_of V (dat0 V c) (A_eq0 V c 2) (after0_column V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and
    what the core owes pass through unread. -/
theorem body_triple0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_x, before0_weight, before0_column]
  rw [show (dat0 V c).Φ t.succ = (dat0 V c).Φ t.castSucc from rfl,
    show (dat0 V c).owesAt () t.succ = (dat0 V c).owesAt () t.castSucc from rfl,
    after0_x, after0_weight, after0_column, after0_out]
  iintro ⟨HΦ, Ho, ⟨%d0, H0⟩, ⟨%d1, H1⟩, ⟨%d2, H2⟩, ⟨%d3, H3⟩⟩
  iapply (kernel_triple0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's body obligation, at every point. -/
theorem body_obligation0 (c : Dev nD) : BodyObligation (dat0 (F := F) V c) (defs₀ (F := F)) Variants.none () Set.univ := fun t => by
  rw [bigSep_W0, bigSep_W0]
  exact body_triple0 V c t

end Cert.KernelIdeal.Frame

end
-- ==== Proof.KernelIdeal.R1.lean ====
/-
  The second kernel region's half of the frame: its proof data and its body obligation.

  The region runs the dense propagation product on a grid of 8 × 2 points: the outer coordinate picks a block of 1024
  output rows, the inner one a half of the contraction (4096 columns of the adjacency block against 4096 rows of the
  scaled support). An accumulator of 1024 × 128 words is zeroed at every point with inner coordinate 0, receives each
  point's block product, and at inner coordinate 1 is read out, scaled by the column block, plus the bias row, into the
  output block. So the accumulator is CARRIED from each even point to the odd point after it and never further: the
  region invariant names what it holds after every point, and the output block is idle at the even points.

  Everything is generic in the float instance.
-/
import proofs.«409937_j69372311765406_2_alg».proof.Proof.Gen.KernelIdeal.Launch
import proofs.«409937_j69372311765406_2_alg».proof.Proof.Gen.KernelIdeal.Skeleton
import proofs.«409937_j69372311765406_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the second kernel (reset the accumulator), from the grid coordinates. -/
abbrev cond1_0 (i : grid1.Coords) : Prop := (Scalar.cmpi .ne (Scalar.extui (Scalar.cmpi .eq (BitVec.ofNat 32 (i 1).val) 0#32)) 0#32) = 1#1
/-- It holds exactly at the even points (inner coordinate 0). -/
theorem hcond1_0 : ∀ t : Fin cfg1.N, cond1_0 (grid1.coords t) ↔ t.val % 2 = 0 :=
  (by decide +kernel : ∀ t : Fin grid1.N, cond1_0 (grid1.coords t) ↔ t.val % 2 = 0)
/-- The second conditional (write the scaled accumulator plus bias out), from the grid coordinates. -/
abbrev cond1_1 (i : grid1.Coords) : Prop := k1_cond2 i = 1#1
/-- It holds exactly at the odd points (inner coordinate 1, the last of the contraction). -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- At an even point nothing is stored into the output block: it is idle there, -/
theorem idleAt1_4_even : ∀ t : Fin cfg1.N, t.val % 2 = 0 → cfg1.idle 4 (grid1.coords t) = true := by decide +kernel
/-- and not written back; -/
theorem noFlush1_4_even : ∀ t : Fin cfg1.N, t.val % 2 = 0 → (cfg1.win 4).flush t = false := by decide +kernel
/-- at an odd point it is stored whole. -/
theorem liveAt1_4_odd : ∀ t : Fin cfg1.N, t.val % 2 = 1 → cfg1.idle 4 (grid1.coords t) = false := by decide +kernel

/-! ## The staging memrefs at a point, and the accumulator -/

abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from an even point to the next odd one. -/
abbrev scM1_0 : Memref sig .tc .vmem S1024x128 .f32 := Memref.whole cc1_scratch0

/-- The zero offsets of a whole 1024×128 block, however they are spelt. -/
theorem hz2 : (![0, 0] : Fin 2 → Nat) = fun _ => 0 := by funext a; fin_cases a <;> rfl

/-! ## Whole-buffer loads and stores

Every load and store of the body goes through the rectangle that is the whole buffer (zero offsets, the buffer's own
extents). Through it a load reads the contents, and a store made last leaves its payload whatever was stored
before. Both hold for any view of any shape: nothing in them depends on the extents. -/

theorem read_writes_whole_cons {sig' : RefSig} {κ : Kind} {sp : Space} {S : Shape} {e : EltTy} (v : View sig' κ sp S e)
    {off : Fin S.rank → Nat} (h : off = fun _ => 0) (inb : ∀ a, off a + S.size a ≤ S.size a)
    (f : v.ty.Contents (Elt F)) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

theorem readAt_whole_unread {sig' : RefSig} {κ : Kind} {sp : Space} {S : Shape} {e : EltTy} {m : Memref sig' κ sp S e} (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

set_option maxHeartbeats 1000000 in
/-- THE EVEN POINT. With the first conditional taken and the second not, on whole memrefs at contents
    `x0 … x3` (the four inputs), `xi4` (the output block, which is not touched) and anything in the accumulator,
    the body runs and leaves the inputs and the output block as they were and the accumulator at the zero block
    plus the block product. -/
theorem kernelRun1_even (c : Dev nD) (i : grid1.Coords)
    (arg2 : Memref sig .tc .vmem S1024x4096 .bf16) (harg2 : arg2.IsWhole) (arg3 : Memref sig .tc .vmem S4096x128 .bf16) (harg3 : arg3.IsWhole)
    (arg4 : Memref sig .tc .vmem S1024x1 .f32) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : cond1_0 i) (hc1 : ¬cond1_1 i)
    (x0 : Vec F S1024x4096 .bf16) (x1 : Vec F S4096x128 .bf16) (x2 : Vec F S1024x1 .f32) (x3 : Vec F S1x128 .f32) (xi4 : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k1_pay2 (k1_pay1 (F := F)) x0 x1)) -∗ K ⟨⟩))
      ⊢ wp frame (wpE (defs₀ (F := F)) Variants.none c none) E (cc1__final_kernel i arg2 harg2 arg3 harg3 arg4 harg4 arg5 harg5 arg6 harg6 arg7 harg7) K := by
  simp only [cc1__final_kernel_eq_skeleton]; unfold cc1__final_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS0
  ipureintro
  sl_unfold_words
  refine (read_writes_whole_cons _ hz2 _ _ _ _).trans ?_
  rw [View.readCov_unit_zero (S := S1024x128) _ hz2, readAt_whole_unread harg2 hz2, readAt_whole_unread harg3 hz2]

set_option maxHeartbeats 1000000 in
/-- THE ODD POINT. With the first conditional not taken and the second taken, on whole memrefs at contents
    `x0 … x3` (the four inputs), anything in the output block and `xs` in the accumulator (what the even point
    before left), the body runs and leaves the inputs as they were, the accumulator at `xs` plus the block product,
    and the output block at that sum scaled by the column, plus the bias row. -/
theorem kernelRun1_odd (c : Dev nD) (i : grid1.Coords)
    (arg2 : Memref sig .tc .vmem S1024x4096 .bf16) (harg2 : arg2.IsWhole) (arg3 : Memref sig .tc .vmem S4096x128 .bf16) (harg3 : arg3.IsWhole)
    (arg4 : Memref sig .tc .vmem S1024x1 .f32) (harg4 : arg4.IsWhole) (arg5 : Memref sig .tc .vmem S1x128 .f32) (harg5 : arg5.IsWhole)
    (arg6 : Memref sig .tc .vmem S1024x128 .f32) (harg6 : arg6.IsWhole) (arg7 : Memref sig .tc .vmem S1024x128 .f32) (harg7 : arg7.IsWhole)
    (hc0 : ¬cond1_0 i) (hc1 : cond1_1 i)
    (x0 : Vec F S1024x4096 .bf16) (x1 : Vec F S4096x128 .bf16) (x2 : Vec F S1024x1 .f32) (x3 : Vec F S1x128 .f32) (xs : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (k1_pay3 (k1_pay2 xs x0 x1) x2 x3)
            ∗ owns (c : Thread nD τ) arg7 fullShare (k1_pay2 xs x0 x1)) -∗ K ⟨⟩))
      ⊢ wp frame (wpE (defs₀ (F := F)) Variants.none c none) E (cc1__final_kernel i arg2 harg2 arg3 harg3 arg4 harg4 arg5 harg5 arg6 harg6 arg7 harg7) K := by
  simp only [cc1__final_kernel_eq_skeleton]; unfold cc1__final_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2
  obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    refine (read_writes_whole_cons _ hz2 _ _ _ _).trans ?_
    rw [View.readCov_unit_zero (S := S1024x128) _ hz2, readAt_whole_unread harg2 hz2, readAt_whole_unread harg3 hz2,
      readAt_whole_unread harg4 hz2, readAt_whole_unread harg5 hz2, readAt_whole_unread harg7 hz2]
  iexists _; isplitr
  swap; · iexact HS0
  ipureintro
  sl_unfold_words
  refine (read_writes_whole_cons _ hz2 _ _ _ _).trans ?_
  rw [readAt_whole_unread harg2 hz2, readAt_whole_unread harg3 hz2, readAt_whole_unread harg7 hz2]

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The region invariant: the accumulator between points -/

/-- What the region invariant holds beside the accumulator: the first kernel's staging buffers (scoped buffers this
    region does not stage) at some contents each, and the generator register at some state. -/
def restR1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)) ∗ (∃ r, prngReg c r))

/-- The region invariant the launch hands over, with the accumulator singled out as a memref owned at some contents. -/
theorem PhiA1_eq (c : Dev nD) :
    (Pipeline.ΦA spec1 c : sProp 𝕄) = iprop((∃ d, owns (c : Thread nD τ) scM1_0 fullShare d) ∗ restR1 (F := F) c) := by
  have h0 : (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d)) ∗ (∃ r, prngReg c r)) := by
    unfold Pipeline.ΦA; rw [scopedRest1_eq]; simp only [scM1_0, owns_whole]; try rfl
  rw [h0]; unfold restR1
  refine BI.equiv_iff.mp ⟨?_, ?_⟩
  · show (_ : sProp 𝕄) ⊢ _
    iintro ⟨⟨Hb0, Hb1, Hb2, Hb3, Hb4, Hb5, Hb6, HS0⟩, Hg⟩
    isplitl [HS0]; · iexact HS0
    isplitr [Hg]
    swap; · iexact Hg
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hb6
  · show (_ : sProp 𝕄) ⊢ _
    iintro ⟨HS0, ⟨Hb0, Hb1, Hb2, Hb3, Hb4, Hb5, Hb6⟩, Hg⟩
    isplitr [Hg]
    swap; · iexact Hg
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexact HS0

/-- THE ACCUMULATION. What the accumulator holds after the body at point `t`: at an even point (inner coordinate 0)
    the zero block plus that point's block product; at an odd point that of the even point before, plus this
    point's block product. An even point resets the accumulator, so nothing older is ever read. -/
def accAt1 (c : Dev nD) (t : Fin cfg1.N) : Vec F S1024x128 .f32 :=
  if h : t.val % 2 = 1 then
    k1_pay2 (k1_pay2 (k1_pay1 (F := F)) (iblk1 V c 0 ⟨t.val - 1, by omega⟩) (iblk1 V c 1 ⟨t.val - 1, by omega⟩)) (iblk1 V c 0 t) (iblk1 V c 1 t)
  else
    k1_pay2 (k1_pay1 (F := F)) (iblk1 V c 0 t) (iblk1 V c 1 t)

theorem accAt1_even (c : Dev nD) (t : Fin cfg1.N) (h : t.val % 2 = 0) :
    accAt1 V c t = k1_pay2 (k1_pay1 (F := F)) (iblk1 V c 0 t) (iblk1 V c 1 t) := by
  unfold accAt1; exact dif_neg (by omega)

theorem accAt1_odd (c : Dev nD) (t : Fin cfg1.N) (h : t.val % 2 = 1) :
    accAt1 V c t = k1_pay2 (k1_pay2 (k1_pay1 (F := F)) (iblk1 V c 0 ⟨t.val - 1, by omega⟩) (iblk1 V c 1 ⟨t.val - 1, by omega⟩)) (iblk1 V c 0 t) (iblk1 V c 1 t) := by
  unfold accAt1; exact dif_pos h

/-- At an odd point the accumulator is what the even point before left, plus this point's block product. -/
theorem accAt1_odd_pred (c : Dev nD) (t : Fin cfg1.N) (h : t.val % 2 = 1) :
    accAt1 V c t = k1_pay2 (accAt1 V c ⟨t.val - 1, by omega⟩) (iblk1 V c 0 t) (iblk1 V c 1 t) := by
  rw [accAt1_odd V c t h, accAt1_even V c ⟨t.val - 1, by omega⟩ (by show (t.val - 1) % 2 = 0; omega)]

/-- What the output block's staging buffer holds after the body at point `t`: the accumulator scaled by the column
    block, plus the bias row. (Stored at the odd points only; at an even point the buffer is idle and this is not read.) -/
def out1_4 (c : Dev nD) (t : Fin cfg1.N) : Vec F S1024x128 .f32 :=
  k1_pay3 (accAt1 V c t) (iblk1 V c 2 t) (iblk1 V c 3 t)

/-- The region invariant before position `n`: before the first point what the launch hands over (the accumulator at
    anything); afterwards the accumulator at what the point before left in it, beside the rest. -/
def PhiS1 (c : Dev nD) : (n : ℕ) → n ≤ cfg1.N → sProp 𝕄
  | 0, _ => Pipeline.ΦA spec1 c
  | n + 1, hn => iprop(owns (c : Thread nD τ) scM1_0 fullShare (accAt1 V c ⟨n, hn⟩) ∗ restR1 (F := F) c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (accAt1 V c ⟨n, hn⟩) ∗ restR1 (F := F) c) := rfl

theorem PhiS1_pos (c : Dev nD) (n : ℕ) (h : n ≤ cfg1.N) (hz : n ≠ 0) :
    PhiS1 V c n h = iprop(owns (c : Thread nD τ) scM1_0 fullShare (accAt1 V c ⟨n - 1, by omega⟩) ∗ restR1 (F := F) c) := by
  cases n with
  | zero => exact absurd rfl hz
  | succ n => rfl

/-! ## The proof data -/

/-- The proof data of the second pipeline on core `c`: the arrays as the region finds them; after the body at point
    `t` each input's buffer at its block and the output's at the scaled accumulator plus bias; the invariant tracking
    the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 V c t := by dsimp only [dat1]

/-- The closed form of what an odd point leaves in the output block. -/
theorem after1_4_odd (c : Dev nD) (t : Fin cfg1.N) (h : t.val % 2 = 1) :
    (dat1 V c).after 4 t = k1_pay3 (k1_pay2 (k1_pay2 (k1_pay1 (F := F)) (iblk1 V c 0 ⟨t.val - 1, by omega⟩) (iblk1 V c 1 ⟨t.val - 1, by omega⟩)) (iblk1 V c 0 t) (iblk1 V c 1 t)) (iblk1 V c 2 t) (iblk1 V c 3 t) := by
  rw [after1_4]; unfold out1_4; rw [accAt1_odd V c t h]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the parity of the point says which of the two
    control cases it is in. At an even point the accumulator is handed over at whatever it holds (what the point
    before left, or at the first point anything), the output block's buffer comes back untouched, and the accumulator
    is taken back at the zero block plus the block product. At an odd point the accumulator is handed over at what
    the even point before left, and it and the output block are taken back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h : t.val % 2 = 0
  · rw [Dat.leavesExact_idle (dat1 V c) 4 t (idleAt1_4_even t h) (noFlush1_4_even t h)]
    rw [accAt1_even V c t h]
    by_cases hz : t.val = 0
    · rw [PhiS1_castSucc V c t, PhiS1_zero V c _ _ hz, PhiA1_eq]
      iintro ⟨⟨HS0, HR⟩, Ho, ⟨%d0, H0⟩, ⟨%d1, H1⟩, ⟨%d2, H2⟩, ⟨%d3, H3⟩, ⟨%d4, H4⟩⟩
      iapply (kernelRun1_even c (grid1.coords t) _ _ _ _ _ _ _ _ _ _ _ _ ((hcond1_0 t).mpr h)
        (fun hh => by have := (hcond1_1 t).mp hh; omega) (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 HR]
      · isplitl [HS0]; · iexact HS0
        iexact HR
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨HS0, HR⟩, Ho, ⟨%d0, H0⟩, ⟨%d1, H1⟩, ⟨%d2, H2⟩, ⟨%d3, H3⟩, ⟨%d4, H4⟩⟩
      iapply (kernelRun1_even c (grid1.coords t) _ _ _ _ _ _ _ _ _ _ _ _ ((hcond1_0 t).mpr h)
        (fun hh => by have := (hcond1_1 t).mp hh; omega) (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, HS0⟩
      isplitl [HS0 HR]
      · isplitl [HS0]; · iexact HS0
        iexact HR
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat1 V c).leavesExact 4 t = owns (c : Thread nD τ) (ms1_4 t) fullShare ((dat1 V c).after 4 t) from by
      unfold Dat.leavesExact; rw [liveAt1_4_odd t h1], after1_4]
    unfold out1_4
    rw [accAt1_odd_pred V c t h1]
    rw [PhiS1_castSucc V c t, PhiS1_pos V c _ _ hz]
    iintro ⟨⟨HS0, HR⟩, Ho, ⟨%d0, H0⟩, ⟨%d1, H1⟩, ⟨%d2, H2⟩, ⟨%d3, H3⟩, ⟨%d4, H4⟩⟩
    iapply (kernelRun1_odd c (grid1.coords t) _ _ _ _ _ _ _ _ _ _ _ _ (fun hh => by have := (hcond1_0 t).mp hh; omega)
      ((hcond1_1 t).mpr h1) (iblk1 V c 0 t) (iblk1 V c 1 t) (iblk1 V c 2 t) (iblk1 V c 3 t) _ Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 HR]
    · isplitl [HS0]; · iexact HS0
      iexact HR
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives back what the launch handed over: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨HS0, HR⟩
  isplitl [HS0]
  · iexists _; iexact HS0
  iexact HR

end Cert.KernelIdeal.Frame

end
-- ==== Proof.KernelIdeal.Run.lean ====
/-
  The frame of the two-region program, assembled: @main as host stretches and two kernel regions. Between two items
  every unscoped buffer of the core is held at named contents — the launch memory pushed through the host stretches,
  region 0's output array at what its write-backs leave, region 1's likewise — beside the core's generator register at
  some state and the core owing nothing. Each region takes its arrays out of that state, runs its pipeline over its
  proof data, and puts them back; the host stretches run over the same state.
-/
import proofs.«409937_j69372311765406_2_alg».proof.Proof.Gen.KernelIdeal.Regions
import proofs.«409937_j69372311765406_2_alg».proof.Proof.KernelIdeal.R0
import proofs.«409937_j69372311765406_2_alg».proof.Proof.KernelIdeal.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered with and leave -/

/-- What region 0 is entered with: the launch memory after the nine host stretches before it. -/
abbrev VE0 : (c : Dev nD) → (b : Ref sig .tc) → Buf (Elt F) ((c : Thread nD τ).loc b) := fun c b => V9 m c b

/-- What the regions leave, first approximation: region 0's arrays at what its write-backs leave (read at any
    reference; only the output array's is consulted). -/
def outsA : Outs (F := F) := fun _ r c =>
  Pipeline.withArrays spec0 c (V9 m c) (fun w => (dat0 (VE0 m) c).arrAt w cfg0.N) r

/-- What region 1 is entered with: region 0's output in place, then the one host stretch between the regions. -/
abbrev VE1 : (c : Dev nD) → (b : Ref sig .tc) → Buf (Elt F) ((c : Thread nD τ).loc b) := fun c b => V11 m (outsA m) c b

/-- What the regions leave: region 0's arrays as above, region 1's at what its write-backs leave. -/
def outs : Outs (F := F) := fun J r c =>
  if J = 12 then Pipeline.withArrays spec1 c (V11 m (outsA m) c) (fun w => (dat1 (VE1 m) c).arrAt w cfg1.N) r
  else outsA m J r c

theorem outs_ten : outs m 10 = outsA m 10 := by
  funext r c; unfold outs; exact if_neg (by decide)

theorem outs_twelve (r : Ref sig .tc) (c : Dev nD) :
    outs m 12 r c = Pipeline.withArrays spec1 c (V11 m (outsA m) c) (fun w => (dat1 (VE1 m) c).arrAt w cfg1.N) r := by
  unfold outs; exact if_pos rfl

theorem V10_outs (c : Dev nD) : V10 m (outs m) c = V10 m (outsA m) c := by
  show Function.update (V9 m c) _ (outs m 10 main_v45 c) = Function.update (V9 m c) _ (outsA m 10 main_v45 c)
  rw [outs_ten]

theorem V11_outs (c : Dev nD) : V11 m (outs m) c = V11 m (outsA m) c := by
  show StableHlo.after hostOps1 (V10 m (outs m) c) = StableHlo.after hostOps1 (V10 m (outsA m) c)
  rw [V10_outs]

/-- Region 0's exit contents. -/
abbrev VX0 : (c : Dev nD) → (b : Ref sig .tc) → Buf (Elt F) ((c : Thread nD τ).loc b) := fun c b => V10 m (outsA m) c b
/-- Region 1's exit contents. -/
abbrev VX1 : (c : Dev nD) → (b : Ref sig .tc) → Buf (Elt F) ((c : Thread nD τ).loc b) := fun c b => V12 m (outs m) c b

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c

abbrev 𝒱₀ : Variants := Variants.none
abbrev L : GSem nD τ sig → Finset Unit := fun _ => ∅
abbrev lv : GSem nD τ sig → Unit → ℕ := fun _ _ => 0

/-- Beside the buffers through every item: the generator register at some state, and the core owing nothing. -/
abbrev R (c : Dev nD) : sProp 𝕄 := iprop((∃ r, prngReg c r) ∗ ∃ W, owes (c : Thread nD τ) (0 : CellTallies nD τ sig Unit) W)

abbrev E : Fin 3 → Dev nD → sProp 𝕄 := fun _ c => R (F := F) c

/-! ## Region 0's arrays at its exit -/

theorem V10A_main_v45 (c : Dev nD) : VX0 m c main_v45 = (dat0 (VE0 m) c).arrAt 3 cfg0.N := by
  show Function.update (V9 m c) _ (outsA m 10 main_v45 c) _ = _
  rw [Function.update_self]
  exact Pipeline.withArrays_arr spec0 launch0.win.arr_inj c _ _ 3

theorem hF0 (c : Dev nD) (w : Fin cfg0.W) : (pdats m 0 c).arrAt w cfg0.N = VX0 m c (Pipeline.arrRef spec0 w) := by
  match w with
  | ⟨0, _⟩ => exact ((dat0 (VE0 m) c).arrAt_in 0 rfl _).trans ((A_eq0 (VE0 m) c 0).trans (V10_of m (outsA m) c main_arg0 (by decide)).symm)
  | ⟨1, _⟩ => exact ((dat0 (VE0 m) c).arrAt_in 1 rfl _).trans ((A_eq0 (VE0 m) c 1).trans (V10_of m (outsA m) c main_arg1 (by decide)).symm)
  | ⟨2, _⟩ => exact ((dat0 (VE0 m) c).arrAt_in 2 rfl _).trans ((A_eq0 (VE0 m) c 2).trans (V10_of m (outsA m) c main_v44 (by decide)).symm)
  | ⟨3, _⟩ => exact (V10A_main_v45 m c).symm

theorem hrest0 (c : Dev nD) : ∀ b, b ∉ Finset.univ.image (Pipeline.arrRef spec0) → VX0 m c b = VE0 m c b := fun b hb =>
  V10_of m (outsA m) c b (by
    intro h
    have : b = main_v45 := by simpa using h
    exact hb (Finset.mem_image.mpr ⟨3, Finset.mem_univ _, this.symm⟩))

/-! ## Region 1's arrays at its exit -/

theorem V12_main_v47 (c : Dev nD) : VX1 m c main_v47 = (dat1 (VE1 m) c).arrAt 4 cfg1.N := by
  show Function.update (V11 m (outs m) c) _ (outs m 12 main_v47 c) _ = _
  rw [Function.update_self, outs_twelve]
  exact Pipeline.withArrays_arr spec1 launch1.win.arr_inj c _ _ 4

/-- Every buffer but region 1's output array is at the region's exit what it was at its entry. -/
theorem VX1_of_ne_out (c : Dev nD) (r : Ref sig .tc) (h : r ∉ ([main_v47] : List (Ref sig .tc))) : VX1 m c r = VE1 m c r :=
  (V12_of m (outs m) c r h).trans (congrFun (V11_outs m c) r)

/-- Region 1's four input arrays end as the region found them: no write-back touches an input window's array. -/
theorem hF1_adj (c : Dev nD) : (pdats m 1 c).arrAt 0 cfg1.N = VX1 m c (Pipeline.arrRef spec1 0) :=
  ((dat1 (VE1 m) c).arrAt_in 0 rfl _).trans ((A_eq1 (VE1 m) c 0).trans (VX1_of_ne_out m c main_v22 (by decide)).symm)
theorem hF1_rows (c : Dev nD) : (pdats m 1 c).arrAt 1 cfg1.N = VX1 m c (Pipeline.arrRef spec1 1) :=
  ((dat1 (VE1 m) c).arrAt_in 1 rfl _).trans ((A_eq1 (VE1 m) c 1).trans (VX1_of_ne_out m c main_v45 (by decide)).symm)
theorem hF1_column (c : Dev nD) : (pdats m 1 c).arrAt 2 cfg1.N = VX1 m c (Pipeline.arrRef spec1 2) :=
  ((dat1 (VE1 m) c).arrAt_in 2 rfl _).trans ((A_eq1 (VE1 m) c 2).trans (VX1_of_ne_out m c main_v44 (by decide)).symm)
theorem hF1_bias (c : Dev nD) : (pdats m 1 c).arrAt 3 cfg1.N = VX1 m c (Pipeline.arrRef spec1 3) :=
  ((dat1 (VE1 m) c).arrAt_in 3 rfl _).trans ((A_eq1 (VE1 m) c 3).trans (VX1_of_ne_out m c main_v46 (by decide)).symm)
/-- and its output array ends at what its write-backs leave. -/
theorem hF1_out (c : Dev nD) : (pdats m 1 c).arrAt 4 cfg1.N = VX1 m c (Pipeline.arrRef spec1 4) :=
  (V12_main_v47 m c).symm

theorem hF1 (c : Dev nD) (w : Fin cfg1.W) : (pdats m 1 c).arrAt w cfg1.N = VX1 m c (Pipeline.arrRef spec1 w) := by
  match w with
  | ⟨0, _⟩ => exact hF1_adj m c
  | ⟨1, _⟩ => exact hF1_rows m c
  | ⟨2, _⟩ => exact hF1_column m c
  | ⟨3, _⟩ => exact hF1_bias m c
  | ⟨4, _⟩ => exact hF1_out m c

theorem hrest1 (c : Dev nD) : ∀ b, b ∉ Finset.univ.image (Pipeline.arrRef spec1) → VX1 m c b = VE1 m c b := fun b hb =>
  (V12_of m (outs m) c b (by
    intro h
    have : b = main_v47 := by simpa using h
    exact hb (Finset.mem_image.mpr ⟨4, Finset.mem_univ _, this.symm⟩))).trans (congrFun (V11_outs m c) b)

/-! ## The regions as segments -/

set_option backward.isDefEq.respectTransparency.types false in
/-- Region 0: entered from every unscoped buffer at the contents after the host stretches before it, left with its
    output array at what its write-backs leave. The generator register goes into the region invariant and comes
    back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (V10 m (outsA m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the contents after the stretch between the regions, left with
    its output array at what its write-backs leave. The generator register and the scoped buffers no window stages —
    the scratch accumulator among them — go into the region invariant (which tracks the accumulator point by point)
    and come back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (V11 m (outsA m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VE1 m) c)
    unfold Pipeline.ΦA
    iintro ⟨Hp, -, Hr⟩
    isplitl [Hr]; · iexact Hr
    iexact Hp
  hout c := by
    rw [Pipeline.ownSems0_none]
    refine BIBase.Entails.trans (hout1 (VE1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's ghost state and the first thread state -/

abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩
  iexact HO

/-! ## The frame -/

set_option backward.isDefEq.respectTransparency.types false in
/-- From any memory with zero counters every weakly fair execution of @main terminates, nothing faulting, and every
    argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_cond m emb₁ () 𝒱₀ L lv (fun _ _ => rfl) ρ (outs m) (pdats m) 0 (fun _ => iprop(emp)) u₀ (hu₀ (F := F)) E (hE0 ρ) hE2
    (reg0 m) (fun c => .rfl) (fun c => by rw [V10_outs]; exact .rfl)
    (reg1 m) (fun c => by rw [V11_outs]; exact .rfl) (fun c => .rfl)

end Cert.KernelIdeal.Frame

end
-- ==== Proof.KernelIdeal.RunVal.lean ====
/-
  The run of the idealized two-region program with its result named: beside the argument arrays ending as
  launched, the result array ends at what region 1's write-backs leave of its proof data.
-/
import proofs.«409937_j69372311765406_2_alg».proof.Proof.KernelIdeal.Run
import proofs.«409937_j69372311765406_2_alg».proof.Proof.KernelIdeal.RegionsVal

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every weakly fair execution of @main terminates, nothing faulting, with the result array at region 1's final
    contents and every argument array as launched. -/
theorem run_val : θ_run defs (onTc (τ := τ) (main (F := F))) ⟨m, fun _ => 0, ρ⟩ (fun r => ∀ c : Dev nD,
      r.2.mem ((c.tc : Thread nD τ).loc main_v47) = (dat1 (VE1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (V12_main_v47 m c), (h c).2⟩)
    (frame_cond_val m emb₁ () 𝒱₀ L lv (fun _ _ => rfl) ρ (outs m) (pdats m) 0 (fun _ => iprop(emp)) u₀ (hu₀ (F := F)) E (hE0 ρ) hE2
      (reg0 m) (fun c => .rfl) (fun c => by rw [V10_outs]; exact .rfl)
      (reg1 m) (fun c => by rw [V11_outs]; exact .rfl) (fun c => .rfl))

end Cert.KernelIdeal.Frame

end
-- ==== Proof.KernelIdeal.KVal.lean ====
/-
  What the two kernel regions of the dense graph-convolution layer leave in their output arrays, entry by entry, as
  functions of the arrays each region is entered with, over the extended reals.

  Region 0 walks the 8 blocks of 1024 rows. At block t it multiplies rows 1024·t … 1024·t + 1023 of x by the weight (a
  sum over the 128 inner positions; the format changes on the way are the identity here) and scales row r of the
  product by entry r of a column. Every point writes its block back, the blocks tile the 8192 rows, so the output
  array ends holding, at (r, j), the column's entry r times the sum over d of x (r, d) · w (d, j).

  Region 1 walks 8 row blocks times 2 halves of the node range, point t = 2·i + k. At the even point of a row block it
  starts an accumulator at zero and adds the block (i, 0) of the matrix against the lower 4096 scaled rows; at the odd
  point it adds the block (i, 1) against the upper 4096, multiplies row r of the accumulated sum by entry r of the
  column, adds the bias row, and writes the block back. Only the odd points write back, and their blocks tile the
  8192 rows, so the output array ends holding, at (r, j), the sum over the lower half of the nodes plus the sum over
  the upper half, times the column's entry r, plus the bias entry j.

  The steps, for each region: the body's arithmetic read at one entry of a block (a product into a zero accumulator is
  a plain sum; a spread column reads its row's entry, a spread row its column's entry); each staged block read as a
  rectangle of its array (an element of a block sits at block index × block size + its place in the block); what a
  writing point writes back is its block of one whole-array function; every row lies in some writing point's block.
-/
import proofs.«409937_j69372311765406_2_alg».proof.Proof.KernelIdeal.R0
import proofs.«409937_j69372311765406_2_alg».proof.Proof.KernelIdeal.R1
import proofs.«409937_j69372311765406_2_alg».proof.Proof.Spec
import Idealize.ShloMosaic.Lib.Pipeline.Value
import Idealize.ShloMosaic.Lib.ValueIdx
import Idealize.ShloMosaic.PureOps.Ideal.Laws

noncomputable section

namespace Cert.KernelIdeal.KVal

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Frame Cert.DenseGcn

/-! ## The two contractions read at an index -/

theorem supportDot_lhs_axis0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem supportDot_lhs_axis1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem supportDot_rhs_axis0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem supportDot_rhs_axis1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The [1024×128]·[128×128] product into a zero accumulator, at row y and column j: the sum over the 128 inner positions. -/
theorem supportDot_apply (x : FVec Ideal S1024x128 .bf16) (w : FVec Ideal S128x128 .bf16) (y : Fin 1024) (j : Fin 128) :
    matmul dot_S1024x128_S128x128_S1024x128_1_0_0_1_n_n none x w (constant (F := Ideal) S1024x128 .f32 0x00000000#32) (ix2 y j)
      = ∑ d : Fin 128, x (ix2 y d) * w (ix2 d j) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 y j) ((contrEquiv1 dot_S1024x128_S128x128_S1024x128_1_0_0_1_n_n 128 rfl rfl).symm k) = ix2 y k := funext fun a => Fin.ext (by
    match a with
    | ⟨0, _⟩ => exact supportDot_lhs_axis0 _ _
    | ⟨1, _⟩ => exact (supportDot_lhs_axis1 _ _).trans hk)
  have er : dot_S1024x128_S128x128_S1024x128_1_0_0_1_n_n.rhsIdx (ix2 y j) ((contrEquiv1 dot_S1024x128_S128x128_S1024x128_1_0_0_1_n_n 128 rfl rfl).symm k) = ix2 k j := funext fun a => Fin.ext (by
    match a with
    | ⟨0, _⟩ => exact (supportDot_rhs_axis0 _ _).trans hk
    | ⟨1, _⟩ => exact supportDot_rhs_axis1 _ _)
  rw [el, er]

theorem propagateDot_lhs_axis0 (i : S1024x128.Idx) (q : dot_S1024x4096_S4096x128_S1024x128_1_0_0_1_n_n.contr.Idx) :
    (dot_S1024x4096_S4096x128_S1024x128_1_0_0_1_n_n.lhsIdx i q 0).val = (i 0).val := by
  unfold DotDims.lhsIdx
  rw [dif_neg (show ¬(0 : Fin S1024x4096.rank) ∈ dot_S1024x4096_S4096x128_S1024x128_1_0_0_1_n_n.lhsBatch by decide), dif_pos (show (0 : Fin S1024x4096.rank) ∈ dot_S1024x4096_S4096x128_S1024x128_1_0_0_1_n_n.lhsNonContracting by decide)]
  rfl
theorem propagateDot_lhs_axis1 (i : S1024x128.Idx) (q : dot_S1024x4096_S4096x128_S1024x128_1_0_0_1_n_n.contr.Idx) :
    (dot_S1024x4096_S4096x128_S1024x128_1_0_0_1_n_n.lhsIdx i q 1).val = (q ⟨0, by decide⟩).val :=
  dot_S1024x4096_S4096x128_S1024x128_1_0_0_1_n_n.lhsIdx_val_of_single rfl i q
theorem propagateDot_rhs_axis0 (i : S1024x128.Idx) (q : dot_S1024x4096_S4096x128_S1024x128_1_0_0_1_n_n.contr.Idx) :
    (dot_S1024x4096_S4096x128_S1024x128_1_0_0_1_n_n.rhsIdx i q 0).val = (q ⟨0, by decide⟩).val :=
  dot_S1024x4096_S4096x128_S1024x128_1_0_0_1_n_n.rhsIdx_val_of_single rfl i q
theorem propagateDot_rhs_axis1 (i : S1024x128.Idx) (q : dot_S1024x4096_S4096x128_S1024x128_1_0_0_1_n_n.contr.Idx) :
    (dot_S1024x4096_S4096x128_S1024x128_1_0_0_1_n_n.rhsIdx i q 1).val = (i 1).val := by
  unfold DotDims.rhsIdx
  rw [dif_neg (show ¬(1 : Fin S4096x128.rank) ∈ dot_S1024x4096_S4096x128_S1024x128_1_0_0_1_n_n.rhsBatch by decide), dif_pos (show (1 : Fin S4096x128.rank) ∈ dot_S1024x4096_S4096x128_S1024x128_1_0_0_1_n_n.rhsNonContracting by decide)]
  rfl

/-- The [1024×4096]·[4096×128] product into a zero accumulator, at row y and column j: the sum over the 4096 inner positions. -/
theorem propagateDot_apply (a : FVec Ideal S1024x4096 .bf16) (s : FVec Ideal S4096x128 .bf16) (y : Fin 1024) (j : Fin 128) :
    matmul dot_S1024x4096_S4096x128_S1024x128_1_0_0_1_n_n none a s (constant (F := Ideal) S1024x128 .f32 0x00000000#32) (ix2 y j)
      = ∑ k : Fin 4096, a (ix2 y k) * s (ix2 k j) := by
  simp only [matmul]
  rw [Ideal.matmul_constant_zero_apply, ← Equiv.sum_comp (contrEquiv1 dot_S1024x4096_S4096x128_S1024x128_1_0_0_1_n_n 4096 rfl rfl).symm]
  refine Finset.sum_congr rfl fun k _ => ?_
  have hk := contrEquiv1_symm_val dot_S1024x4096_S4096x128_S1024x128_1_0_0_1_n_n 4096 rfl rfl k
  have el : dot_S1024x4096_S4096x128_S1024x128_1_0_0_1_n_n.lhsIdx (ix2 y j) ((contrEquiv1 dot_S1024x4096_S4096x128_S1024x128_1_0_0_1_n_n 4096 rfl rfl).symm k) = ix2 y k := funext fun a => Fin.ext (by
    match a with
    | ⟨0, _⟩ => exact propagateDot_lhs_axis0 _ _
    | ⟨1, _⟩ => exact (propagateDot_lhs_axis1 _ _).trans hk)
  have er : dot_S1024x4096_S4096x128_S1024x128_1_0_0_1_n_n.rhsIdx (ix2 y j) ((contrEquiv1 dot_S1024x4096_S4096x128_S1024x128_1_0_0_1_n_n 4096 rfl rfl).symm k) = ix2 k j := funext fun a => Fin.ext (by
    match a with
    | ⟨0, _⟩ => exact (propagateDot_rhs_axis0 _ _).trans hk
    | ⟨1, _⟩ => exact propagateDot_rhs_axis1 _ _)
  rw [el, er]

/-! ## The column and the row broadcast at an index -/

/-- A [1024×1] column spread over 128 columns reads its row's one entry. -/
theorem col_broadcast_apply (v : S1024x1.Idx → EReal) (h : S1024x1.Broadcasts S1024x128) (y : Fin 1024) (j : Fin 128) :
    broadcastTo S1024x128 v h (ix2 y j) = v (ix2 y (0 : Fin 1)) := by
  refine broadcastTo_apply v h (ix2 y j) (ix2 y (0 : Fin 1)) fun a => ?_
  match a with
  | ⟨0, _⟩ => rfl
  | ⟨1, _⟩ => rfl

/-- A [1×128] row spread over 1024 rows reads its column's one entry. -/
theorem row_broadcast_apply (v : S1x128.Idx → EReal) (h : S1x128.Broadcasts S1024x128) (y : Fin 1024) (j : Fin 128) :
    broadcastTo S1024x128 v h (ix2 y j) = v (ix2 (0 : Fin 1) j) := by
  refine broadcastTo_apply v h (ix2 y j) (ix2 (0 : Fin 1) j) fun a => ?_
  match a with
  | ⟨0, _⟩ => rfl
  | ⟨1, _⟩ => rfl

/-! ## The payloads at an index -/

/-- Region 0's stored block at row y, column j: the column entry of the row times the row of x against the column of w. -/
theorem supportPayload_apply (x : Vec Ideal S1024x128 .f32) (w : Vec Ideal S128x128 .f32) (d : Vec Ideal S1024x1 .f32) (y : Fin 1024) (j : Fin 128) :
    (k0_pay1 (F := Ideal) x w d : S1024x128.Idx → EReal) (ix2 y j) = d (ix2 y (0 : Fin 1)) * ∑ k : Fin 128, x (ix2 y k) * w (ix2 k j) := by
  unfold k0_pay1
  show (broadcastTo S1024x128 (shapeCast S1024x1 d _) _ (ix2 y j) : EReal) * (matmul (F := Ideal) _ none _ _ _ (ix2 y j) : EReal) = _
  rw [shapeCast_self, col_broadcast_apply]
  refine congrArg (d (ix2 y (0 : Fin 1)) * ·) ?_
  exact supportDot_apply _ _ y j

/-- The accumulator's first contents: zero everywhere. -/
theorem accumulatorStart_apply (i : S1024x128.Idx) : (k1_pay1 (F := Ideal) : S1024x128.Idx → EReal) i = 0 := by
  unfold k1_pay1
  rw [shapeCast_self]
  show (Scalar.ofBits (F := Ideal) .f32 0x00000000#32 : EReal) = 0
  exact Ideal.ofBits_zero_f32

/-- One accumulation step at row y, column j: what was there plus the block of A against the block of S. -/
theorem accumulateStep_apply (acc : Vec Ideal S1024x128 .f32) (a : Vec Ideal S1024x4096 .bf16) (s : Vec Ideal S4096x128 .bf16) (y : Fin 1024) (j : Fin 128) :
    (k1_pay2 (F := Ideal) acc a s : S1024x128.Idx → EReal) (ix2 y j) = acc (ix2 y j) + ∑ k : Fin 4096, a (ix2 y k) * s (ix2 k j) := by
  unfold k1_pay2
  rw [shapeCast_self, shapeCast_self, shapeCast_self]
  show (acc (ix2 y j) : EReal) + (matmul (F := Ideal) _ none _ _ _ (ix2 y j) : EReal) = _
  refine congrArg ((acc (ix2 y j) : EReal) + ·) ?_
  exact propagateDot_apply _ _ y j

/-- The closing step at row y, column j: the accumulated sum times the row's column entry, plus the bias entry. -/
theorem closingStep_apply (acc : Vec Ideal S1024x128 .f32) (d : Vec Ideal S1024x1 .f32) (b : Vec Ideal S1x128 .f32) (y : Fin 1024) (j : Fin 128) :
    (k1_pay3 (F := Ideal) acc d b : S1024x128.Idx → EReal) (ix2 y j) = acc (ix2 y j) * d (ix2 y (0 : Fin 1)) + b (ix2 (0 : Fin 1) j) := by
  unfold k1_pay3
  show (acc (ix2 y j) : EReal) * (broadcastTo S1024x128 (shapeCast S1024x1 d _) _ (ix2 y j) : EReal) + (broadcastTo S1024x128 (shapeCast S1x128 b _) _ (ix2 y j) : EReal) = _
  rw [shapeCast_self, shapeCast_self, col_broadcast_apply, row_broadcast_apply]

/-! ## Region 0: from the blocks to the array -/

section Region0

variable (V : (c : Dev nD) → (b : Ref sig .tc) → Buf (Elt Ideal) ((c : Thread nD τ).loc b))

/-- The block indices of region 0's four windows at point t: the row windows sit at block row t, the weight at its
    one block. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Block t of x is rows 1024·t … 1024·t + 1023 of x. -/
theorem xBlock0_apply (c : Dev nD) (t : Fin cfg0.N) (z : S1024x128.Idx) (k : S8192x128.Idx)
    (hk0 : (k 0).val = 1024 * t.val + (z 0).val) (hk1 : (k 1).val = (z 1).val) :
    (iblk0 V c 0 t : Vec Ideal S1024x128 .f32) z = (V c main_arg0 : S8192x128.Idx → EReal) k := by
  obtain ⟨i00, i01, -⟩ := blockIndex0 t
  unfold iblk0
  rw [View.read_apply]
  show (V c main_arg0 : S8192x128.Idx → EReal) _ = (V c main_arg0 : S8192x128.Idx → EReal) k
  refine congrArg _ (funext fun a => Fin.ext ?_)
  match a with
  | ⟨0, _⟩ => show win0_0.index t (0 : Fin 2) * 1024 + 1 * (z 0).val = (k 0).val; rw [i00, hk0]; omega
  | ⟨1, _⟩ => show win0_0.index t (1 : Fin 2) * 128 + 1 * (z 1).val = (k 1).val; rw [i01, hk1]; omega

/-- The weight's one block is the weight. -/
theorem weightBlock0_apply (c : Dev nD) (t : Fin cfg0.N) (z : S128x128.Idx) :
    (iblk0 V c 1 t : Vec Ideal S128x128 .f32) z = (V c main_arg1 : S128x128.Idx → EReal) z := by
  obtain ⟨-, -, i10, i11, -⟩ := blockIndex0 t
  unfold iblk0
  rw [View.read_apply]
  show (V c main_arg1 : S128x128.Idx → EReal) _ = (V c main_arg1 : S128x128.Idx → EReal) z
  refine congrArg _ (funext fun a => Fin.ext ?_)
  match a with
  | ⟨0, _⟩ => show win0_1.index t (0 : Fin 2) * 128 + 1 * (z 0).val = (z 0).val; rw [i10]; omega
  | ⟨1, _⟩ => show win0_1.index t (1 : Fin 2) * 128 + 1 * (z 1).val = (z 1).val; rw [i11]; omega

/-- Block t of the scaling column is its entries 1024·t … 1024·t + 1023. -/
theorem columnBlock0_apply (c : Dev nD) (t : Fin cfg0.N) (z : S1024x1.Idx) (k : S8192x1.Idx)
    (hk0 : (k 0).val = 1024 * t.val + (z 0).val) (hk1 : (k 1).val = (z 1).val) :
    (iblk0 V c 2 t : Vec Ideal S1024x1 .f32) z = (V c main_v44 : S8192x1.Idx → EReal) k := by
  obtain ⟨-, -, -, -, i20, i21, -⟩ := blockIndex0 t
  unfold iblk0
  rw [View.read_apply]
  show (V c main_v44 : S8192x1.Idx → EReal) _ = (V c main_v44 : S8192x1.Idx → EReal) k
  refine congrArg _ (funext fun a => Fin.ext ?_)
  match a with
  | ⟨0, _⟩ => show win0_2.index t (0 : Fin 2) * 1024 + 1 * (z 0).val = (k 0).val; rw [i20, hk0]; omega
  | ⟨1, _⟩ => show win0_2.index t (1 : Fin 2) * 1 + 1 * (z 1).val = (k 1).val; rw [i21, hk1]; omega

/-- The payload of blocks that are rows 1024·t … of x, the whole weight and entries 1024·t … of the column is rows
    1024·t … of the scaled product. -/
theorem supportPayload_rows (x : Vec Ideal S1024x128 .f32) (w : Vec Ideal S128x128 .f32) (d : Vec Ideal S1024x1 .f32)
    (X : SX.Idx → EReal) (W : SW.Idx → EReal) (D : SD1.Idx → EReal) (t : ℕ) (ht : t < 8)
    (hx : ∀ (p : Fin 1024) (k : Fin 128), x (ix2 p k) = X (ix2 (⟨1024 * t + p.val, by omega⟩ : Fin 8192) k))
    (hw : ∀ (k j : Fin 128), w (ix2 k j) = W (ix2 k j))
    (hd : ∀ p : Fin 1024, d (ix2 p (0 : Fin 1)) = D (ix2 (⟨1024 * t + p.val, by omega⟩ : Fin 8192) (0 : Fin 1)))
    (p : Fin 1024) (j : Fin 128) :
    (k0_pay1 (F := Ideal) x w d : S1024x128.Idx → EReal) (ix2 p j) = supForm X W D ⟨1024 * t + p.val, by omega⟩ j := by
  rw [supportPayload_apply, hd]
  unfold supForm
  refine congrArg _ (Finset.sum_congr rfl fun k _ => ?_)
  rw [hx, hw]

/-- What region 0 leaves in its output array, as one function of the arrays it is entered with. -/
abbrev scaledRows (c : Dev nD) : S8192x128.Idx → EReal :=
  fun i => supForm (V c main_arg0) (V c main_arg1) (V c main_v44) (i 0) (i 1)

/-- What point t writes back is block t of that function. -/
theorem flushed0_eq (c : Dev nD) (t : Fin cfg0.N) :
    (dat0 V c).flushed 3 t = ((cfg0.win 3).blk t).view.read (Elt Ideal) (scaledRows V c) := by
  show (cfg0.win 3).cut (grid0.coords t) ((dat0 V c).after 3 t) = _
  rw [after0_3_eq]
  have ht : t.val < 8 := lt_of_lt_of_eq t.isLt N_0
  obtain ⟨-, -, -, -, -, -, i30, i31⟩ := blockIndex0 t
  funext y
  have hy0 : (y 0).val < 1024 := (y 0).isLt
  have hy1 : (y 1).val < 128 := (y 1).isLt
  show (k0_pay1 (F := Ideal) (iblk0 V c 0 t) (iblk0 V c 1 t) (iblk0 V c 2 t) : S1024x128.Idx → EReal) ((cfg0.win 3).xinj (grid0.coords t) y)
    = scaledRows V c (((cfg0.win 3).blk t).view.emb y)
  have ey : ((cfg0.win 3).xinj (grid0.coords t) y : S1024x128.Idx) = ix2 (⟨(y 0).val, hy0⟩ : Fin 1024) (⟨(y 1).val, hy1⟩ : Fin 128) :=
    funext fun a => by match a with | ⟨0, _⟩ => rfl | ⟨1, _⟩ => rfl
  refine (congrArg _ ey).trans ?_
  refine (supportPayload_rows (iblk0 V c 0 t) (iblk0 V c 1 t) (iblk0 V c 2 t) (V c main_arg0) (V c main_arg1) (V c main_v44) t.val ht
    (fun p k => xBlock0_apply V c t (ix2 p k) (ix2 (⟨1024 * t.val + p.val, by omega⟩ : Fin 8192) k) rfl rfl)
    (fun k j => weightBlock0_apply V c t (ix2 k j))
    (fun p => columnBlock0_apply V c t (ix2 p (0 : Fin 1)) (ix2 (⟨1024 * t.val + p.val, by omega⟩ : Fin 8192) (0 : Fin 1)) rfl rfl)
    ⟨(y 0).val, hy0⟩ ⟨(y 1).val, hy1⟩).trans ?_
  show supForm _ _ _ _ _ = supForm _ _ _ _ _
  have e0 : (⟨1024 * t.val + (y 0).val, by omega⟩ : Fin 8192) = ((cfg0.win 3).blk t).view.emb y 0 := Fin.ext (by
    show 1024 * t.val + (y 0).val = win0_3.index t (0 : Fin 2) * 1024 + 1 * (y 0).val
    rw [i30]; omega)
  have e1 : (⟨(y 1).val, hy1⟩ : Fin 128) = ((cfg0.win 3).blk t).view.emb y 1 := Fin.ext (by
    show (y 1).val = win0_3.index t (1 : Fin 2) * 128 + 1 * (y 1).val
    rw [i31]; omega)
  rw [e0, e1]

/-- An index of the output array lies in point t's block iff each coordinate lies in the block's range. -/
theorem mem_blk0 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v45).slice (win0_3.rect t)).set ↔ _
  rw [View.set_slice_whole, Rect.mem_set_unit]
  exact Iff.rfl

/-- Row r of the output lies in the block of point r / 1024, and every point writes its block back. -/
theorem cover0 (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 8 := N_0
  let t : Fin cfg0.N := ⟨(i 0).val / 1024, by rw [hN]; omega⟩
  obtain ⟨-, -, -, -, -, -, i30, i31⟩ := blockIndex0 t
  have ht : t.val = (i 0).val / 1024 := rfl
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; rw [i30, ht]; omega
  | ⟨1, _⟩ => show win0_3.index t (1 : Fin 2) * 128 ≤ (i 1).val ∧ (i 1).val < win0_3.index t (1 : Fin 2) * 128 + 128; rw [i31]; omega

/-- Region 0's output array after the region: row r, column j holds the column's entry r times row r of x against
    column j of the weight. -/
theorem region0_out (c : Dev nD) (r : Fin 8192) (j : Fin 128) :
    ((dat0 (F := Ideal) V c).arrAt 3 cfg0.N : S8192x128.Idx → EReal) (ix2 r j)
      = supForm (V c main_arg0) (V c main_arg1) (V c main_v44) r j :=
  congrFun ((dat0 V c).arrAt_eq_of_cover 3 (scaledRows V c) (fun t _ => flushed0_eq V c t) cover0) (ix2 r j)

end Region0

/-! ## Region 1: from the blocks to the array -/

section Region1

variable (V : (c : Dev nD) → (b : Ref sig .tc) → Buf (Elt Ideal) ((c : Thread nD τ).loc b))

/-- The block indices of region 1's five windows at point t = 2·i + k: the adjacency block at (i, k), the scaled rows
    at block row k, the column and the output at block row i, the bias row at its one block. -/
theorem blockIndex1 : ∀ t : Fin cfg1.N,
    win1_0.index t (0 : Fin 2) = t.val / 2 ∧ win1_0.index t (1 : Fin 2) = t.val % 2
    ∧ win1_1.index t (0 : Fin 2) = t.val % 2 ∧ win1_1.index t (1 : Fin 2) = 0
    ∧ win1_2.index t (0 : Fin 2) = t.val / 2 ∧ win1_2.index t (1 : Fin 2) = 0
    ∧ win1_3.index t (0 : Fin 2) = 0 ∧ win1_3.index t (1 : Fin 2) = 0
    ∧ win1_4.index t (0 : Fin 2) = t.val / 2 ∧ win1_4.index t (1 : Fin 2) = 0 :=
  (by decide +kernel : ∀ t : Fin grid1.N, _)

/-- The adjacency block at point t is rows 1024·(t/2) …, columns 4096·(t%2) … of the matrix. -/
theorem adjBlock1_apply (c : Dev nD) (t : Fin cfg1.N) (z : S1024x4096.Idx) (k : S8192x8192.Idx)
    (hk0 : (k 0).val = 1024 * (t.val / 2) + (z 0).val) (hk1 : (k 1).val = 4096 * (t.val % 2) + (z 1).val) :
    (iblk1 V c 0 t : Vec Ideal S1024x4096 .bf16) z = (V c main_v22 : S8192x8192.Idx → EReal) k := by
  obtain ⟨i00, i01, -⟩ := blockIndex1 t
  unfold iblk1
  rw [View.read_apply]
  show (V c main_v22 : S8192x8192.Idx → EReal) _ = (V c main_v22 : S8192x8192.Idx → EReal) k
  refine congrArg _ (funext fun a => Fin.ext ?_)
  match a with
  | ⟨0, _⟩ => show win1_0.index t (0 : Fin 2) * 1024 + 1 * (z 0).val = (k 0).val; rw [i00, hk0]; omega
  | ⟨1, _⟩ => show win1_0.index t (1 : Fin 2) * 4096 + 1 * (z 1).val = (k 1).val; rw [i01, hk1]; omega

/-- The scaled-rows block at point t is rows 4096·(t%2) … of the scaled rows. -/
theorem rowsBlock1_apply (c : Dev nD) (t : Fin cfg1.N) (z : S4096x128.Idx) (k : S8192x128.Idx)
    (hk0 : (k 0).val = 4096 * (t.val % 2) + (z 0).val) (hk1 : (k 1).val = (z 1).val) :
    (iblk1 V c 1 t : Vec Ideal S4096x128 .bf16) z = (V c main_v45 : S8192x128.Idx → EReal) k := by
  obtain ⟨-, -, i10, i11, -⟩ := blockIndex1 t
  unfold iblk1
  rw [View.read_apply]
  show (V c main_v45 : S8192x128.Idx → EReal) _ = (V c main_v45 : S8192x128.Idx → EReal) k
  refine congrArg _ (funext fun a => Fin.ext ?_)
  match a with
  | ⟨0, _⟩ => show win1_1.index t (0 : Fin 2) * 4096 + 1 * (z 0).val = (k 0).val; rw [i10, hk0]; omega
  | ⟨1, _⟩ => show win1_1.index t (1 : Fin 2) * 128 + 1 * (z 1).val = (k 1).val; rw [i11, hk1]; omega

/-- The column block at point t is entries 1024·(t/2) … of the scaling column. -/
theorem columnBlock1_apply (c : Dev nD) (t : Fin cfg1.N) (z : S1024x1.Idx) (k : S8192x1.Idx)
    (hk0 : (k 0).val = 1024 * (t.val / 2) + (z 0).val) (hk1 : (k 1).val = (z 1).val) :
    (iblk1 V c 2 t : Vec Ideal S1024x1 .f32) z = (V c main_v44 : S8192x1.Idx → EReal) k := by
  obtain ⟨-, -, -, -, i20, i21, -⟩ := blockIndex1 t
  unfold iblk1
  rw [View.read_apply]
  show (V c main_v44 : S8192x1.Idx → EReal) _ = (V c main_v44 : S8192x1.Idx → EReal) k
  refine congrArg _ (funext fun a => Fin.ext ?_)
  match a with
  | ⟨0, _⟩ => show win1_2.index t (0 : Fin 2) * 1024 + 1 * (z 0).val = (k 0).val; rw [i20, hk0]; omega
  | ⟨1, _⟩ => show win1_2.index t (1 : Fin 2) * 1 + 1 * (z 1).val = (k 1).val; rw [i21, hk1]; omega

/-- The bias row's one block is the bias row. -/
theorem biasBlock1_apply (c : Dev nD) (t : Fin cfg1.N) (z : S1x128.Idx) :
    (iblk1 V c 3 t : Vec Ideal S1x128 .f32) z = (V c main_v46 : S1x128.Idx → EReal) z := by
  obtain ⟨-, -, -, -, -, -, i30, i31, -⟩ := blockIndex1 t
  unfold iblk1
  rw [View.read_apply]
  show (V c main_v46 : S1x128.Idx → EReal) _ = (V c main_v46 : S1x128.Idx → EReal) z
  refine congrArg _ (funext fun a => Fin.ext ?_)
  match a with
  | ⟨0, _⟩ => show win1_3.index t (0 : Fin 2) * 1 + 1 * (z 0).val = (z 0).val; rw [i30]; omega
  | ⟨1, _⟩ => show win1_3.index t (1 : Fin 2) * 128 + 1 * (z 1).val = (z 1).val; rw [i31]; omega

/-- The closing payload over the two accumulation steps from zero, fed blocks that are rows 1024·i … of the matrix
    against the lower and the upper half of the scaled rows: rows 1024·i … of the two-half contraction, scaled and
    shifted. -/
theorem closingPayload_two_halves (ae : Vec Ideal S1024x4096 .bf16) (se : Vec Ideal S4096x128 .bf16)
    (ao : Vec Ideal S1024x4096 .bf16) (so : Vec Ideal S4096x128 .bf16) (d : Vec Ideal S1024x1 .f32) (b : Vec Ideal S1x128 .f32)
    (A : SA.Idx → EReal) (S : SX.Idx → EReal) (D : SD1.Idx → EReal) (B : SB2.Idx → EReal) (i : ℕ) (hi8 : i < 8)
    (hae : ∀ (p : Fin 1024) (k : Fin 4096), ae (ix2 p k) = A (ix2 (⟨1024 * i + p.val, by omega⟩ : Fin 8192) (lo k)))
    (hse : ∀ (k : Fin 4096) (j : Fin 128), se (ix2 k j) = S (ix2 (lo k) j))
    (hao : ∀ (p : Fin 1024) (k : Fin 4096), ao (ix2 p k) = A (ix2 (⟨1024 * i + p.val, by omega⟩ : Fin 8192) (hi k)))
    (hso : ∀ (k : Fin 4096) (j : Fin 128), so (ix2 k j) = S (ix2 (hi k) j))
    (hd : ∀ p : Fin 1024, d (ix2 p (0 : Fin 1)) = D (ix2 (⟨1024 * i + p.val, by omega⟩ : Fin 8192) (0 : Fin 1)))
    (hb : ∀ j : Fin 128, b (ix2 (0 : Fin 1) j) = B (ix2 (0 : Fin 1) j))
    (p : Fin 1024) (j : Fin 128) :
    (k1_pay3 (F := Ideal) (k1_pay2 (k1_pay2 (k1_pay1 (F := Ideal)) ae se) ao so) d b : S1024x128.Idx → EReal) (ix2 p j)
      = kerForm A S D B ⟨1024 * i + p.val, by omega⟩ j := by
  rw [closingStep_apply, accumulateStep_apply, accumulateStep_apply, accumulatorStart_apply, zero_add, hd, hb]
  unfold kerForm
  refine congrArg (· + B (ix2 (0 : Fin 1) j)) (congrArg (· * D (ix2 (⟨1024 * i + p.val, by omega⟩ : Fin 8192) (0 : Fin 1))) ?_)
  refine congrArg₂ (· + ·) (Finset.sum_congr rfl fun k _ => ?_) (Finset.sum_congr rfl fun k _ => ?_)
  · rw [hae, hse]
  · rw [hao, hso]

/-- What region 1 leaves in its output array, as one function of the arrays it is entered with. -/
abbrev propagated (c : Dev nD) : S8192x128.Idx → EReal :=
  fun i => kerForm (V c main_v22) (V c main_v45) (V c main_v44) (V c main_v46) (i 0) (i 1)

/-- What an odd point t = 2·i + 1 writes back is block i of that function. -/
theorem flushed1_eq (c : Dev nD) (t : Fin cfg1.N) (hf : (cfg1.win 4).flush t = true) :
    (dat1 V c).flushed 4 t = ((cfg1.win 4).blk t).view.read (Elt Ideal) (propagated V c) := by
  have hodd : t.val % 2 = 1 := (flush1_4 t).mp hf
  show (cfg1.win 4).cut (grid1.coords t) ((dat1 V c).after 4 t) = _
  rw [after1_4_odd V c t hodd]
  have ht : t.val < 16 := lt_of_lt_of_eq t.isLt N_1
  have hi8 : t.val / 2 < 8 := by omega
  obtain ⟨-, -, -, -, -, -, -, -, i40, i41⟩ := blockIndex1 t
  funext y
  have hy0 : (y 0).val < 1024 := (y 0).isLt
  have hy1 : (y 1).val < 128 := (y 1).isLt
  show (k1_pay3 (F := Ideal) (k1_pay2 (k1_pay2 (k1_pay1 (F := Ideal)) (iblk1 V c 0 ⟨t.val - 1, by omega⟩) (iblk1 V c 1 ⟨t.val - 1, by omega⟩)) (iblk1 V c 0 t) (iblk1 V c 1 t)) (iblk1 V c 2 t) (iblk1 V c 3 t) : S1024x128.Idx → EReal) ((cfg1.win 4).xinj (grid1.coords t) y)
    = propagated V c (((cfg1.win 4).blk t).view.emb y)
  have ey : ((cfg1.win 4).xinj (grid1.coords t) y : S1024x128.Idx) = ix2 (⟨(y 0).val, hy0⟩ : Fin 1024) (⟨(y 1).val, hy1⟩ : Fin 128) :=
    funext fun a => by match a with | ⟨0, _⟩ => rfl | ⟨1, _⟩ => rfl
  refine (congrArg _ ey).trans ?_
  refine (closingPayload_two_halves (iblk1 V c 0 ⟨t.val - 1, by omega⟩) (iblk1 V c 1 ⟨t.val - 1, by omega⟩) (iblk1 V c 0 t) (iblk1 V c 1 t) (iblk1 V c 2 t) (iblk1 V c 3 t)
    (V c main_v22) (V c main_v45) (V c main_v44) (V c main_v46) (t.val / 2) hi8
    (fun p k => adjBlock1_apply V c ⟨t.val - 1, by omega⟩ (ix2 p k) (ix2 (⟨1024 * (t.val / 2) + p.val, by omega⟩ : Fin 8192) (lo k))
      (by show 1024 * (t.val / 2) + p.val = 1024 * ((t.val - 1) / 2) + p.val; omega) (by show k.val = 4096 * ((t.val - 1) % 2) + k.val; omega))
    (fun k j => rowsBlock1_apply V c ⟨t.val - 1, by omega⟩ (ix2 k j) (ix2 (lo k) j)
      (by show k.val = 4096 * ((t.val - 1) % 2) + k.val; omega) rfl)
    (fun p k => adjBlock1_apply V c t (ix2 p k) (ix2 (⟨1024 * (t.val / 2) + p.val, by omega⟩ : Fin 8192) (hi k))
      rfl (by show 4096 + k.val = 4096 * (t.val % 2) + k.val; omega))
    (fun k j => rowsBlock1_apply V c t (ix2 k j) (ix2 (hi k) j)
      (by show 4096 + k.val = 4096 * (t.val % 2) + k.val; omega) rfl)
    (fun p => columnBlock1_apply V c t (ix2 p (0 : Fin 1)) (ix2 (⟨1024 * (t.val / 2) + p.val, by omega⟩ : Fin 8192) (0 : Fin 1)) rfl rfl)
    (fun j => biasBlock1_apply V c t (ix2 (0 : Fin 1) j))
    ⟨(y 0).val, hy0⟩ ⟨(y 1).val, hy1⟩).trans ?_
  show kerForm _ _ _ _ _ _ = kerForm _ _ _ _ _ _
  have e0 : (⟨1024 * (t.val / 2) + (y 0).val, by omega⟩ : Fin 8192) = ((cfg1.win 4).blk t).view.emb y 0 := Fin.ext (by
    show 1024 * (t.val / 2) + (y 0).val = win1_4.index t (0 : Fin 2) * 1024 + 1 * (y 0).val
    rw [i40]; omega)
  have e1 : (⟨(y 1).val, hy1⟩ : Fin 128) = ((cfg1.win 4).blk t).view.emb y 1 := Fin.ext (by
    show (y 1).val = win1_4.index t (1 : Fin 2) * 128 + 1 * (y 1).val
    rw [i41]; omega)
  rw [e0, e1]

/-- An index of the output array lies in point t's block iff each coordinate lies in the block's range. -/
theorem mem_blk1 (t : Fin cfg1.N) (i : S8192x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v47).slice (win1_4.rect t)).set ↔ _
  rw [View.set_slice_whole, Rect.mem_set_unit]
  exact Iff.rfl

/-- Row r of the output lies in the block of the odd point 2·(r / 1024) + 1, which writes its block back. -/
theorem cover1 (i : S8192x128.Idx) : ∃ t : Fin cfg1.N, (cfg1.win 4).flush t = true ∧ i ∈ ((cfg1.win 4).blk t).view.set := by
  have hi0 : (i 0).val < 8192 := (i 0).isLt
  have hi1 : (i 1).val < 128 := (i 1).isLt
  have hN : cfg1.N = 16 := N_1
  let t : Fin cfg1.N := ⟨2 * ((i 0).val / 1024) + 1, by rw [hN]; omega⟩
  obtain ⟨-, -, -, -, -, -, -, -, i40, i41⟩ := blockIndex1 t
  have ht : t.val = 2 * ((i 0).val / 1024) + 1 := rfl
  refine ⟨t, (flush1_4 t).mpr (by rw [ht]; omega), ?_⟩
  rw [mem_blk1]
  intro a
  match a with
  | ⟨0, _⟩ => show win1_4.index t (0 : Fin 2) * 1024 ≤ (i 0).val ∧ (i 0).val < win1_4.index t (0 : Fin 2) * 1024 + 1024; rw [i40, ht]; omega
  | ⟨1, _⟩ => show win1_4.index t (1 : Fin 2) * 128 ≤ (i 1).val ∧ (i 1).val < win1_4.index t (1 : Fin 2) * 128 + 128; rw [i41]; omega

/-- Region 1's output array after the region: row r, column j holds the matrix's row r against column j of the scaled
    rows, the lower half of the nodes then the upper, times the column's entry r, plus the bias row's entry j. -/
theorem region1_out (c : Dev nD) (r : Fin 8192) (j : Fin 128) :
    ((dat1 (F := Ideal) V c).arrAt 4 cfg1.N : S8192x128.Idx → EReal) (ix2 r j)
      = kerForm (V c main_v22) (V c main_v45) (V c main_v44) (V c main_v46) r j :=
  congrFun ((dat1 V c).arrAt_eq_of_cover 4 (propagated V c) (fun t hf => flushed1_eq V c t hf) cover1) (ix2 r j)

end Region1

end Cert.KernelIdeal.KVal

end
-- ==== Proof.KernelIdeal.HostAdj.lean ====
/-
  The adjacency matrix the host code builds, read at one element, and the arrays the later items read unchanged.

  The host code takes the two rows of the edge array, appends the node numbers 0 … 8191 to each (the diagonal),
  adds 8192 to every negative word, joins the two vectors into 270336 pairs and assigns the constant one, in a
  single scatter, to every listed pair of an array of zeros.  Under the range condition no word is negative, so
  the wrap changes nothing; the word at position p of the first vector reads as the source of pair p of the
  extended list and the word of the second as its target, and an element (r, k) of the result is one exactly
  when some pair of the extended list is (r, k): when r = k, or some listed edge goes from r to k.  That is the
  0/1 adjacency matrix with the diagonal set.

  The bias row the second kernel reads is the bias vector with a unit axis in front, and no host operation
  writes an argument array.
-/
import proofs.«409937_j69372311765406_2_alg».proof.Proof.Gen.KernelIdeal.Regions
import proofs.«409937_j69372311765406_2_alg».proof.Proof.Spec
import proofs.«409937_j69372311765406_2_alg».proof.Proof.LibScatterSet
import Idealize.ShloMosaic.Lib.StableHlo.Run
import Idealize.ShloMosaic.Lib.Pipeline.Value
import Idealize.ShloMosaic.Lib.IdealHost
import Idealize.ShloMosaic.Lib.ValueLayout

noncomputable section

namespace Cert.KernelIdeal.HostAdj

open Idealize.ShloMosaic Idealize.ShloMosaic.ValueIdx Idealize.ShloMosaic.TcCoe Idealize.SL.Sem
open Cert.KernelIdeal Cert.KernelIdeal.Gen Cert.DenseGcn

/-! ## Words -/

/-- A word whose natural value is below 2³¹ reads the same signed. -/
theorem toInt_of_small (x : BitVec 32) (hx : x.toNat < 2 ^ 31) : x.toInt = (x.toNat : ℤ) := by
  have e := BitVec.toInt_eq_toNat_cond x
  split at e <;> omega

/-- A word whose natural value is below 2³¹ is not negative, so adding 8192 to the negative words leaves it. -/
theorem wrap_of_small (x : BitVec 32) (hx : x.toNat < 2 ^ 31) :
    Scalar.select (IntOp.cmpi .slt x 0#32) (IntOp.addi x 8192#32) x = x := by
  have h0 : (0#32 : BitVec 32).toInt = 0 := by decide
  have hs : x.slt 0#32 = false := by
    rw [Bool.eq_false_iff]
    intro h
    rw [BitVec.slt_iff_toInt_lt, h0, toInt_of_small x hx] at h
    omega
  have hc : IntOp.cmpi .slt x 0#32 = 0#1 := by
    show BitVec.ofBool (x.slt 0#32) = 0#1
    rw [hs]; rfl
  rw [hc]
  show (if (0#1 : BitVec 1) = 1 then IntOp.addi x 8192#32 else x) = x
  rw [if_neg (by decide)]

/-! ## The extended edge list -/

/-- Word p of row a of the edge array followed by the node numbers. -/
def extWord (e : SE.Idx → BitVec 32) (a : Fin 2) (p : Fin 270336) : BitVec 32 :=
  if h : p.val < 262144 then e (ix2 a ⟨p.val, h⟩) else BitVec.ofNat 32 (p.val - 262144)

/-- The first row's word p is the source of pair p of the extended list. -/
theorem extWord_zero_toNat (e : SE.Idx → BitVec 32) (p : Fin 270336) : (extWord e 0 p).toNat = rowN e p := by
  unfold extWord rowN
  by_cases h : p.val < 262144
  · rw [dif_pos h, dif_pos h]
  · rw [dif_neg h, dif_neg h, BitVec.toNat_ofNat]
    have := p.isLt
    omega

/-- The second row's word p is the target of pair p of the extended list. -/
theorem extWord_one_toNat (e : SE.Idx → BitVec 32) (p : Fin 270336) : (extWord e 1 p).toNat = colN e p := by
  unfold extWord colN
  by_cases h : p.val < 262144
  · rw [dif_pos h, dif_pos h]
  · rw [dif_neg h, dif_neg h, BitVec.toNat_ofNat]
    have := p.isLt
    omega

/-- Under the range condition every word of the extended vectors is a node number. -/
theorem extWord_lt (e : SE.Idx → BitVec 32) (hr : EdgeRange e) (a : Fin 2) (p : Fin 270336) :
    (extWord e a p).toNat < 8192 := by
  unfold extWord
  by_cases h : p.val < 262144
  · rw [dif_pos h]; exact hr a ⟨p.val, h⟩
  · rw [dif_neg h, BitVec.toNat_ofNat]
    have := p.isLt
    omega

/-- Some pair of the extended list is (r, k) exactly when k is a neighbour of r. -/
theorem exists_pair_iff_edge (e : SE.Idx → BitVec 32) (r k : Fin 8192) :
    (∃ p : Fin 270336, rowN e p = r.val ∧ colN e p = k.val) ↔ Edge e r k := by
  constructor
  · rintro ⟨p, h1, h2⟩
    unfold rowN at h1
    unfold colN at h2
    by_cases h : p.val < 262144
    · rw [dif_pos h] at h1 h2
      exact Or.inr ⟨⟨p.val, h⟩, h1, h2⟩
    · rw [dif_neg h] at h1 h2
      exact Or.inl (Fin.ext (by omega))
  · rintro (h | ⟨q, h1, h2⟩)
    · subst h
      have hlt := r.isLt
      refine ⟨⟨262144 + r.val, by omega⟩, ?_, ?_⟩
      · unfold rowN
        rw [dif_neg (by show ¬ 262144 + r.val < 262144; omega)]
        show 262144 + r.val - 262144 = r.val
        omega
      · unfold colN
        rw [dif_neg (by show ¬ 262144 + r.val < 262144; omega)]
        show 262144 + r.val - 262144 = r.val
        omega
    · have hq := q.isLt
      refine ⟨⟨q.val, by omega⟩, ?_, ?_⟩
      · unfold rowN
        rw [dif_pos (by show q.val < 262144; exact hq)]
        exact h1
      · unfold colN
        rw [dif_pos (by show q.val < 262144; exact hq)]
        exact h2

/-! ## The host operations, read at an index -/

/-- Row a of the edge array cut out and laid flat, read at position p. -/
theorem edgeRow_apply (o : ℕ) (a : Fin 2) (ho : a.val = o) (e : S2x262144.Idx → BitVec 32)
    (hs : S2x262144.Slices ![o, 0] S1x262144) (hc : S1x262144.ShapeCasts S262144) (p : Fin 262144) :
    shapeCast S262144 (extractStridedSlice S1x262144 ![o, 0] e hs) hc (ix1 p) = e (ix2 a p) :=
  (shapeCast_1a_a_apply _ hc p).trans
    (slice2_axis0_apply o e hs (0 : Fin 1) p a (by rw [ho]; rfl))

/-- A row laid flat followed by the node numbers, read at position p. -/
theorem concat_iota_apply (x : S262144.Idx → BitVec 32) (hc : Shape.Concatenates [S262144, S8192] S270336 0)
    (p : Fin 270336) :
    concatenate S270336 0 [⟨S262144, x⟩, ⟨S8192, iotaInDim S8192 32 0⟩] hc (ix1 p)
      = if h : p.val < 262144 then x (ix1 ⟨p.val, h⟩) else BitVec.ofNat 32 (p.val - 262144) := by
  by_cases h : p.val < 262144
  · rw [dif_pos h]
    refine concatenate_pair_apply_left (t := S270336) (s₁ := S262144) (s₂ := S8192) 0 x _ hc (ix1 p) rfl
      (ix1 ⟨p.val, h⟩) (fun b => ?_)
    obtain rfl : b = 0 := Subsingleton.elim _ _
    rfl
  · rw [dif_neg h]
    have hp := p.isLt
    have hq : p.val - 262144 < 8192 := by omega
    refine (concatenate_pair_apply_right (t := S270336) (s₁ := S262144) (s₂ := S8192) 0 x _ hc (ix1 p) rfl rfl
      (ix1 ⟨p.val - 262144, hq⟩) (fun b hb => ?_) ?_).trans ?_
    · exact absurd (Subsingleton.elim _ _) hb
    · show p.val - 262144 + 262144 = p.val
      omega
    · rfl

/-- The wrap of the negative words, read at an index where the word is small. -/
theorem wrap_apply (v : S270336.Idx → BitVec 32) (hb : S_.BroadcastsInDim S270336 (![] : Fin 0 → Fin S270336.rank))
    (j : S270336.Idx) (hv : (v j).toNat < 2 ^ 31) :
    select (cmpi .slt v (broadcastInDim S270336 ![] hb (constantI S_ 32 0#32)))
        (addi v (broadcastInDim S270336 ![] hb (constantI S_ 32 8192#32))) v j = v j := by
  show Scalar.select (IntOp.cmpi .slt (v j) (broadcastInDim S270336 ![] hb (constantI S_ 32 0#32) j))
      (IntOp.addi (v j) (broadcastInDim S270336 ![] hb (constantI S_ 32 8192#32) j)) (v j) = v j
  rw [broadcastInDim_scalar_apply, broadcastInDim_scalar_apply, constantI_apply, constantI_apply]
  exact wrap_of_small (v j) hv

/-- Two vectors stood up as columns and joined side by side, read at (p, 0): the first vector at p. -/
theorem columns_apply_zero (a b : S270336.Idx → BitVec 32)
    (hb : S270336.BroadcastsInDim S270336x1 (![0] : Fin 1 → Fin S270336x1.rank))
    (hc : Shape.Concatenates [S270336x1, S270336x1] S270336x2 1) (p : Fin 270336) :
    concatenate S270336x2 1 [⟨S270336x1, broadcastInDim S270336x1 ![0] hb a⟩,
        ⟨S270336x1, broadcastInDim S270336x1 ![0] hb b⟩] hc (ix2 p (0 : Fin 2)) = a (ix1 p) := by
  refine (concatenate_pair_apply_left (t := S270336x2) (s₁ := S270336x1) (s₂ := S270336x1) 1 _ _ hc
    (ix2 p (0 : Fin 2)) rfl (ix2 p (0 : Fin 1)) (fun c => ?_)).trans ?_
  · rcases Cert.Gcn.IndexMaps.fin2_cases c with rfl | rfl <;> rfl
  · refine broadcastInDim_apply (s := S270336) (t := S270336x1) ![0] hb a (ix2 p (0 : Fin 1)) (ix1 p) (fun c => ?_)
    obtain rfl : c = 0 := Subsingleton.elim _ _
    rfl

/-- Two vectors stood up as columns and joined side by side, read at (p, 1): the second vector at p. -/
theorem columns_apply_one (a b : S270336.Idx → BitVec 32)
    (hb : S270336.BroadcastsInDim S270336x1 (![0] : Fin 1 → Fin S270336x1.rank))
    (hc : Shape.Concatenates [S270336x1, S270336x1] S270336x2 1) (p : Fin 270336) :
    concatenate S270336x2 1 [⟨S270336x1, broadcastInDim S270336x1 ![0] hb a⟩,
        ⟨S270336x1, broadcastInDim S270336x1 ![0] hb b⟩] hc (ix2 p (1 : Fin 2)) = b (ix1 p) := by
  refine (concatenate_pair_apply_right (t := S270336x2) (s₁ := S270336x1) (s₂ := S270336x1) 1 _ _ hc
    (ix2 p (1 : Fin 2)) rfl rfl (ix2 p (0 : Fin 1)) (fun c hc' => ?_) ?_).trans ?_
  · rcases Cert.Gcn.IndexMaps.fin2_cases c with rfl | rfl
    · rfl
    · exact absurd rfl hc'
  · rfl
  · refine broadcastInDim_apply (s := S270336) (t := S270336x1) ![0] hb b (ix2 p (0 : Fin 1)) (ix1 p) (fun c => ?_)
    obtain rfl : c = 0 := Subsingleton.elim _ _
    rfl

/-- The assigning scatter of the constant one into an array of zeros by an array of index pairs, read at
    (r, k): one if some pair reads (r, k), else zero. -/
theorem scatterOnes_apply (d : ScatterDims S8192x8192 S270336x2 S270336)
    (huw : d.updateWindowDims = []) (hiw : d.insertedWindowDims = [0, 1])
    (hsd : d.scatterDimsToOperandDims = [0, 1]) (hivd : d.indexVectorDim = 1)
    (hb0 : S_.BroadcastsInDim S8192x8192 (![] : Fin 0 → Fin S8192x8192.rank))
    (hb1 : S_.BroadcastsInDim S270336 (![] : Fin 0 → Fin S270336.rank))
    (idx : S270336x2.Idx → BitVec 32) (r k : Fin 8192) :
    Host.scatter d (fun _ b => b) (broadcastInDim S8192x8192 ![] hb0 (constant (F := Ideal) S_ .bf16 0x0000#16)) idx
        (broadcastInDim S270336 ![] hb1 (constant (F := Ideal) S_ .bf16 0x3F80#16)) (ix2 r k)
      = (by classical exact if ∃ p : Fin 270336, (idx (ix2 p (0 : Fin 2))).toInt = ((r.val : ℕ) : ℤ)
            ∧ (idx (ix2 p (1 : Fin 2))).toInt = ((k.val : ℕ) : ℤ) then (1 : EReal) else 0) := by
  classical
  have hu : broadcastInDim S270336 ![] hb1 (constant (F := Ideal) S_ .bf16 0x3F80#16) = fun _ => (1 : EReal) :=
    funext fun j => by rw [broadcastInDim_scalar_apply, constant_apply, Ideal.ofBits_one_bf16]
  rw [hu, Cert.LibScatterSet.scatter_const_apply]
  have hex : (∃ j : S270336.Idx, d.resultIdx? j idx = some (ix2 r k)) ↔
      ∃ p : Fin 270336, (idx (ix2 p (0 : Fin 2))).toInt = ((r.val : ℕ) : ℤ)
        ∧ (idx (ix2 p (1 : Fin 2))).toInt = ((k.val : ℕ) : ℤ) := by
    constructor
    · rintro ⟨j, hj⟩
      obtain ⟨p, rfl⟩ : ∃ p : Fin 270336, j = ix1 p := ⟨j 0, eq_ix1 j⟩
      exact ⟨p, (Cert.LibScatterSet.scatterPair_resultIdx_ix_iff d huw hiw hsd hivd idx p r k).mp hj⟩
    · rintro ⟨p, hp⟩
      exact ⟨ix1 p, (Cert.LibScatterSet.scatterPair_resultIdx_ix_iff d huw hiw hsd hivd idx p r k).mpr hp⟩
  by_cases h : ∃ p : Fin 270336, (idx (ix2 p (0 : Fin 2))).toInt = ((r.val : ℕ) : ℤ)
        ∧ (idx (ix2 p (1 : Fin 2))).toInt = ((k.val : ℕ) : ℤ)
  · rw [if_pos h, if_pos (hex.mpr h)]
  · rw [if_neg h, if_neg (fun h' => h (hex.mp h')), broadcastInDim_scalar_apply, constant_apply,
      Ideal.ofBits_zero_bf16]

/-! ## The host code's term for the adjacency array -/

/-- Row o of the edge array laid flat, followed by the node numbers. -/
def extVec (o : ℕ) (hs : S2x262144.Slices ![o, 0] S1x262144) (e : S2x262144.Idx → BitVec 32) :
    S270336.Idx → BitVec 32 :=
  concatenate S270336 0
    [⟨S262144, shapeCast S262144 (extractStridedSlice S1x262144 ![o, 0] e hs) shapeCasts_S1x262144_S262144⟩,
      ⟨S8192, iotaInDim S8192 32 0⟩] concatenates_S262144_S8192_S270336_d0

/-- 8192 added to the negative words of a vector. -/
def wrapVec (v : S270336.Idx → BitVec 32) : S270336.Idx → BitVec 32 :=
  select (cmpi .slt v (broadcastInDim S270336 ![] bcast_S_S270336 (constantI S_ 32 0#32)))
    (addi v (broadcastInDim S270336 ![] bcast_S_S270336 (constantI S_ 32 8192#32))) v

/-- The array of index pairs: the two wrapped vectors as the two columns. -/
def pairVec (e : S2x262144.Idx → BitVec 32) : S270336x2.Idx → BitVec 32 :=
  concatenate S270336x2 1
    [⟨S270336x1, broadcastInDim S270336x1 ![0] bcast_S270336_S270336x1_0
        (wrapVec (extVec 0 slices_S2x262144_S1x262144_0_0 e))⟩,
      ⟨S270336x1, broadcastInDim S270336x1 ![0] bcast_S270336_S270336x1_0
        (wrapVec (extVec 1 slices_S2x262144_S1x262144_1_0 e))⟩]
    concatenates_S270336x1_S270336x1_S270336x2_d1

/-- The adjacency array: the constant one assigned at every index pair of an array of zeros. -/
def adjArray (e : S2x262144.Idx → BitVec 32) : S8192x8192.Idx → EReal :=
  Host.scatter scatter_S8192x8192_S270336x2_S270336_n_01_01_1 (fun _ b => b)
    (broadcastInDim S8192x8192 ![] bcast_S_S8192x8192 (constant (F := Ideal) S_ .bf16 0x0000#16))
    (pairVec e)
    (broadcastInDim S270336 ![] bcast_S_S270336 (constant (F := Ideal) S_ .bf16 0x3F80#16))

/-- The extended vector of row a, read at position p. -/
theorem extVec_apply (o : ℕ) (a : Fin 2) (ho : a.val = o) (hs : S2x262144.Slices ![o, 0] S1x262144)
    (e : S2x262144.Idx → BitVec 32) (p : Fin 270336) : extVec o hs e (ix1 p) = extWord e a p := by
  unfold extVec extWord
  rw [concat_iota_apply]
  by_cases h : p.val < 262144
  · rw [dif_pos h, dif_pos h, edgeRow_apply o a ho]
  · rw [dif_neg h, dif_neg h]

/-- Under the range condition the wrapped extended vector of row a at position p is the extended list's word. -/
theorem wrapVec_extVec_apply (o : ℕ) (a : Fin 2) (ho : a.val = o) (hs : S2x262144.Slices ![o, 0] S1x262144)
    (e : S2x262144.Idx → BitVec 32) (hr : EdgeRange e) (p : Fin 270336) :
    wrapVec (extVec o hs e) (ix1 p) = extWord e a p := by
  have hx := extVec_apply o a ho hs e p
  have hlt := extWord_lt e hr a p
  unfold wrapVec
  rw [wrap_apply _ _ _ (by rw [hx]; omega), hx]

/-- Under the range condition the first component of pair p reads as the source of pair p of the extended list. -/
theorem pairVec_zero_toInt (e : S2x262144.Idx → BitVec 32) (hr : EdgeRange e) (p : Fin 270336) :
    (pairVec e (ix2 p (0 : Fin 2))).toInt = ((rowN e p : ℕ) : ℤ) := by
  have hlt := extWord_lt e hr 0 p
  unfold pairVec
  rw [columns_apply_zero, wrapVec_extVec_apply 0 0 rfl _ e hr p, toInt_of_small _ (by omega), extWord_zero_toNat]

/-- Under the range condition the second component of pair p reads as the target of pair p of the extended list. -/
theorem pairVec_one_toInt (e : S2x262144.Idx → BitVec 32) (hr : EdgeRange e) (p : Fin 270336) :
    (pairVec e (ix2 p (1 : Fin 2))).toInt = ((colN e p : ℕ) : ℤ) := by
  have hlt := extWord_lt e hr 1 p
  unfold pairVec
  rw [columns_apply_one, wrapVec_extVec_apply 1 1 rfl _ e hr p, toInt_of_small _ (by omega), extWord_one_toNat]

/-- Under the range condition the host code's array is the 0/1 adjacency matrix with the diagonal set. -/
theorem adjArray_apply (e : S2x262144.Idx → BitVec 32) (hr : EdgeRange e) (r k : Fin 8192) :
    adjArray e (ix2 r k) = adj e r k := by
  classical
  have hiff : (∃ p : Fin 270336, (pairVec e (ix2 p (0 : Fin 2))).toInt = ((r.val : ℕ) : ℤ)
      ∧ (pairVec e (ix2 p (1 : Fin 2))).toInt = ((k.val : ℕ) : ℤ)) ↔ Edge e r k := by
    rw [← exists_pair_iff_edge]
    refine exists_congr fun p => ?_
    rw [pairVec_zero_toInt e hr p, pairVec_one_toInt e hr p]
    exact and_congr Nat.cast_inj Nat.cast_inj
  unfold adjArray adj
  rw [scatterOnes_apply _ rfl rfl rfl rfl]
  by_cases h : Edge e r k
  · rw [if_pos h, if_pos (hiff.mpr h)]
  · rw [if_neg h, if_neg (fun h' => h (hiff.mp h'))]

/-! ## The buffers between the items -/

section Buffers

variable (m : (ℓ : Loc nD τ sig) → Buf (Elt Ideal) ℓ) (outs : Outs (F := Ideal)) (c : Dev nD)

/-- The first host stretch leaves its term for the adjacency array in the adjacency buffer. -/
theorem v22_eq :
    (V1 m c main_v22 : S8192x8192.Idx → EReal) = adjArray (m ((c : Thread nD τ).loc main_arg3)) := by
  show StableHlo.after hostOps0 (V0 m c) (Proc.devRef .tc main_v22) = _
  after_results
  unfold adjArray pairVec wrapVec extVec
  rfl

/-- No later host stretch writes the adjacency buffer. -/
theorem V9_main_v22 : V9 m c main_v22 = V1 m c main_v22 :=
  (V9_of m c main_v22 (by decide)).trans <|
    (V8_of m c main_v22 (by decide)).trans <|
    (V7_of m c main_v22 (by decide)).trans <|
    (V6_of m c main_v22 (by decide)).trans <|
    (V5_of m c main_v22 (by decide)).trans <|
    (V4_of m c main_v22 (by decide)).trans <|
    (V3_of m c main_v22 (by decide)).trans <|
    (V2_of m c main_v22 (by decide))

/-- Under the range condition the adjacency buffer the second kernel reads holds the 0/1 adjacency matrix with
    the diagonal set. -/
theorem adj_read (hr : EdgeRange (m ((c : Thread nD τ).loc main_arg3) : S2x262144.Idx → BitVec 32))
    (r k : Fin 8192) :
    (V9 m c main_v22 : S8192x8192.Idx → EReal) (ix2 r k)
      = adj (m ((c : Thread nD τ).loc main_arg3) : S2x262144.Idx → BitVec 32) r k := by
  rw [V9_main_v22, v22_eq]
  exact adjArray_apply _ hr r k

/-- No host stretch before the first kernel writes the first argument. -/
theorem arg0_read9 : V9 m c main_arg0 = m ((c : Thread nD τ).loc main_arg0) :=
  (V9_of m c main_arg0 (by decide)).trans <|
    (V8_of m c main_arg0 (by decide)).trans <|
    (V7_of m c main_arg0 (by decide)).trans <|
    (V6_of m c main_arg0 (by decide)).trans <|
    (V5_of m c main_arg0 (by decide)).trans <|
    (V4_of m c main_arg0 (by decide)).trans <|
    (V3_of m c main_arg0 (by decide)).trans <|
    (V2_of m c main_arg0 (by decide)).trans <|
    (V1_of m c main_arg0 (by decide))

/-- No host stretch before the first kernel writes the second argument. -/
theorem arg1_read9 : V9 m c main_arg1 = m ((c : Thread nD τ).loc main_arg1) :=
  (V9_of m c main_arg1 (by decide)).trans <|
    (V8_of m c main_arg1 (by decide)).trans <|
    (V7_of m c main_arg1 (by decide)).trans <|
    (V6_of m c main_arg1 (by decide)).trans <|
    (V5_of m c main_arg1 (by decide)).trans <|
    (V4_of m c main_arg1 (by decide)).trans <|
    (V3_of m c main_arg1 (by decide)).trans <|
    (V2_of m c main_arg1 (by decide)).trans <|
    (V1_of m c main_arg1 (by decide))

/-- The first two arguments reach the first kernel as launched. -/
theorem args_read9 : V9 m c main_arg0 = m ((c : Thread nD τ).loc main_arg0)
    ∧ V9 m c main_arg1 = m ((c : Thread nD τ).loc main_arg1) :=
  ⟨arg0_read9 m c, arg1_read9 m c⟩

/-- The bias vector reaches the last host stretch as launched: no earlier item writes it. -/
theorem arg2_read10 : V10 m outs c main_arg2 = m ((c : Thread nD τ).loc main_arg2) :=
  (V10_of m outs c main_arg2 (by decide)).trans <|
    (V9_of m c main_arg2 (by decide)).trans <|
    (V8_of m c main_arg2 (by decide)).trans <|
    (V7_of m c main_arg2 (by decide)).trans <|
    (V6_of m c main_arg2 (by decide)).trans <|
    (V5_of m c main_arg2 (by decide)).trans <|
    (V4_of m c main_arg2 (by decide)).trans <|
    (V3_of m c main_arg2 (by decide)).trans <|
    (V2_of m c main_arg2 (by decide)).trans <|
    (V1_of m c main_arg2 (by decide))

/-- The bias row the second kernel reads is the bias vector with a unit axis in front. -/
theorem bias_read (j : Fin 128) :
    (V11 m outs c main_v46 : S1x128.Idx → EReal) (ix2 (0 : Fin 1) j)
      = (m ((c : Thread nD τ).loc main_arg2) : S128.Idx → EReal) (ix1 j) := by
  have h46 : (V11 m outs c main_v46 : S1x128.Idx → EReal)
      = shapeCast S1x128 (V10 m outs c main_arg2 : S128.Idx → EReal) shapeCasts_S128_S1x128 := by
    show StableHlo.after hostOps1 (V10 m outs c) (Proc.devRef .tc main_v46) = _
    after_results
    rfl
  rw [h46, shapeCast_a_1a_apply, arg2_read10]

end Buffers

end Cert.KernelIdeal.HostAdj

end
-- ==== Proof.Count.lean ====
/-
  Counting neighbours by sorting.

  The degree of node r is the number of ones in row r of the adjacency matrix: the number of k that are r itself
  or the target of a listed edge out of r.  The same number can be read off the pair numbers
  source · 8192 + target of the extended list (the listed edges followed by the diagonal pairs) once they are
  put in nondecreasing order: a position opens a run when it is the first or its entry differs from the one
  before, the run-openers are in bijection with the distinct values, and a value v with v / 8192 = r is
  r · 8192 + k for exactly one k < 8192, which is a pair number exactly when k is a neighbour of r.

  First the facts about runs of a nondecreasing sequence of any length, then the pair numbers, then the count.
-/
import proofs.«409937_j69372311765406_2_alg».proof.Proof.Spec
import Mathlib.Data.Finset.Card
import Mathlib.Data.Fintype.Basic

namespace Cert.DenseGcn

open Idealize.ShloMosaic Idealize.ShloMosaic.ValueIdx

/-! ## Runs of a nondecreasing sequence of any length -/

/-- Position p of a sequence of any length opens a run: it is the first position, or its entry differs from the
    one before. -/
def opensRun {n : ℕ} (s : Fin n → ℕ) (p : Fin n) : Prop :=
  p.val = 0 ∨ ∃ h : 0 < p.val, s p ≠ s ⟨p.val - 1, by omega⟩

/-- For the extended list's length this is the notion the sorted pair numbers are flagged with. -/
theorem opener_iff_opensRun (s : Fin 270336 → ℕ) (p : Fin 270336) : opener s p ↔ opensRun s p := Iff.rfl

/-- Every value of a sequence is held by a position that opens a run: walk left while the entry stays the
    same. -/
theorem exists_opensRun_eq {n : ℕ} (s : Fin n → ℕ) (p : Fin n) : ∃ q : Fin n, opensRun s q ∧ s q = s p := by
  obtain ⟨m, hm⟩ : ∃ m, p.val = m := ⟨_, rfl⟩
  induction m generalizing p with
  | zero => exact ⟨p, Or.inl hm, rfl⟩
  | succ m ih =>
    by_cases hsame : s p = s ⟨p.val - 1, by omega⟩
    · obtain ⟨q, hq, hqe⟩ := ih ⟨p.val - 1, by omega⟩ (by show p.val - 1 = m; omega)
      exact ⟨q, hq, hqe.trans hsame.symm⟩
    · exact ⟨p, Or.inr ⟨by omega, hsame⟩, rfl⟩

/-- In a nondecreasing sequence no run-opener repeats the value of an earlier position: everything between the
    two would hold that value, the opener's predecessor included. -/
theorem opensRun_not_eq_of_lt {n : ℕ} (s : Fin n → ℕ) (hs : ∀ i j : Fin n, i ≤ j → s i ≤ s j) {p q : Fin n}
    (hq : opensRun s q) (hlt : p < q) : s p ≠ s q := by
  intro he
  have hlt' : p.val < q.val := hlt
  rcases hq with h0 | ⟨hpos, hne⟩
  · omega
  · apply hne
    have h1 : s p ≤ s ⟨q.val - 1, by omega⟩ := hs _ _ (by show p.val ≤ q.val - 1; omega)
    have h2 : s ⟨q.val - 1, by omega⟩ ≤ s q := hs _ _ (by show q.val - 1 ≤ q.val; omega)
    omega

/-- In a nondecreasing sequence two run-openers with one value are one position. -/
theorem opensRun_inj {n : ℕ} (s : Fin n → ℕ) (hs : ∀ i j : Fin n, i ≤ j → s i ≤ s j) {p q : Fin n}
    (hp : opensRun s p) (hq : opensRun s q) (he : s p = s q) : p = q := by
  rcases lt_trichotomy p q with h | h | h
  · exact absurd he (opensRun_not_eq_of_lt s hs hq h)
  · exact h
  · exact absurd he.symm (opensRun_not_eq_of_lt s hs hp h)

/-! ## The pairs of the extended list -/

theorem rowN_of_lt (e : SE.Idx → BitVec 32) (p : Fin 270336) (h : p.val < 262144) :
    rowN e p = (e (ix2 (0 : Fin 2) ⟨p.val, h⟩)).toNat := by
  unfold rowN; exact dif_pos h

theorem rowN_of_not_lt (e : SE.Idx → BitVec 32) (p : Fin 270336) (h : ¬ p.val < 262144) :
    rowN e p = p.val - 262144 := by
  unfold rowN; exact dif_neg h

theorem colN_of_lt (e : SE.Idx → BitVec 32) (p : Fin 270336) (h : p.val < 262144) :
    colN e p = (e (ix2 (1 : Fin 2) ⟨p.val, h⟩)).toNat := by
  unfold colN; exact dif_pos h

theorem colN_of_not_lt (e : SE.Idx → BitVec 32) (p : Fin 270336) (h : ¬ p.val < 262144) :
    colN e p = p.val - 262144 := by
  unfold colN; exact dif_neg h

/-- The neighbours of r are the targets of the extended list's pairs whose source is r: a listed edge is a pair
    of the first part, and the diagonal pair of r sits at position 262144 + r. -/
theorem edge_iff_pair (e : SE.Idx → BitVec 32) (hr : EdgeRange e) (r k : Fin 8192) :
    Edge e r k ↔ ∃ p : Fin 270336, rowN e p = r.val ∧ colN e p = k.val := by
  constructor
  · rintro (rfl | ⟨p, hp0, hp1⟩)
    · have h : ¬ (262144 + r.val) < 262144 := by omega
      refine ⟨⟨262144 + r.val, by omega⟩, ?_, ?_⟩
      · rw [rowN_of_not_lt e _ h]; show 262144 + r.val - 262144 = r.val; omega
      · rw [colN_of_not_lt e _ h]; show 262144 + r.val - 262144 = r.val; omega
    · have h : p.val < 262144 := p.isLt
      refine ⟨⟨p.val, by omega⟩, ?_, ?_⟩
      · rw [rowN_of_lt e _ h]; exact hp0
      · rw [colN_of_lt e _ h]; exact hp1
  · rintro ⟨p, h0, h1⟩
    by_cases h : p.val < 262144
    · refine Or.inr ⟨⟨p.val, h⟩, ?_, ?_⟩
      · rw [← rowN_of_lt e p h]; exact h0
      · rw [← colN_of_lt e p h]; exact h1
    · refine Or.inl (Fin.ext ?_)
      rw [rowN_of_not_lt e p h] at h0
      rw [colN_of_not_lt e p h] at h1
      omega

/-- Sources and targets of the extended list are node numbers, so a pair number is below 8192 · 8192. -/
theorem keyN_lt (e : SE.Idx → BitVec 32) (hr : EdgeRange e) (p : Fin 270336) :
    rowN e p < 8192 ∧ colN e p < 8192 ∧ keyN e p < 8192 * 8192 := by
  have hrow : rowN e p < 8192 := by
    by_cases h : p.val < 262144
    · rw [rowN_of_lt e p h]; exact hr 0 ⟨p.val, h⟩
    · rw [rowN_of_not_lt e p h]; omega
  have hcol : colN e p < 8192 := by
    by_cases h : p.val < 262144
    · rw [colN_of_lt e p h]; exact hr 1 ⟨p.val, h⟩
    · rw [colN_of_not_lt e p h]; omega
  refine ⟨hrow, hcol, ?_⟩
  unfold keyN
  omega

/-- A sorted entry splits back into the source and the target of the pair it came from. -/
theorem sorted_div_mod (e : SE.Idx → BitVec 32) (hr : EdgeRange e) (S : SortedKeys e) (q : Fin 270336) :
    S.s q / 8192 = rowN e (S.σ q) ∧ S.s q % 8192 = colN e (S.σ q) := by
  have h := S.eq q
  unfold keyN at h
  obtain ⟨_, hc, _⟩ := keyN_lt e hr (S.σ q)
  omega

/-! ## The count -/

/-- The run-openers of the sorted pair numbers whose entry divided by 8192 is r are as many as the neighbours
    of r: an opener goes to its entry's remainder mod 8192, a neighbour k comes from the opener of the run of
    r · 8192 + k. -/
theorem card_openers (e : SE.Idx → BitVec 32) (hr : EdgeRange e) (S : SortedKeys e) (r : Fin 8192) :
    by classical exact (Finset.univ.filter fun p : Fin 270336 => opener S.s p ∧ S.s p / 8192 = r.val).card = deg e r := by
  classical
  unfold deg
  refine Finset.card_bij (fun p _ => (⟨S.s p % 8192, Nat.mod_lt _ (by omega)⟩ : Fin 8192)) ?_ ?_ ?_
  · intro p hp
    obtain ⟨-, -, hdiv⟩ := Finset.mem_filter.mp hp
    obtain ⟨hrow, hcol⟩ := sorted_div_mod e hr S p
    refine Finset.mem_filter.mpr ⟨Finset.mem_univ _, (edge_iff_pair e hr r _).mpr ⟨S.σ p, ?_, ?_⟩⟩
    · omega
    · exact hcol.symm
  · intro p hp q hq hpq
    obtain ⟨-, hpo, hpd⟩ := Finset.mem_filter.mp hp
    obtain ⟨-, hqo, hqd⟩ := Finset.mem_filter.mp hq
    have hmod : S.s p % 8192 = S.s q % 8192 := congrArg Fin.val hpq
    exact opensRun_inj S.s S.mono hpo hqo (by omega)
  · intro k hk
    obtain ⟨-, hedge⟩ := Finset.mem_filter.mp hk
    obtain ⟨p0, h0, h1⟩ := (edge_iff_pair e hr r k).mp hedge
    obtain ⟨q, rfl⟩ := S.bij.surjective p0
    obtain ⟨q', hq'o, hq'e⟩ := exists_opensRun_eq S.s q
    obtain ⟨hrow, hcol⟩ := sorted_div_mod e hr S q
    have hk : k.val < 8192 := k.isLt
    refine ⟨q', Finset.mem_filter.mpr ⟨Finset.mem_univ _, hq'o, by omega⟩, Fin.ext ?_⟩
    show S.s q' % 8192 = k.val
    omega

end Cert.DenseGcn
-- ==== Proof.KernelIdeal.HostPairs.lean ====
/-
  The pair numbers the host code sorts: for every pair of the extended edge list (the listed edges, then the
  diagonal) the word source · 8192 + target.

  The host code multiplies the vector of sources by the constant 8192 and adds the vector of targets, as 32-bit
  words. Word arithmetic is arithmetic modulo 2³², and the word of a number is a ring homomorphism from the
  natural numbers, so the word at position p is the word of the pair number rowN · 8192 + colN of Spec.lean
  whatever the sizes are (under the range condition the number is below 2²⁶ and nothing wraps).
-/
import proofs.«409937_j69372311765406_2_alg».proof.Proof.Gen.KernelIdeal.Regions
import proofs.«409937_j69372311765406_2_alg».proof.Proof.Spec
import proofs.«409937_j69372311765406_2_alg».proof.Proof.Count
import proofs.«409937_j69372311765406_2_alg».proof.Proof.KernelIdeal.HostAdj
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

noncomputable section

namespace Cert.KernelIdeal.HostPairs

open Idealize.ShloMosaic Idealize.ShloMosaic.ValueIdx Idealize.ShloMosaic.TcCoe Idealize.SL.Sem
open Cert.KernelIdeal Cert.KernelIdeal.Gen Cert.DenseGcn Cert.KernelIdeal.HostAdj

/-! ## Words -/

/-- The word a · 8192 + b is the word of the same expression on the numbers the two words spell. -/
theorem mul_8192_add_word (a b : BitVec 32) :
    IntOp.addi (IntOp.muli a 8192#32) b = BitVec.ofNat 32 (a.toNat * 8192 + b.toNat) := by
  show a * BitVec.ofNat 32 8192 + b = _
  rw [BitVec.ofNat_add, BitVec.ofNat_mul, BitVec.ofNat_toNat, BitVec.ofNat_toNat, BitVec.setWidth_eq,
    BitVec.setWidth_eq]

/-! ## The host code's term for the vector of pair numbers -/

/-- The sources times 8192 plus the targets, over the extended vectors. -/
def keyVec (e : S2x262144.Idx → BitVec 32) : S270336.Idx → BitVec 32 :=
  addi (muli (extVec 0 slices_S2x262144_S1x262144_0_0 e)
      (broadcastInDim S270336 ![] bcast_S_S270336 (constantI S_ 32 8192#32)))
    (extVec 1 slices_S2x262144_S1x262144_1_0 e)

/-- Read at position p it is the word of pair p's number. -/
theorem keyVec_apply (e : S2x262144.Idx → BitVec 32) (p : Fin 270336) :
    keyVec e (ix1 p) = BitVec.ofNat 32 (keyN e p) := by
  show IntOp.addi (IntOp.muli (extVec 0 slices_S2x262144_S1x262144_0_0 e (ix1 p))
      (broadcastInDim S270336 ![] bcast_S_S270336 (constantI S_ 32 8192#32) (ix1 p)))
    (extVec 1 slices_S2x262144_S1x262144_1_0 e (ix1 p)) = _
  rw [extVec_apply 0 0 rfl, extVec_apply 1 1 rfl, broadcastInDim_scalar_apply, constantI_apply,
    mul_8192_add_word, extWord_zero_toNat, extWord_one_toNat]
  rfl

/-! ## The buffer after the first host stretch -/

section Buffers

variable (m : (ℓ : Loc nD τ sig) → Buf (Elt Ideal) ℓ) (c : Dev nD)

/-- Over any contents W of the buffers, the first host stretch leaves in the sort's input its term for the pair
    numbers of the edge array W holds. -/
theorem after_hostOps0_v25 (W : Valuation τ sig (Elt Ideal)) :
    (StableHlo.after hostOps0 W (Proc.devRef .tc main_v25) : S270336.Idx → BitVec 32)
      = keyVec (W (Proc.devRef .tc main_arg3)) := by
  after_results_simp
  rfl

/-- The first host stretch leaves its term for the pair numbers in the buffer the sort reads. -/
theorem v25_eq :
    (V1 m c main_v25 : S270336.Idx → BitVec 32) = keyVec (m ((c : Thread nD τ).loc main_arg3)) :=
  after_hostOps0_v25 (V0 m c)

/-- The word at position p of that buffer is the word of pair p's number, source · 8192 + target. -/
theorem pair_words (hr : EdgeRange (m ((c : Thread nD τ).loc main_arg3) : S2x262144.Idx → BitVec 32))
    (p : Fin 270336) :
    (V1 m c main_v25 : S270336.Idx → BitVec 32) (ix1 p)
      = BitVec.ofNat 32 (keyN (m ((c : Thread nD τ).loc main_arg3) : S2x262144.Idx → BitVec 32) p) := by
  rw [v25_eq]
  exact keyVec_apply _ p

end Buffers

end Cert.KernelIdeal.HostPairs

end
-- ==== Proof.KernelIdeal.HostKeys.lean ====
/-
  The integer half of the degree computation, read off the host code's buffers.

  The pair numbers source · 8192 + target of the extended edge list (the listed edges, then the diagonal) are
  sorted; a flag is raised at the first position and wherever a sorted entry differs from the one before it; and each
  sorted entry is divided by 8192, rounding down, to recover its source.

  Under the range condition every pair number is a natural number below 2²⁶, so on its 32-bit word the signed
  comparison is the order of the natural numbers and signed division and remainder by 8192 are theirs. A stable
  sort reads its table through one bijection σ of the positions and leaves no later entry strictly before an
  earlier one: s p := the pair number at σ p is a nondecreasing rearrangement. The flags are one at position 0 and
  "s p ≠ s (p − 1)" after it: one exactly where a run of equal entries opens. Floor division is spelt as truncating
  division corrected by one where the signs differ and the remainder is not zero; on a word that is not negative
  the signs differ only at zero, where the remainder is zero, so it returns the quotient s p / 8192.
-/
import proofs.«409937_j69372311765406_2_alg».proof.Proof.Gen.KernelIdeal.Regions
import proofs.«409937_j69372311765406_2_alg».proof.Proof.Spec
import proofs.«409937_j69372311765406_2_alg».proof.Proof.Count
import proofs.«409937_j69372311765406_2_alg».proof.Proof.KernelIdeal.HostPairs
import Idealize.ShloMosaic.Lib.SortFacts
import Idealize.ShloMosaic.Lib.StableHlo.Run
import Idealize.ShloMosaic.Lib.Pipeline.Value
import Idealize.ShloMosaic.Lib.ValueIdx
import Idealize.ShloMosaic.Lib.IdealHost
import Idealize.ShloMosaic.Lib.WordArith

noncomputable section

namespace Cert.KernelIdeal.HostKeys

open Idealize.ShloMosaic Idealize.ShloMosaic.ValueIdx Idealize.ShloMosaic.TcCoe
open Cert.KernelIdeal Cert.KernelIdeal.Gen Cert.DenseGcn

/-! ## Words

Natural numbers below 2³¹ as 32-bit words: signed order, signed division and remainder by 8192 are the natural
numbers' own. -/

/-- A natural number below 2³² read back from its word. -/
theorem toNat_ofNat32 (a : ℕ) (h : a < 2 ^ 32) : (BitVec.ofNat 32 a).toNat = a := by
  rw [BitVec.toNat_ofNat]; exact Nat.mod_eq_of_lt h

/-- Signed less-than on the words of two naturals below 2³¹ is less-than on the naturals. -/
theorem slt_ofNat (a b : ℕ) (ha : a < 2 ^ 31) (hb : b < 2 ^ 31) :
    (BitVec.ofNat 32 a).slt (BitVec.ofNat 32 b) = decide (a < b) := by
  unfold BitVec.slt
  rw [WordArith.toInt_ofNat_small a ha, WordArith.toInt_ofNat_small b hb]
  simp

/-- The comparator's bit, tested against one, is that less-than. -/
theorem cmpi_slt_beq_one (a b : ℕ) (ha : a < 2 ^ 31) (hb : b < 2 ^ 31) :
    (IntOp.cmpi .slt (BitVec.ofNat 32 a) (BitVec.ofNat 32 b) == 1#1) = decide (a < b) := by
  unfold IntOp.cmpi
  simp only [slt_ofNat a b ha hb]
  by_cases h : a < b <;> simp [h]

/-- Two words of naturals below 2³² differ exactly when the naturals do. -/
theorem cmpi_ne_ofNat (a b : ℕ) (ha : a < 2 ^ 32) (hb : b < 2 ^ 32) :
    IntOp.cmpi .ne (BitVec.ofNat 32 a) (BitVec.ofNat 32 b) = if a ≠ b then 1#1 else 0#1 := by
  unfold IntOp.cmpi
  by_cases h : a = b
  · subst h; simp
  · have hw : BitVec.ofNat 32 a ≠ BitVec.ofNat 32 b := fun e => h (by
      have := congrArg BitVec.toNat e; rwa [toNat_ofNat32 a ha, toNat_ofNat32 b hb] at this)
    have hb' : (BitVec.ofNat 32 a != BitVec.ofNat 32 b) = true := by simpa using hw
    simp only [hb', ne_eq, h, not_false_eq_true, if_true]
    rfl

/-- The word of a natural below 2³¹ has its sign bit clear. -/
theorem msb_ofNat_small (a : ℕ) (ha : a < 2 ^ 31) : (BitVec.ofNat 32 a).msb = false := by
  rw [BitVec.msb_eq_decide]; simp [toNat_ofNat32 a (by omega)]; omega

/-- Dividing by 8192 is never one of signed division's two corner cases. -/
theorem not_sdivCorner_8192 (x : BitVec 32) : ¬ IntOp.SDivCorner x 8192#32 := by
  unfold IntOp.SDivCorner
  rintro (h | ⟨_, h⟩) <;> exact absurd h (by decide)

/-- Truncating signed division of such a word by 8192 is division of the naturals. -/
theorem divsi_host_ofNat (a : ℕ) (ha : a < 2 ^ 31) :
    IntOp.divsi .host (BitVec.ofNat 32 a) 8192#32 = BitVec.ofNat 32 (a / 8192) := by
  unfold IntOp.divsi
  rw [if_neg (not_sdivCorner_8192 _)]
  rw [BitVec.sdiv_eq, msb_ofNat_small a ha]
  have h8 : (8192#32).msb = false := by decide
  rw [h8]
  apply BitVec.eq_of_toNat_eq
  rw [BitVec.udiv_eq, BitVec.toNat_udiv, toNat_ofNat32 a (by omega), toNat_ofNat32 (a / 8192) (by omega)]
  rfl

/-- The signed remainder of such a word by 8192 is the remainder of the naturals. -/
theorem remsi_host_ofNat (a : ℕ) (ha : a < 2 ^ 31) :
    IntOp.remsi .host (BitVec.ofNat 32 a) 8192#32 = BitVec.ofNat 32 (a % 8192) := by
  unfold IntOp.remsi
  rw [if_neg (not_sdivCorner_8192 _)]
  rw [BitVec.srem_eq, msb_ofNat_small a ha]
  have h8 : (8192#32).msb = false := by decide
  rw [h8]
  apply BitVec.eq_of_toNat_eq
  show (BitVec.ofNat 32 a % 8192#32).toNat = _
  rw [BitVec.toNat_umod, toNat_ofNat32 a (by omega), toNat_ofNat32 (a % 8192) (by omega)]
  rfl

/-- The sign of a word, as the elementwise sign operation computes it. -/
def signW (x : BitVec 32) : BitVec 32 := if x = 0 then 0 else if x.msb then -1 else 1

/-- Floor division by 8192 as it is spelt with truncating division, signs and a remainder, on the word of a natural
    below 2³¹: the signs differ only at zero, where the remainder is zero, so the quotient is returned as it is. -/
theorem floorDiv_word (a : ℕ) (ha : a < 2 ^ 31) :
    Scalar.select
        (IntOp.andi (IntOp.cmpi .ne (signW (BitVec.ofNat 32 a)) (signW 8192#32))
          (IntOp.cmpi .ne (IntOp.remsi .host (BitVec.ofNat 32 a) 8192#32) 0#32))
        (IntOp.subi (IntOp.divsi .host (BitVec.ofNat 32 a) 8192#32) 1#32)
        (IntOp.divsi .host (BitVec.ofNat 32 a) 8192#32)
      = BitVec.ofNat 32 (a / 8192) := by
  rw [divsi_host_ofNat a ha, remsi_host_ofNat a ha]
  have h8 : signW 8192#32 = 1#32 := by decide
  rw [h8]
  by_cases h0 : a = 0
  · subst h0
    decide
  · have hx : BitVec.ofNat 32 a ≠ 0 := fun e => h0 (by
      have := congrArg BitVec.toNat e; rwa [toNat_ofNat32 a (by omega)] at this)
    have hs : signW (BitVec.ofNat 32 a) = 1#32 := by
      unfold signW; rw [if_neg hx, msb_ofNat_small a ha]; rfl
    rw [hs]
    have : IntOp.cmpi .ne 1#32 1#32 = 0#1 := by decide
    rw [this]
    have hz : ∀ b : BitVec 1, IntOp.andi 0#1 b = 0#1 := by decide
    rw [hz, select_zero]

/-! ## A stable sort of natural words -/

/-- The rank-1 index the sort facts use is the index built from its coordinate. -/
theorem ofFin_eq_ix1 {n : ℕ} (k : Fin n) : Shape.Idx.ofFin k = ix1 k := by
  funext d; match d with | ⟨0, _⟩ => rfl

/-- A stable sort, by signed less-than, of a rank-1 table whose words are natural numbers below 2³¹: the result reads
    the table through one bijection of the positions, and the numbers it reads do not decrease. -/
theorem sort_natWords {n : ℕ} (x : (⟨1, ![n]⟩ : Shape).Idx → BitVec 32) (key : Fin n → ℕ)
    (hx : ∀ k, x (ix1 k) = BitVec.ofNat 32 (key k)) (hk : ∀ k, key k < 2 ^ 31)
    (cmp : BitVec 32 → BitVec 32 → BitVec 1) (hcmp : ∀ l r, cmp l r = IntOp.cmpi .slt l r) :
    ∃ σ : Fin n → Fin n, Function.Bijective σ ∧
      (∀ p : Fin n, Host.sort ⟨1, ![n]⟩ 0 cmp x (ix1 p) = BitVec.ofNat 32 (key (σ p))) ∧
      (∀ i j : Fin n, i ≤ j → key (σ i) ≤ key (σ j)) := by
  -- the comparator on the table's words is less-than on the numbers
  have hB : (fun k k' : Fin n => cmp (x (Shape.Idx.ofFin k)) (x (Shape.Idx.ofFin k')) == 1#1)
      = fun k k' => decide (key k < key k') := by
    funext k k'
    rw [hcmp, ofFin_eq_ix1, ofFin_eq_ix1, hx, hx]
    exact cmpi_slt_beq_one _ _ (hk k) (hk k')
  refine ⟨sortedFrom fun k k' => decide (key k < key k'),
    ⟨sortedFrom_injective _, sortedFrom_surjective _⟩, fun p => ?_, fun i j hij => ?_⟩
  · rw [Host.sort_rank1, hB, ofFin_eq_ix1, hx]
    rfl
  · rcases Nat.lt_or_ge i.val j.val with h | h
    · have := sortedFrom_noInversion (fun k k' : Fin n => decide (key k < key k')) (fun k k' => decide (key k < key k'))
        (fun a b h => by simp only [decide_eq_true_eq, decide_eq_false_iff_not] at h ⊢; omega)
        (fun _ _ h => h)
        (fun a b c h₁ h₂ => by simp only [decide_eq_false_iff_not] at h₁ h₂ ⊢; omega)
        i j (Fin.lt_def.mpr h)
      simp only [decide_eq_false_iff_not] at this
      omega
    · have : i = j := Fin.ext (by have := Fin.le_def.mp hij; omega)
      subst this; exact le_rfl

/-! ## The run flags at a position -/

/-- "One, then entry p ≠ entry p − 1 for p from 1 on", spelt as a one-element array laid end to end with the
    comparison of the table without its first entry against the table without its last: read at position p. The
    table's words are natural numbers below 2³². -/
theorem runFlags_at {N M : ℕ} (hNM : N = M + 1) (y : (⟨1, ![N]⟩ : Shape).Idx → BitVec 32) (s : Fin N → ℕ)
    (hy : ∀ p, y (ix1 p) = BitVec.ofNat 32 (s p)) (hs : ∀ p, s p < 2 ^ 32)
    (one : (⟨1, ![1]⟩ : Shape).Idx → BitVec 1) (hone : ∀ j, one j = 1#1)
    (h1 : (⟨1, ![N]⟩ : Shape).Slices ![1] ⟨1, ![M]⟩) (h0 : (⟨1, ![N]⟩ : Shape).Slices ![0] ⟨1, ![M]⟩)
    (hc : Shape.Concatenates [(⟨1, ![1]⟩ : Shape), ⟨1, ![M]⟩] ⟨1, ![N]⟩ 0) (p : Fin N) :
    concatenate ⟨1, ![N]⟩ 0
        [⟨⟨1, ![1]⟩, one⟩,
         ⟨⟨1, ![M]⟩, cmpi .ne (extractStridedSlice ⟨1, ![M]⟩ ![1] y h1) (extractStridedSlice ⟨1, ![M]⟩ ![0] y h0)⟩] hc (ix1 p)
      = if h : p.val = 0 then 1#1 else if s p ≠ s ⟨p.val - 1, by omega⟩ then 1#1 else 0#1 := by
  by_cases h : p.val = 0
  · rw [dif_pos h]
    refine (concatenate_pair_apply_left (0 : Fin 1) one _ hc (ix1 p) rfl (ix1 (0 : Fin 1)) fun b => ?_).trans (hone _)
    match b with
    | ⟨0, _⟩ => exact h.symm
  · rw [dif_neg h]
    have hp := p.isLt
    have hq : p.val - 1 < M := by omega
    refine (concatenate_pair_apply_right (s₂ := ⟨1, ![M]⟩) (0 : Fin 1) one _ hc (ix1 p) rfl rfl
      (ix1 (⟨p.val - 1, hq⟩ : Fin M)) (fun b hb => ?_) ?_).trans ?_
    · match b with
      | ⟨0, _⟩ => exact absurd rfl hb
    · show p.val - 1 + 1 = p.val
      omega
    · show IntOp.cmpi .ne (extractStridedSlice ⟨1, ![M]⟩ ![1] y h1 (ix1 ⟨p.val - 1, hq⟩))
          (extractStridedSlice ⟨1, ![M]⟩ ![0] y h0 (ix1 ⟨p.val - 1, hq⟩)) = _
      rw [extractStridedSlice_apply ![1] y h1 (ix1 ⟨p.val - 1, hq⟩) (ix1 p) (fun a => by
            match a with
            | ⟨0, _⟩ => show p.val = 1 + (p.val - 1); omega),
          extractStridedSlice_apply ![0] y h0 (ix1 ⟨p.val - 1, hq⟩) (ix1 ⟨p.val - 1, by omega⟩) (fun a => by
            match a with
            | ⟨0, _⟩ => show p.val - 1 = 0 + (p.val - 1); omega),
          hy, hy]
      exact cmpi_ne_ofNat _ _ (hs _) (hs _)

/-! ## The host stretches as terms of the buffers they read -/

/-- The run flags of a table: one, then "entry p differs from entry p − 1". -/
def flagsTerm (y : S270336.Idx → BitVec 32) : S270336.Idx → BitVec 1 :=
  concatenate S270336 0
    [⟨S1, broadcastInDim S1 ![] bcast_S_S1 (constantI S_ 1 1#1)⟩,
     ⟨S270335, cmpi .ne (extractStridedSlice S270335 ![1] y slices_S270336_S270335_1)
        (extractStridedSlice S270335 ![0] y slices_S270336_S270335_0)⟩]
    concatenates_S1_S270335_S270336_d0

/-- Floor division of a table by a scalar, as it is spelt with truncating division, signs and a remainder. -/
def floorTerm (y : S270336.Idx → BitVec 32) (k : S_.Idx → BitVec 32) : S270336.Idx → BitVec 32 :=
  select
    (andi (cmpi .ne (signi y) (broadcastInDim S270336 ![] bcast_S_S270336 (signi k)))
      (cmpi .ne (Host.remsi y (broadcastInDim S270336 ![] bcast_S_S270336 k))
        (broadcastInDim S270336 ![] bcast_S_S270336 (constantI S_ 32 0#32))))
    (subi (Host.divsi y (broadcastInDim S270336 ![] bcast_S_S270336 k))
      (broadcastInDim S270336 ![] bcast_S_S270336 (constantI S_ 32 1#32)))
    (Host.divsi y (broadcastInDim S270336 ![] bcast_S_S270336 k))

/-- Read at a position where the table holds the word of a natural below 2³¹, with the divisor 8192: the word of the
    natural number's quotient. -/
theorem floorTerm_at (y : S270336.Idx → BitVec 32) (k : S_.Idx → BitVec 32) (hk : k ix0 = 8192#32)
    (a : ℕ) (ha : a < 2 ^ 31) (p : Fin 270336) (hy : y (ix1 p) = BitVec.ofNat 32 a) :
    floorTerm y k (ix1 p) = BitVec.ofNat 32 (a / 8192) := by
  have hb : ∀ (x : S_.Idx → BitVec 32) (j : S270336.Idx),
      broadcastInDim S270336 ![] bcast_S_S270336 x j = x ix0 := fun x j => broadcastInDim_scalar_apply _ x j
  show Scalar.select
      (IntOp.andi (IntOp.cmpi .ne (signW (y (ix1 p))) (broadcastInDim S270336 ![] bcast_S_S270336 (signi k) (ix1 p)))
        (IntOp.cmpi .ne (IntOp.remsi .host (y (ix1 p)) (broadcastInDim S270336 ![] bcast_S_S270336 k (ix1 p)))
          (broadcastInDim S270336 ![] bcast_S_S270336 (constantI S_ 32 0#32) (ix1 p))))
      (IntOp.subi (IntOp.divsi .host (y (ix1 p)) (broadcastInDim S270336 ![] bcast_S_S270336 k (ix1 p)))
        (broadcastInDim S270336 ![] bcast_S_S270336 (constantI S_ 32 1#32) (ix1 p)))
      (IntOp.divsi .host (y (ix1 p)) (broadcastInDim S270336 ![] bcast_S_S270336 k (ix1 p))) = _
  simp only [hb]
  show Scalar.select
      (IntOp.andi (IntOp.cmpi .ne (signW (y (ix1 p))) (signW (k ix0)))
        (IntOp.cmpi .ne (IntOp.remsi .host (y (ix1 p)) (k ix0)) 0#32))
      (IntOp.subi (IntOp.divsi .host (y (ix1 p)) (k ix0)) 1#32)
      (IntOp.divsi .host (y (ix1 p)) (k ix0)) = _
  rw [hy, hk]
  exact floorDiv_word a ha

section Stretches

variable (V : Valuation τ sig (Elt Ideal))

/-- The one sort: the sorted buffer is the stable sort, by the signed comparator, of the pair numbers' buffer. -/
theorem sort_result :
    (StableHlo.after hostOps0_1 V (Proc.devRef .tc main_v26) : S270336.Idx → BitVec 32)
      = Host.sort S270336 0 comparator_i32_d0 (V (Proc.devRef .tc main_v25)) := by
  after_results
  rfl

/-- The flags' buffer is the run flags of the sorted buffer. -/
theorem flags_result :
    (StableHlo.after hostOps0_2 V (Proc.devRef .tc main_v31) : S270336.Idx → BitVec 1)
      = flagsTerm (V (Proc.devRef .tc main_v26)) := by
  after_results
  rfl

/-- The divisor's buffer holds 8192. -/
theorem divisor_result :
    (StableHlo.after hostOps0_2 V (Proc.devRef .tc main_c_6) : S_.Idx → BitVec 32) = constantI S_ 32 8192#32 := by
  after_results

set_option maxHeartbeats 1000000 in
/-- The quotient's buffer is the floor division of the sorted buffer by the divisor's buffer. -/
theorem floor_result :
    (StableHlo.after hostOps0_3 V (Proc.devRef .tc main_v32) : S270336.Idx → BitVec 32)
      = floorTerm (V (Proc.devRef .tc main_v26)) (V (Proc.devRef .tc main_c_6)) := by
  after_results
  rfl

end Stretches

/-! ## The buffers after the sort, the flags and the floor division -/

section Buffers

variable (m : (ℓ : Loc nD τ sig) → Buf (Elt Ideal) ℓ) (c : Dev nD)

/-- The sorted buffer is the stable sort of the pair numbers' buffer. -/
theorem v26_eq :
    (V2 m c main_v26 : S270336.Idx → BitVec 32) = Host.sort S270336 0 comparator_i32_d0 (V1 m c main_v25) :=
  sort_result (V1 m c)

/-- The flags' buffer, untouched by the floor division's stretch, is the run flags of the sorted buffer. -/
theorem v31_eq : (V4 m c main_v31 : S270336.Idx → BitVec 1) = flagsTerm (V2 m c main_v26) :=
  (V4_of m c main_v31 (by decide)).trans (flags_result (V2 m c))

/-- The quotient's buffer is the floor division of the sorted buffer by 8192. -/
theorem v32_eq :
    (V4 m c main_v32 : S270336.Idx → BitVec 32) = floorTerm (V2 m c main_v26) (constantI S_ 32 8192#32) :=
  (floor_result (V3 m c)).trans
    (congr (congrArg floorTerm (V3_of m c main_v26 (by decide))) (divisor_result (V2 m c)))

/-- The pair numbers sorted: a nondecreasing rearrangement s of them through a bijection of the positions, such that
    the quotient's buffer holds the word of s p / 8192 (the source of the pair sorted to p) and the flags' buffer holds
    one exactly at the positions that open a run of equal entries of s. -/
theorem sorted_words
    (hr : EdgeRange (m ((c : Thread nD τ).loc main_arg3) : S2x262144.Idx → BitVec 32)) :
    ∃ S : SortedKeys (m ((c : Thread nD τ).loc main_arg3) : S2x262144.Idx → BitVec 32),
      (∀ p : Fin 270336, (V4 m c main_v32 : S270336.Idx → BitVec 32) (ix1 p) = BitVec.ofNat 32 (S.s p / 8192)) ∧
      (∀ p : Fin 270336, (V4 m c main_v31 : S270336.Idx → BitVec 1) (ix1 p)
        = (by classical exact if opener S.s p then 1#1 else 0#1)) := by
  classical
  have hlt : ∀ k : Fin 270336,
      keyN (m ((c : Thread nD τ).loc main_arg3) : S2x262144.Idx → BitVec 32) k < 2 ^ 31 := fun k =>
    lt_trans (keyN_lt _ hr k).2.2 (by norm_num)
  obtain ⟨σ, hbij, hread, hmono⟩ := sort_natWords (V1 m c main_v25 : S270336.Idx → BitVec 32)
    (keyN (m ((c : Thread nD τ).loc main_arg3) : S2x262144.Idx → BitVec 32)) (HostPairs.pair_words m c hr) hlt
    comparator_i32_d0 (fun _ _ => rfl)
  -- the sorted buffer at p is the word of the pair number sorted to p
  have hsorted : ∀ p : Fin 270336, (V2 m c main_v26 : S270336.Idx → BitVec 32) (ix1 p)
      = BitVec.ofNat 32 (keyN (m ((c : Thread nD τ).loc main_arg3) : S2x262144.Idx → BitVec 32) (σ p)) := fun p =>
    (congrFun (v26_eq m c) (ix1 p)).trans (hread p)
  refine ⟨⟨fun p => keyN (m ((c : Thread nD τ).loc main_arg3) : S2x262144.Idx → BitVec 32) (σ p), σ, hbij,
    fun _ => rfl, hmono⟩, fun p => ?_, fun p => ?_⟩
  · rw [v32_eq]
    exact floorTerm_at _ _ rfl _ (hlt (σ p)) p (hsorted p)
  · rw [v31_eq]
    unfold flagsTerm
    rw [runFlags_at (N := 270336) (M := 270335) rfl (V2 m c main_v26 : S270336.Idx → BitVec 32)
      (fun p => keyN (m ((c : Thread nD τ).loc main_arg3) : S2x262144.Idx → BitVec 32) (σ p)) hsorted
      (fun p => lt_trans (hlt (σ p)) (by norm_num)) _ (fun j => broadcastInDim_scalar_apply _ _ j)]
    by_cases h0 : p.val = 0
    · rw [dif_pos h0]
      exact (if_pos (show opener _ p from Or.inl h0)).symm
    · rw [dif_neg h0]
      by_cases hne : keyN (m ((c : Thread nD τ).loc main_arg3) : S2x262144.Idx → BitVec 32) (σ p)
          ≠ keyN (m ((c : Thread nD τ).loc main_arg3) : S2x262144.Idx → BitVec 32) (σ ⟨p.val - 1, by omega⟩)
      · rw [if_pos hne]
        exact (if_pos (show opener _ p from Or.inr ⟨by omega, hne⟩)).symm
      · rw [if_neg hne]
        refine (if_neg ?_).symm
        rintro (h | ⟨_, h⟩)
        · exact h0 h
        · exact hne h

end Buffers

end Cert.KernelIdeal.HostKeys
-- ==== Proof.ScalarFacts.lean ====
/-
  Scalar facts at the ideal values that the reading of the reference, of the degree column and of the adjacency share:
  what the few float patterns the programs name denote (1, 0, -1/2), that a row of the 0/1 adjacency sums to the degree,
  that both spellings of d^{-1/2} — the power with exponent -1/2 and the reciprocal square root — are the reciprocal of
  the real square root at a positive count d, that a positive count tests above zero, and what a one-bit flag converts to.
-/
import proofs.«409937_j69372311765406_2_alg».proof.Proof.Spec
import Idealize.ShloMosaic.PureOps.Ideal
import Idealize.ShloMosaic.PureOps.Ideal.Laws
import Mathlib.Algebra.BigOperators.Ring.Finset
import Mathlib.Analysis.SpecialFunctions.Pow.Real
import Mathlib.Analysis.SpecialFunctions.Sqrt
import Mathlib.Data.EReal.Basic

noncomputable section

namespace Cert.DenseGcn

open Idealize.ShloMosaic Idealize.ShloMosaic.ValueIdx

/-! ## The float patterns the programs name -/

/-- The f32 pattern of 1. -/
theorem ofBits_one_f32 : Ideal.ofBits .f32 0x3F800000#32 = (1 : EReal) := by
  simp [Ideal.ofBits, Ideal.ieee, -EReal.coe_mul]; norm_num

/-- The bf16 pattern of 1. -/
theorem ofBits_one_bf16 : Ideal.ofBits .bf16 0x3F80#16 = (1 : EReal) := by
  simp [Ideal.ofBits, Ideal.ieee, -EReal.coe_mul]; norm_num

/-- The bf16 pattern of 0. -/
theorem ofBits_zero_bf16 : Ideal.ofBits .bf16 0x0000#16 = (0 : EReal) := by
  simp [Ideal.ofBits, Ideal.ieee]

/-- The f32 pattern of -1/2. -/
theorem ofBits_neg_half_f32 : Ideal.ofBits .f32 0xBF000000#32 = ((-(1/2) : ℝ) : EReal) := by
  simp [Ideal.ofBits, Ideal.ieee, -EReal.coe_mul]; norm_num

/-! ## A row of the adjacency sums to the degree -/

/-- A sum of zeros and ones is the number of ones: row r of the 0/1 adjacency sums to the degree of r. -/
theorem sum_adj_eq_deg (e : SE.Idx → BitVec 32) (r : Fin 8192) :
    ∑ k : Fin 8192, adj e r k = ((deg e r : ℝ) : EReal) := by
  classical
  unfold adj deg
  rw [EReal.coe_natCast]
  exact Finset.sum_boole (fun k : Fin 8192 => Edge e r k) Finset.univ

/-! ## d^{-1/2} at a positive count -/

/-- The scaling factor is the reciprocal of the square root of the degree. -/
theorem dinv_eq (e : SE.Idx → BitVec 32) (r : Fin 8192) :
    ((dinv e r : ℝ) : EReal) = (((Real.sqrt (deg e r))⁻¹ : ℝ) : EReal) := rfl

/-- A positive count to the power -1/2 is the reciprocal of its square root. -/
theorem pow_neg_half_nat (d : ℕ) (hd : 0 < d) :
    Ideal.pow (((d : ℝ)) : EReal) (Ideal.ofBits .f32 0xBF000000#32) = (((Real.sqrt d)⁻¹ : ℝ) : EReal) := by
  rw [ofBits_neg_half_f32, Ideal.pow_coe_coe]
  refine congrArg Real.toEReal ?_
  show (d : ℝ) ^ (-(1 / 2) : ℝ) = (Real.sqrt d)⁻¹
  rw [Real.rpow_neg (Nat.cast_nonneg d), Real.sqrt_eq_rpow]

/-- The reciprocal square root of a positive count is the reciprocal of its square root. -/
theorem rsqrt_nat (d : ℕ) (hd : 0 < d) :
    Ideal.rsqrt (((d : ℝ)) : EReal) = (((Real.sqrt d)⁻¹ : ℝ) : EReal) := by
  have h0 : ¬ (d : ℝ) < 0 := not_lt.2 (Nat.cast_nonneg d)
  have h1 : ¬ (d : ℝ) = 0 := Nat.cast_ne_zero.2 hd.ne'
  rw [Ideal.rsqrt_coe, if_neg h0, if_neg h1]

/-! ## The test deg > 0 and the conversion of a flag -/

/-- A positive count tests greater than the f32 zero. -/
theorem cmpf_ogt_zero_of_pos (d : ℕ) (hd : 0 < d) :
    FloatOps.cmpf (F := Ideal) (φ := .f32) .ogt (((d : ℝ)) : EReal) (Ideal.ofBits .f32 0x00000000#32) = 1#1 := by
  have hpos : (0 : EReal) < (((d : ℝ)) : EReal) := EReal.coe_pos.2 (Nat.cast_pos.2 hd)
  show Ideal.cmp .ogt (((d : ℝ)) : EReal) (Ideal.ofBits .f32 0x00000000#32) = 1#1
  rw [Ideal.ofBits_zero_f32]
  show BitVec.ofBool (decide ((0 : EReal) < (((d : ℝ)) : EReal))) = 1#1
  rw [decide_eq_true hpos]
  rfl

/-- A one-bit flag converts to 1 when it is set and to 0 when it is clear. -/
theorem uitofp_bit (b : BitVec 1) :
    FloatOps.uitofp (F := Ideal) .f32 b = (if b = 1#1 then (1 : EReal) else 0) := by
  show (((b.toNat : ℝ)) : EReal) = _
  rcases BitVec.eq_zero_or_eq_one b with h | h <;> subst h <;> simp

end Cert.DenseGcn

end
-- ==== Proof.KernelIdeal.HostDinvTail.lean ====
/-
  The degree column the host code hands the kernels, read at one row from the degree.

  From the vector of degrees the host code forms the flag "degree > 0" twice, replaces the degree by one where
  the second flag is clear, takes the reciprocal square root, replaces the result by zero where the first flag
  is clear, and stands the vector up as a column.  At a row whose degree is a positive count d both flags are
  set, so neither replacement happens and the column's entry is the reciprocal of the square root of d.
-/
import proofs.«409937_j69372311765406_2_alg».proof.Proof.Gen.KernelIdeal.Regions
import proofs.«409937_j69372311765406_2_alg».proof.Proof.Spec
import proofs.«409937_j69372311765406_2_alg».proof.Proof.ScalarFacts
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

noncomputable section

namespace Cert.KernelIdeal.HostDinvTail

open Idealize.ShloMosaic Idealize.ShloMosaic.ValueIdx Idealize.ShloMosaic.TcCoe Idealize.SL.Sem
open Idealize.ShloMosaic.StableHlo
open Cert.KernelIdeal Cert.KernelIdeal.Gen Cert.DenseGcn

/-! ## Reading at one row -/

/-- A vector stood up as a column reads, at (r, 0), the vector at r. -/
theorem column_apply {a : ℕ} {α : Type} (x : (⟨1, ![a]⟩ : Shape).Idx → α)
    (h : (⟨1, ![a]⟩ : Shape).ShapeCasts ⟨2, ![a, 1]⟩) (r : Fin a) :
    shapeCast ⟨2, ![a, 1]⟩ x h (ix2 r (0 : Fin 1)) = x (ix1 r) :=
  shapeCast_apply x h _ _ (by
    rw [Shape.rowMajor_val_two, Shape.rowMajor_val_one]
    show r.val = r.val * 1 + 0
    omega)

/-- A set flag selects the first branch. -/
theorem select_one {α : Type} (a b : α) : Scalar.select (1#1 : BitVec 1) a b = a := by
  unfold Scalar.select
  rw [if_pos (by decide : (1#1 : BitVec 1) = 1)]

/-- The degree column at a row whose degree is a positive count d: the flag "degree > 0" is set, so the degree
    is kept, its reciprocal square root is kept, and the entry is the reciprocal of the square root of d. -/
theorem column_of_deg (x : S8192.Idx → EReal) (hb : S_.BroadcastsInDim S8192 (![] : Fin 0 → Fin S8192.rank))
    (hc : S8192.ShapeCasts S8192x1) (d : ℕ) (hd : 0 < d) (r : Fin 8192) (hx : x (ix1 r) = ((d : ℝ) : EReal)) :
    shapeCast S8192x1
        (select (cmpf .ogt x (broadcastInDim S8192 ![] hb (constant (F := Ideal) S_ .f32 0x00000000#32)))
          (Host.rsqrt
            (select (cmpf .ogt x (broadcastInDim S8192 ![] hb (constant (F := Ideal) S_ .f32 0x00000000#32))) x
              (broadcastInDim S8192 ![] hb (constant (F := Ideal) S_ .f32 0x3F800000#32))))
          (broadcastInDim S8192 ![] hb (constant (F := Ideal) S_ .f32 0x00000000#32))) hc (ix2 r (0 : Fin 1))
      = (((Real.sqrt d)⁻¹ : ℝ) : EReal) := by
  have hflag : cmpf .ogt x (broadcastInDim S8192 ![] hb (constant (F := Ideal) S_ .f32 0x00000000#32)) (ix1 r) = 1#1 := by
    rw [cmpf_apply, hx, broadcastInDim_scalar_apply, constant_apply]
    exact cmpf_ogt_zero_of_pos d hd
  rw [column_apply, select_apply, hflag, select_one]
  show FloatOps.hostUnary (F := Ideal) .rsqrt _ = _
  rw [Ideal.hostUnary_rsqrt_def, select_apply, hflag, select_one, hx]
  exact rsqrt_nat d hd

/-! ## The host stretches, over any contents they start from -/

section Stretches

variable (W : Valuation τ sig (Elt Ideal))

/-- The last stretch stands the scaled vector up as a column. -/
theorem stretch8_v44 :
    (StableHlo.after hostOps0_8 W (Proc.devRef .tc main_v44) : S8192x1.Idx → EReal)
      = shapeCast S8192x1 (W (Proc.devRef .tc main_v43) : S8192.Idx → EReal) shapeCasts_S8192_S8192x1 := by
  after_results <;> rfl

/-- The stretch before it keeps the reciprocal square root where the first flag is set, zero elsewhere. -/
theorem stretch7_v43 :
    (StableHlo.after hostOps0_7 W (Proc.devRef .tc main_v43) : S8192.Idx → EReal)
      = select (W (Proc.devRef .tc main_v38) : S8192.Idx → BitVec 1) (W (Proc.devRef .tc main_v42) : S8192.Idx → EReal)
          (broadcastInDim S8192 ![] bcast_S_S8192 (W (Proc.devRef .tc main_cst_11) : S_.Idx → EReal)) := by
  after_results <;> rfl

/-- The reciprocal square root of the guarded degrees. -/
theorem stretch6_v42 :
    (StableHlo.after hostOps0_6 W (Proc.devRef .tc main_v42) : S8192.Idx → EReal)
      = Host.rsqrt (F := Ideal) (φ := .f32) (W (Proc.devRef .tc main_v41) : FVec Ideal S8192 .f32) := by
  after_results <;> rfl

/-- The constant zero of the last replacement. -/
theorem stretch6_cst11 :
    (StableHlo.after hostOps0_6 W (Proc.devRef .tc main_cst_11) : S_.Idx → EReal)
      = constant (F := Ideal) S_ .f32 0x00000000#32 := by
  after_results <;> rfl

/-- The degrees kept where the second flag is set, one elsewhere. -/
theorem stretch5_v41 :
    (StableHlo.after hostOps0_5 W (Proc.devRef .tc main_v41) : S8192.Idx → EReal)
      = select (W (Proc.devRef .tc main_v40) : S8192.Idx → BitVec 1) (W (Proc.devRef .tc main_v36) : S8192.Idx → EReal)
          (broadcastInDim S8192 ![] bcast_S_S8192 (W (Proc.devRef .tc main_cst_10) : S_.Idx → EReal)) := by
  after_results <;> rfl

/-- The first flag: the degrees this same stretch leaves, compared with zero. -/
theorem stretch4_v38 :
    (StableHlo.after hostOps0_4 W (Proc.devRef .tc main_v38) : S8192.Idx → BitVec 1)
      = cmpf .ogt (StableHlo.after hostOps0_4 W (Proc.devRef .tc main_v36) : S8192.Idx → EReal)
          (broadcastInDim S8192 ![] bcast_S_S8192 (constant (F := Ideal) S_ .f32 0x00000000#32)) := by
  after_results <;> rfl

/-- The second flag, the same comparison. -/
theorem stretch4_v40 :
    (StableHlo.after hostOps0_4 W (Proc.devRef .tc main_v40) : S8192.Idx → BitVec 1)
      = cmpf .ogt (StableHlo.after hostOps0_4 W (Proc.devRef .tc main_v36) : S8192.Idx → EReal)
          (broadcastInDim S8192 ![] bcast_S_S8192 (constant (F := Ideal) S_ .f32 0x00000000#32)) := by
  after_results <;> rfl

/-- The constant one of the first replacement. -/
theorem stretch4_cst10 :
    (StableHlo.after hostOps0_4 W (Proc.devRef .tc main_cst_10) : S_.Idx → EReal)
      = constant (F := Ideal) S_ .f32 0x3F800000#32 := by
  after_results <;> rfl

end Stretches

/-! ## The degree column between the items -/

section Buffers

variable (m : (ℓ : Loc nD τ sig) → Buf (Elt Ideal) ℓ) (c : Dev nD)

/-- The degree column the kernels read, as one term of the degree vector. -/
theorem v44_eq :
    (V9 m c main_v44 : S8192x1.Idx → EReal)
      = shapeCast S8192x1
          (select (cmpf .ogt (V5 m c main_v36 : S8192.Idx → EReal) (broadcastInDim S8192 ![] bcast_S_S8192 (constant (F := Ideal) S_ .f32 0x00000000#32)))
            (Host.rsqrt (F := Ideal) (φ := .f32)
              (select (cmpf .ogt (V5 m c main_v36 : S8192.Idx → EReal) (broadcastInDim S8192 ![] bcast_S_S8192 (constant (F := Ideal) S_ .f32 0x00000000#32))) (V5 m c main_v36 : S8192.Idx → EReal) (broadcastInDim S8192 ![] bcast_S_S8192 (constant (F := Ideal) S_ .f32 0x3F800000#32))))
            (broadcastInDim S8192 ![] bcast_S_S8192 (constant (F := Ideal) S_ .f32 0x00000000#32))) shapeCasts_S8192_S8192x1 := by
  have e44 : (V9 m c main_v44 : S8192x1.Idx → EReal)
      = shapeCast S8192x1 (V8 m c main_v43 : S8192.Idx → EReal) shapeCasts_S8192_S8192x1 := stretch8_v44 (V8 m c)
  have e43 : (V8 m c main_v43 : S8192.Idx → EReal)
      = select (V7 m c main_v38 : S8192.Idx → BitVec 1) (V7 m c main_v42 : S8192.Idx → EReal)
          (broadcastInDim S8192 ![] bcast_S_S8192 (V7 m c main_cst_11 : S_.Idx → EReal)) := stretch7_v43 (V7 m c)
  have e42 : (V7 m c main_v42 : S8192.Idx → EReal)
      = Host.rsqrt (F := Ideal) (φ := .f32) (V6 m c main_v41 : FVec Ideal S8192 .f32) := stretch6_v42 (V6 m c)
  have e11 : (V7 m c main_cst_11 : S_.Idx → EReal) = constant (F := Ideal) S_ .f32 0x00000000#32 :=
    stretch6_cst11 (V6 m c)
  have e38' : V7 m c main_v38 = V5 m c main_v38 :=
    (V7_of m c main_v38 (by decide)).trans (V6_of m c main_v38 (by decide))
  have e41 : (V6 m c main_v41 : S8192.Idx → EReal)
      = select (V5 m c main_v40 : S8192.Idx → BitVec 1) (V5 m c main_v36 : S8192.Idx → EReal)
          (broadcastInDim S8192 ![] bcast_S_S8192 (V5 m c main_cst_10 : S_.Idx → EReal)) := stretch5_v41 (V5 m c)
  have e38 : (V5 m c main_v38 : S8192.Idx → BitVec 1) = cmpf .ogt (V5 m c main_v36 : S8192.Idx → EReal) (broadcastInDim S8192 ![] bcast_S_S8192 (constant (F := Ideal) S_ .f32 0x00000000#32)) := stretch4_v38 (V4 m c)
  have e40 : (V5 m c main_v40 : S8192.Idx → BitVec 1) = cmpf .ogt (V5 m c main_v36 : S8192.Idx → EReal) (broadcastInDim S8192 ![] bcast_S_S8192 (constant (F := Ideal) S_ .f32 0x00000000#32)) := stretch4_v40 (V4 m c)
  have e10 : (V5 m c main_cst_10 : S_.Idx → EReal) = constant (F := Ideal) S_ .f32 0x3F800000#32 :=
    stretch4_cst10 (V4 m c)
  rw [e44, e43, e42, e11, e38', e41, e38, e40, e10]

/-- At a row whose degree is a positive count d the degree column holds the reciprocal of the square root of d. -/
theorem dinv_of_deg (d : ℕ) (hd : 0 < d) (r : Fin 8192)
    (h36 : (V5 m c main_v36 : S8192.Idx → EReal) (ix1 r) = ((d : ℝ) : EReal)) :
    (V9 m c main_v44 : S8192x1.Idx → EReal) (ix2 r (0 : Fin 1)) = (((Real.sqrt d)⁻¹ : ℝ) : EReal) := by
  rw [v44_eq]
  exact column_of_deg _ _ _ d hd r h36

end Buffers

end Cert.KernelIdeal.HostDinvTail

end
-- ==== Proof.KernelIdeal.HostDinv.lean ====
/-
  The float half of the degree computation, read off the host operations that run before the first kernel region.

  The sorted pair numbers give, per position p of the extended edge list, a row word (the pair number's quotient
  by 8192) and a flag (1 where the position opens a run of equal pair numbers).  The program turns the flags into
  floats 0.0 / 1.0 and adds each to a vector of zeros at the position's row word: element r of the result is the
  number of run openers in row r, which is the number of distinct neighbours of r, its degree.  Every degree is at
  least one, so the guarded reciprocal square root that follows (proved beside this module) leaves deg^{-1/2} in
  the column handed to the kernel.

  The stretch of operations is first read as a term over the contents it starts from, those contents a variable;
  the term is then read at one node, where the sum of the flags over the positions of row r is counted.
-/
import proofs.«409937_j69372311765406_2_alg».proof.Proof.Gen.KernelIdeal.Regions
import proofs.«409937_j69372311765406_2_alg».proof.Proof.Spec
import proofs.«409937_j69372311765406_2_alg».proof.Proof.LibIndexMaps
import proofs.«409937_j69372311765406_2_alg».proof.Proof.Count
import proofs.«409937_j69372311765406_2_alg».proof.Proof.KernelIdeal.HostKeys
import proofs.«409937_j69372311765406_2_alg».proof.Proof.KernelIdeal.HostDinvTail
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostDinv

open Idealize.ShloMosaic Idealize.ShloMosaic.ValueIdx Idealize.ShloMosaic.TcCoe
open Cert.KernelIdeal Cert.KernelIdeal.Gen Cert.DenseGcn

variable (m : (ℓ : Loc nD τ sig) → Buf (Elt Ideal) ℓ) (c : Dev nD)

/-! ## Row numbers of the sorted pair numbers -/

/-- Under the range hypothesis the source of every pair of the extended list is a node number. -/
theorem rowN_lt (e : SE.Idx → BitVec 32) (hr : EdgeRange e) (p : Fin 270336) : rowN e p < 8192 := by
  unfold rowN
  split_ifs with h
  · exact hr 0 ⟨p.val, h⟩
  · have := p.isLt
    omega

/-- Under the range hypothesis the target of every pair of the extended list is a node number. -/
theorem colN_lt (e : SE.Idx → BitVec 32) (hr : EdgeRange e) (p : Fin 270336) : colN e p < 8192 := by
  unfold colN
  split_ifs with h
  · exact hr 1 ⟨p.val, h⟩
  · have := p.isLt
    omega

/-- The row number of a sorted pair number, its quotient by 8192, is a node number. -/
theorem sorted_row_lt (e : SE.Idx → BitVec 32) (hr : EdgeRange e) (S : SortedKeys e) (p : Fin 270336) :
    S.s p / 8192 < 8192 := by
  rw [S.eq p]
  unfold keyN
  have h1 := rowN_lt e hr (S.σ p)
  have h2 := colN_lt e hr (S.σ p)
  omega

/-- A word made from a number below 8192 reads, signed, as that number. -/
theorem toInt_ofNat_small (q : ℕ) (hq : q < 8192) : (BitVec.ofNat 32 q).toInt = (q : Int) := by
  rw [BitVec.toInt_eq_toNat_of_lt (by rw [BitVec.toNat_ofNat]; omega), BitVec.toNat_ofNat]
  have : q % 2 ^ 32 = q := Nat.mod_eq_of_lt (by omega)
  rw [this]

/-- A finite sum of reals, each read as an extended real, is the sum read as an extended real. -/
theorem coe_sum_real {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The flags of the run openers, as 0.0 and 1.0, summed over the positions of row r: the degree of r. -/
theorem flag_sum_eq_deg (e : SE.Idx → BitVec 32) (hr : EdgeRange e) (S : SortedKeys e)
    (rows : (⟨1, ![270336]⟩ : Shape).Idx → BitVec 32) (flags : (⟨1, ![270336]⟩ : Shape).Idx → BitVec 1)
    (hrows : ∀ p : Fin 270336, rows (ix1 p) = BitVec.ofNat 32 (S.s p / 8192))
    (hflags : ∀ p : Fin 270336, flags (ix1 p) = (by classical exact if opener S.s p then 1#1 else 0#1))
    (hcard : ∀ r : Fin 8192, by classical exact
      (Finset.univ.filter fun p : Fin 270336 => opener S.s p ∧ S.s p / 8192 = r.val).card = deg e r)
    (r : Fin 8192) :
    (∑ p : Fin 270336, if (rows (ix1 p)).toInt = ((r.val : ℕ) : Int)
        then (((flags (ix1 p)).toNat : ℝ) : EReal) else 0) = ((deg e r : ℝ) : EReal) := by
  classical
  have hterm : ∀ p : Fin 270336,
      (if (rows (ix1 p)).toInt = ((r.val : ℕ) : Int) then (((flags (ix1 p)).toNat : ℝ) : EReal) else 0)
        = (((if opener S.s p ∧ S.s p / 8192 = r.val then (1 : ℝ) else 0) : ℝ) : EReal) := by
    intro p
    rw [hrows p, hflags p, toInt_ofNat_small _ (sorted_row_lt e hr S p)]
    by_cases ho : opener S.s p <;> by_cases hq : S.s p / 8192 = r.val
    · rw [if_pos (by exact_mod_cast hq), if_pos ho, if_pos ⟨ho, hq⟩]; simp
    · rw [if_neg (by exact_mod_cast hq), if_neg (fun h => hq h.2)]; simp
    · rw [if_pos (by exact_mod_cast hq), if_neg ho, if_neg (fun h => ho h.1)]; simp
    · rw [if_neg (by exact_mod_cast hq), if_neg (fun h => hq h.2)]; simp
  rw [Finset.sum_congr rfl (fun p _ => hterm p), coe_sum_real, Finset.sum_boole, ← hcard r]

/-! ## The scatter stage, read over an arbitrary entry valuation -/

/-- The degree vector as the program computes it: zeros, to which the flag of every position (as 0.0 or 1.0)
    is added at the position's row word. -/
def degVec (rows : S270336.Idx → BitVec 32) (flags : S270336.Idx → BitVec 1) : FVec Ideal S8192 .f32 :=
  Host.scatterAdd (F := Ideal) scatter_S8192_S270336x1_S270336_n_0_0_1
    (broadcastInDim S8192 ![] bcast_S_S8192 (constant (F := Ideal) S_ .f32 0x00000000#32))
    (broadcastInDim S270336x1 ![0] bcast_S270336_S270336x1_0 rows)
    (uitofp (F := Ideal) .f32 flags)

/-- The vector of zeros the flags are added to. -/
def zeroVec : FVec Ideal S8192 .f32 :=
  broadcastInDim S8192 ![] bcast_S_S8192 (constant (F := Ideal) S_ .f32 0x00000000#32)

/-- The degrees, after the stretch that scatters the flags: a term over the row words and the flags the stretch
    starts from, whatever they are. -/
theorem degrees_after (W : Valuation τ sig (Elt Ideal)) :
    (StableHlo.after hostOps0_4 W (Proc.devRef .tc main_v36) : S8192.Idx → EReal)
      = degVec (W main_v32 : S270336.Idx → BitVec 32) (W main_v31 : S270336.Idx → BitVec 1) := by
  after_results <;> rfl

/-! ## The degree vector at one node -/

/-- Every element of the zero vector is zero. -/
theorem zeroVec_apply (i : S8192.Idx) : zeroVec i = 0 := by
  show Ideal.ofBits .f32 0x00000000#32 = 0
  exact Ideal.ofBits_zero_f32

/-- The column of row words made from the vector of row words, read at (p, 0): the word of position p. -/
theorem rowColumn_apply (rows : S270336.Idx → BitVec 32) (p : Fin 270336) :
    broadcastInDim S270336x1 ![0] bcast_S270336_S270336x1_0 rows (ix2 p (0 : Fin 1)) = rows (ix1 p) := by
  refine broadcastInDim_apply _ _ rows _ (ix1 p) (fun a => ?_)
  match a with
  | ⟨0, _⟩ => rfl

/-- The degree vector at node r: zero plus, over the positions whose row word reads r, the flag as 0.0 or 1.0. -/
theorem degVec_apply (rows : S270336.Idx → BitVec 32) (flags : S270336.Idx → BitVec 1) (r : Fin 8192) :
    degVec rows flags (ix1 r)
      = 0 + ∑ p : Fin 270336, if (rows (ix1 p)).toInt = ((r.val : ℕ) : Int)
          then (((flags (ix1 p)).toNat : ℝ) : EReal) else 0 := by
  unfold degVec Host.scatterAdd
  rw [Ideal.hostScatterAdd_def]
  rw [Cert.Gcn.IndexMaps.hostScatterAdd1_apply scatter_S8192_S270336x1_S270336_n_0_0_1 rfl rfl rfl rfl]
  refine congrArg₂ (· + ·) (zeroVec_apply (ix1 r)) (Finset.sum_congr rfl (fun p _ => ?_))
  rw [rowColumn_apply]
  rfl

/-! ## The degrees the program holds -/

/-- The edge array the launch memory holds on core c. -/
abbrev edgesOf : SE.Idx → BitVec 32 := m ((c : Thread nD τ).loc main_arg3)

/-- From the sorted pair numbers' row words and opener flags: the degree buffer holds, at node r, the degree of r. -/
theorem deg_read_of_sorted (hr : EdgeRange (edgesOf m c)) (S : SortedKeys (edgesOf m c))
    (hrows : ∀ p : Fin 270336, (V4 m c main_v32 : S270336.Idx → BitVec 32) (ix1 p) = BitVec.ofNat 32 (S.s p / 8192))
    (hflags : ∀ p : Fin 270336, (V4 m c main_v31 : S270336.Idx → BitVec 1) (ix1 p)
      = (by classical exact if opener S.s p then 1#1 else 0#1))
    (r : Fin 8192) :
    (V5 m c main_v36 : S8192.Idx → EReal) (ix1 r) = ((deg (edgesOf m c) r : ℝ) : EReal) := by
  have h36 : (V5 m c main_v36 : S8192.Idx → EReal)
      = degVec (V4 m c main_v32 : S270336.Idx → BitVec 32) (V4 m c main_v31 : S270336.Idx → BitVec 1) :=
    degrees_after (V4 m c)
  rw [h36, degVec_apply, zero_add]
  exact flag_sum_eq_deg (edgesOf m c) hr S _ _ hrows hflags (card_openers (edgesOf m c) hr S) r

/-! ## The column handed to the kernel -/

/-- From the sorted pair numbers' row words and opener flags: the column holds deg^{-1/2} at (r, 0). -/
theorem dinv_read_of_sorted (hr : EdgeRange (edgesOf m c)) (S : SortedKeys (edgesOf m c))
    (hrows : ∀ p : Fin 270336, (V4 m c main_v32 : S270336.Idx → BitVec 32) (ix1 p) = BitVec.ofNat 32 (S.s p / 8192))
    (hflags : ∀ p : Fin 270336, (V4 m c main_v31 : S270336.Idx → BitVec 1) (ix1 p)
      = (by classical exact if opener S.s p then 1#1 else 0#1))
    (r : Fin 8192) :
    (V9 m c main_v44 : S8192x1.Idx → EReal) (ix2 r (0 : Fin 1)) = ((dinv (edgesOf m c) r : ℝ) : EReal) :=
  HostDinvTail.dinv_of_deg m c (deg (edgesOf m c) r) (deg_pos (edgesOf m c) r) r
    (deg_read_of_sorted m c hr S hrows hflags r)

/-- The degree buffer holds, at node r, the degree of r. -/
theorem deg_read (hr : EdgeRange (m ((c : Thread nD τ).loc main_arg3) : S2x262144.Idx → BitVec 32)) (r : Fin 8192) :
    (V5 m c main_v36 : S8192.Idx → EReal) (ix1 r)
      = ((deg (m ((c : Thread nD τ).loc main_arg3) : S2x262144.Idx → BitVec 32) r : ℝ) : EReal) := by
  obtain ⟨S, hrows, hflags⟩ := HostKeys.sorted_words m c hr
  exact deg_read_of_sorted m c hr S hrows hflags r

/-- The column handed to the kernel holds deg^{-1/2} at (r, 0). -/
theorem dinv_read (hr : EdgeRange (m ((c : Thread nD τ).loc main_arg3) : S2x262144.Idx → BitVec 32)) (r : Fin 8192) :
    (V9 m c main_v44 : S8192x1.Idx → EReal) (ix2 r (0 : Fin 1))
      = ((dinv (m ((c : Thread nD τ).loc main_arg3) : S2x262144.Idx → BitVec 32) r : ℝ) : EReal) := by
  obtain ⟨S, hrows, hflags⟩ := HostKeys.sorted_words m c hr
  exact dinv_read_of_sorted m c hr S hrows hflags r

end Cert.KernelIdeal.HostDinv

end
-- ==== Proof.Bridge.lean ====
/-
  The certificate's claims, assembled from the pieces.

  At the ideal instance the two-region program ends with its result array at what region 1's write-backs leave.
  Region 1 computes the half-by-half contraction of the adjacency matrix against the scaled rows that region 0
  left, scales the result rows and adds the bias row; the host stretches before the regions build the adjacency
  matrix and the scaling column from the edge list.  Reading each of these back as its mathematical content and
  applying the identity between the two arrangements of D^{-1/2} A D^{-1/2} (x w) + b shows that the result is
  the layer's value of the argument arrays, index by index.  The reference program's composed term is the same
  value of its own argument arrays, and the two memories agree on the arguments.

  The precondition enters twice: finite x and w make every factor a real number, which the identity between the
  two arrangements needs, and node numbers in range make the sorted pair numbers count the degrees.
-/
import proofs.«409937_j69372311765406_2_alg».proof.Defs
import proofs.«409937_j69372311765406_2_alg».proof.Proof.Spec
import proofs.«409937_j69372311765406_2_alg».proof.Proof.Algebra
import proofs.«409937_j69372311765406_2_alg».proof.Proof.PreDecode
import proofs.«409937_j69372311765406_2_alg».proof.Proof.RefRun
import proofs.«409937_j69372311765406_2_alg».proof.Proof.RefRead
import proofs.«409937_j69372311765406_2_alg».proof.Proof.RefVal
import proofs.«409937_j69372311765406_2_alg».proof.Proof.Gen.Kernel
import proofs.«409937_j69372311765406_2_alg».proof.Proof.Gen.KernelIdeal
import proofs.«409937_j69372311765406_2_alg».proof.Proof.Gen.ReferenceIdeal
import proofs.«409937_j69372311765406_2_alg».proof.Proof.Gen.Pre_finite_inputs
import proofs.«409937_j69372311765406_2_alg».proof.Proof.Gen.KernelIdeal.Regions
import proofs.«409937_j69372311765406_2_alg».proof.Proof.Kernel.Run
import proofs.«409937_j69372311765406_2_alg».proof.Proof.KernelIdeal.RunVal
import proofs.«409937_j69372311765406_2_alg».proof.Proof.KernelIdeal.KVal
import proofs.«409937_j69372311765406_2_alg».proof.Proof.KernelIdeal.HostAdj
import proofs.«409937_j69372311765406_2_alg».proof.Proof.KernelIdeal.HostDinv

noncomputable section

namespace Cert.Proof.Bridge

open Idealize.ShloMosaic Idealize.ShloMosaic.TcCoe Idealize.ShloMosaic.ValueIdx Idealize.SL.Sem
open Cert.DenseGcn

/-- The layer's value as one array of its four argument arrays: entry (r, j) is row r, column j of
    D^{-1/2} A D^{-1/2} (x w) + b. -/
def layer (x : SX.Idx → EReal) (w : SW.Idx → EReal) (b : SB.Idx → EReal) (e : SE.Idx → BitVec 32) : SX.Idx → EReal :=
  fun i => refOut e x w b (i 0) (i 1)

theorem layer_apply (x : SX.Idx → EReal) (w : SW.Idx → EReal) (b : SB.Idx → EReal) (e : SE.Idx → BitVec 32)
    (r : Fin 8192) (j : Fin 128) : layer x w b e (ix2 r j) = refOut e x w b r j := rfl

/-! ## The idealized kernel's result -/

section KernelSide

open Cert.KernelIdeal Cert.KernelIdeal.Gen Cert.KernelIdeal.Frame

variable (m : (ℓ : Loc nD τ sig) → Buf (Elt Ideal) ℓ)

/-- Region 0 is entered with the first two arguments as launched: no host stretch before it writes them. -/
theorem entry0_arg0 (c : Dev nD) : VE0 m c main_arg0 = m ((c : Thread nD τ).loc main_arg0) := HostAdj.arg0_read9 m c

theorem entry0_arg1 (c : Dev nD) : VE0 m c main_arg1 = m ((c : Thread nD τ).loc main_arg1) := HostAdj.arg1_read9 m c

/-- Region 1 is entered with the adjacency matrix and the scaling column as the first host stretches left them:
    neither region 0 nor the stretch between the regions writes them. -/
theorem entry1_adjacency (c : Dev nD) : VE1 m c main_v22 = V9 m c main_v22 :=
  (V11_of m (outsA m) c main_v22 (by decide)).trans (V10_of m (outsA m) c main_v22 (by decide))

theorem entry1_scaling (c : Dev nD) : VE1 m c main_v44 = V9 m c main_v44 :=
  (V11_of m (outsA m) c main_v44 (by decide)).trans (V10_of m (outsA m) c main_v44 (by decide))

/-- Region 1 is entered with region 0's output where region 0 left it. -/
theorem entry1_rows (c : Dev nD) : VE1 m c main_v45 = (dat0 (VE0 m) c).arrAt 3 cfg0.N :=
  (V11_of m (outsA m) c main_v45 (by decide)).trans (V10A_main_v45 m c)

/-- With x and w finite and the edge list's words node numbers, region 1 leaves the layer's value of the launch
    memory's argument arrays in the result array. -/
theorem kernel_result (c : Dev nD)
    (hx : ∀ i, ∃ t : ℝ, (m ((c : Thread nD τ).loc main_arg0) : SX.Idx → EReal) i = (t : EReal))
    (hw : ∀ i, ∃ t : ℝ, (m ((c : Thread nD τ).loc main_arg1) : SW.Idx → EReal) i = (t : EReal))
    (hr : EdgeRange (m ((c : Thread nD τ).loc main_arg3) : SE.Idx → BitVec 32)) :
    ((dat1 (F := Ideal) (VE1 m) c).arrAt 4 cfg1.N : SX.Idx → EReal)
      = layer (m ((c : Thread nD τ).loc main_arg0)) (m ((c : Thread nD τ).loc main_arg1))
          (m ((c : Thread nD τ).loc main_arg2)) (m ((c : Thread nD τ).loc main_arg3)) := by
  funext i
  obtain ⟨r, j, rfl⟩ : ∃ (r : Fin 8192) (j : Fin 128), i = ix2 r j := ⟨i 0, i 1, eq_ix2 i⟩
  rw [layer_apply]
  refine (KVal.region1_out (VE1 m) c r j).trans ?_
  refine kerForm_eq_refOut _ _ _ _ hx hw _ _ _ _ ?_ ?_ ?_ ?_ r j
  · intro r k
    rw [entry1_adjacency]
    exact HostAdj.adj_read m c hr r k
  · intro r
    rw [entry1_scaling]
    exact HostDinv.dinv_read m c hr r
  · intro r j
    rw [entry1_rows, entry1_scaling]
    refine (KVal.region0_out (VE0 m) c r j).trans ?_
    rw [entry0_arg0, entry0_arg1]
  · intro j
    exact HostAdj.bias_read m (outsA m) c j

end KernelSide

/-! ## The idealized reference's result -/

/-- With the edge list's words node numbers the reference's composed term is the layer's value of its arguments. -/
theorem reference_result (x0 : (⟨Cert.ReferenceIdeal.S8192x128, .f32⟩ : BufTy).Contents (Elt Ideal))
    (x1 : (⟨Cert.ReferenceIdeal.S128x128, .f32⟩ : BufTy).Contents (Elt Ideal))
    (x2 : (⟨Cert.ReferenceIdeal.S128, .f32⟩ : BufTy).Contents (Elt Ideal))
    (x3 : (⟨Cert.ReferenceIdeal.S2x262144, .i32⟩ : BufTy).Contents (Elt Ideal)) (hr : EdgeRange x3) :
    Cert.ReferenceIdeal.Read.val_main_v52 (F := Ideal) x0 x1 x2 x3 = layer x0 x1 x2 x3 := by
  funext i
  obtain ⟨r, j, rfl⟩ : ∃ (r : Fin 8192) (j : Fin 128), i = ix2 r j := ⟨i 0, i 1, eq_ix2 i⟩
  rw [layer_apply]
  exact Cert.ReferenceIdeal.RefValue.result_eq x0 x1 x2 x3 hr r j

/-! ## The claims -/

theorem frame_Kernel : Cert.frame_Kernel := fun m ρ _ => Cert.Kernel.Frame.frame m ρ

theorem frame_KernelIdeal : Cert.frame_KernelIdeal := fun m ρ _ => Cert.KernelIdeal.Frame.frame m ρ

theorem frame_ReferenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation, so there is nothing to preserve. -/
theorem preserves : Cert.preserves_Kernel_KernelIdeal := trivial

/-- At the ideal instance, from memories that agree on the arguments and satisfy the precondition, both programs
    end with the layer's value of the kernel memory's argument arrays in their result arrays. -/
theorem algebraic : Cert.algebraic_KernelIdeal_ReferenceIdeal := by
  intro m ρ m' ρ' hpre hagree
  obtain hdec := fun c => pre_decode _ _ _ _ (hpre c)
  refine ⟨fun c => layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩)
      (Cert.KernelIdeal.Frame.run_val (F := Ideal) m ρ)
    obtain ⟨hx, hw, -, hr⟩ := hdec c
    exact kernel_result m c hx hw hr
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, (hagree c).1, (hagree c).2.1, (hagree c).2.2.1, (hagree c).2.2.2]
    exact reference_result _ _ _ _ (hdec c).2.2.2

end Cert.Proof.Bridge

end
-- ==== Proof.lean ====
/-
  The certificate: the five claims of one dense graph-convolution layer over 8192 nodes, and their conjunction.

  Both programs compute D^{-1/2} A D^{-1/2} (x w) + b, where A is the 0/1 adjacency matrix of the edge list with
  the diagonal set and D its row sums.  The reference scales A on both sides and contracts once over all the
  nodes.  The kernel program counts the degrees by sorting the pair numbers source · 8192 + target, scales the
  rows of x w in a first region, and in a second region contracts A against them half by half, scales the result
  rows and adds the bias.  Each program runs, terminates without fault and leaves its arguments as launched; the
  ideal pass rewrote nothing; and at the ideal instance, on finite inputs with every edge word a node number, the
  two results agree entry by entry.  The pieces are proved in the modules under Proof/ and put together in
  Proof/Bridge.lean; the witnesses of the programs' stated facts are the generated instances.
-/
import proofs.«409937_j69372311765406_2_alg».proof.Defs
import proofs.«409937_j69372311765406_2_alg».proof.Proof.Gen.Kernel
import proofs.«409937_j69372311765406_2_alg».proof.Proof.Gen.KernelIdeal
import proofs.«409937_j69372311765406_2_alg».proof.Proof.Gen.ReferenceIdeal
import proofs.«409937_j69372311765406_2_alg».proof.Proof.Gen.Pre_finite_inputs
import proofs.«409937_j69372311765406_2_alg».proof.Proof.Bridge

namespace Cert.Proof

theorem claim : Cert.Claim :=
  ⟨Cert.Kernel.Gen.facts, Cert.KernelIdeal.Gen.facts, Cert.ReferenceIdeal.Gen.facts, Cert.Pre_finite_inputs.Gen.facts,
    Bridge.frame_Kernel, Bridge.frame_KernelIdeal, Bridge.frame_ReferenceIdeal, Bridge.preserves, Bridge.algebraic⟩

end Cert.Proof
